-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S1x128 : Shape := ⟨2, ![1, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_arg4 : FVec F S1x128 .f32) (main_arg5 : FVec F S1x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S1x128 .f32 := Host.absf main_arg4
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S1x128 .f32 := Host.absf main_arg5
  let main_cst_8 : FVec F S_ .f32 := constant S_ .f32 0x7F800000#32
  let main_v25 : FVec F S1x128 .f32 := broadcastInDim S1x128 ![] bcast_S_S1x128 main_cst_8
  let main_v26 : IVec S1x128 1 := cmpf .olt main_v24 main_v25
  let main_c_9 : IVec S_ 1 := constantI S_ 1 1#1
  let main_v27 : IVec S_ 1 := (fun x v => Host.reduce IntOp.andi x v reducesTo_S1x128_S_d0_1 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128x128 .f32) (main_arg4 : FVec F S1x128 .f32) (main_arg5 : FVec F S1x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S1x128 : Shape := ⟨2, ![1, 128]⟩
abbrev S5000x512 : Shape := ⟨2, ![5000, 512]⟩
abbrev S512x128 : Shape := ⟨2, ![512, 128]⟩
abbrev S128x5000 : Shape := ⟨2, ![128, 5000]⟩
abbrev S5000x128 : Shape := ⟨2, ![5000, 128]⟩
abbrev S128x512 : Shape := ⟨2, ![128, 512]⟩

abbrev nBuf : Space → Nat
  | .hbm => 8
  | .vmem => 14
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S1x128, .f32⟩
  | .hbm, ⟨5, _⟩ => ⟨S1x128, .f32⟩
  | .hbm, ⟨6, _⟩ => ⟨S10000x128, .f32⟩
  | .hbm, ⟨7, _⟩ => ⟨S10000x128, .f32⟩
  | .local _ .vmem, ⟨0, _⟩ => ⟨S10000x128, .f32⟩
  | .local _ .vmem, ⟨1, _⟩ => ⟨S5000x512, .f32⟩
  | .local _ .vmem, ⟨2, _⟩ => ⟨S5000x512, .f32⟩
  | .local _ .vmem, ⟨3, _⟩ => ⟨S5000x512, .f32⟩
  | .local _ .vmem, ⟨4, _⟩ => ⟨S5000x512, .f32⟩
  | .local _ .vmem, ⟨5, _⟩ => ⟨S128x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S10000x128, .f32⟩
  | .local _ .vmem, ⟨10, _⟩ => ⟨S512x128, .f32⟩
  | .local _ .vmem, ⟨11, _⟩ => ⟨S512x128, .f32⟩
  | .local _ .vmem, ⟨12, _⟩ => ⟨S128x5000, .bf16⟩
  | .local _ .vmem, ⟨13, _⟩ => ⟨S128x5000, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c1_i32 : BitVec 32 := 1#32
  let c0_i32 : BitVec 32 := 0#32
  ![c1_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S5000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S10000x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S10000x128_S5000x128_0_0 : ∀ a, (![0, 0] : Fin 2 → Nat) a + S5000x128.size a ≤ S10000x128.size a
  h_S5000x128 : 0 < S5000x128.numel
  transposes_S5000x128_p1_0_S128x5000 : S5000x128.Transposes [1, 0] S128x5000
  inb_S128x5000_S128x5000_0_0 : ∀ a, (![0, 0] : Fin 2 → Nat) a + S128x5000.size a ≤ S128x5000.size a
  h_S128x5000 : 0 < S128x5000.numel
  shapeCasts_S128x5000_S128x5000 : S128x5000.ShapeCasts S128x5000
  packedbf16_S128x5000_S128x5000_0_0 : (Rect.unit (s := S128x5000) ![0, 0] S128x5000.size inb_S128x5000_S128x5000_0_0).PackedRows (EltTy.packing .bf16)
  inb_S10000x128_S5000x128_5000_0 : ∀ a, (![5000, 0] : Fin 2 → Nat) a + S5000x128.size a ≤ S10000x128.size a
  inb_S5000x512_S5000x512_0_0 : ∀ a, (![0, 0] : Fin 2 → Nat) a + S5000x512.size a ≤ S5000x512.size a
  h_S5000x512 : 0 < S5000x512.numel
  transposes_S128x512_p1_0_S512x128 : S128x512.Transposes [1, 0] S512x128
  inb_S1x128_S1x128_0_0 : ∀ a, (![0, 0] : Fin 2 → Nat) a + S1x128.size a ≤ S1x128.size a
  h_S1x128 : 0 < S1x128.numel
  broadcasts_S1x128_S512x128 : S1x128.Broadcasts S512x128
  iota_S512x128_d0_w32 : S512x128.Iotas .tc 32 [0]
  inb_S512x128_S512x128_0_0 : ∀ a, (![0, 0] : Fin 2 → Nat) a + S512x128.size a ≤ S512x128.size a
  h_S512x128 : 0 < S512x128.numel
  inb_S10000x128_S10000x128_0_0 : ∀ a, (![0, 0] : Fin 2 → Nat) a + S10000x128.size a ≤ S10000x128.size a
  h_S10000x128 : 0 < S10000x128.numel
  shapeCasts_S5000x128_S5000x128 : S5000x128.ShapeCasts S5000x128
  shapeCasts_S10000x128_S10000x128 : S10000x128.ShapeCasts S10000x128
  broadcasts_S1x128_S10000x128 : S1x128.Broadcasts S10000x128
  dot_S5000x128_S128x128_S5000x128_1_0_0_1_n_n_wf : DotDims.WF S5000x128 S128x128 S5000x128 [1] [0] [0] [1] [] []
  dot_S128x5000_S5000x512_S128x512_1_0_0_1_n_n_wf : DotDims.WF S128x5000 S5000x512 S128x512 [1] [0] [0] [1] [] []
  dot_S512x128_S128x128_S512x128_1_0_0_1_n_n_wf : DotDims.WF S512x128 S128x128 S512x128 [1] [0] [0] [1] [] []
  dot_S5000x512_S512x128_S5000x128_1_0_0_1_n_n_wf : DotDims.WF S5000x512 S512x128 S5000x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S5000x512.size a < S10000x10000.size a
  hwx0_1 : ∀ i : grid0.Coords, EltTy.bits .f32 = 32 ∨ (Rect.unit (s := S10000x10000) (fun a => cc0_transform_1 i a * S5000x512.size a) (fun a => (Pipeline.Clip.of (cc0_transform_1 i a) (S5000x512.size a) (S10000x10000.size a)).extent (S5000x512.size a)) fun a => Pipeline.Clip.inb (Pipeline.Clip.ok_of (hstart0_1 i a))).WholeWords (EltTy.packing .f32)
  hwxs0_1 : ∀ i : grid0.Coords, EltTy.bits .f32 = 32 ∨ (Rect.unit (s := S5000x512) (fun _ => 0) (fun a => (Pipeline.Clip.of (cc0_transform_1 i a) (S5000x512.size a) (S10000x10000.size a)).extent (S5000x512.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S5000x512.size a < S10000x10000.size a
  hwx0_2 : ∀ i : grid0.Coords, EltTy.bits .f32 = 32 ∨ (Rect.unit (s := S10000x10000) (fun a => cc0_transform_2 i a * S5000x512.size a) (fun a => (Pipeline.Clip.of (cc0_transform_2 i a) (S5000x512.size a) (S10000x10000.size a)).extent (S5000x512.size a)) fun a => Pipeline.Clip.inb (Pipeline.Clip.ok_of (hstart0_2 i a))).WholeWords (EltTy.packing .f32)
  hwxs0_2 : ∀ i : grid0.Coords, EltTy.bits .f32 = 32 ∨ (Rect.unit (s := S5000x512) (fun _ => 0) (fun a => (Pipeline.Clip.of (cc0_transform_2 i a) (S5000x512.size a) (S10000x10000.size a)).extent (S5000x512.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S10000x128.size a ≤ S10000x128.size a
  hwx0_7 : ∀ i : grid0.Coords, EltTy.bits .f32 = 32 ∨ (Rect.block (s := S10000x128) S10000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hstart0_8 : ∀ (i : grid0.Coords) a, cc0_transform_8 i a * S512x128.size a < S10000x128.size a
  hwx0_8 : ∀ i : grid0.Coords, EltTy.bits .f32 = 32 ∨ (Rect.unit (s := S10000x128) (fun a => cc0_transform_8 i a * S512x128.size a) (fun a => (Pipeline.Clip.of (cc0_transform_8 i a) (S512x128.size a) (S10000x128.size a)).extent (S512x128.size a)) fun a => Pipeline.Clip.inb (Pipeline.Clip.ok_of (hstart0_8 i a))).WholeWords (EltTy.packing .f32)
  hwxs0_8 : ∀ i : grid0.Coords, EltTy.bits .f32 = 32 ∨ (Rect.unit (s := S512x128) (fun _ => 0) (fun a => (Pipeline.Clip.of (cc0_transform_8 i a) (S512x128.size a) (S10000x128.size a)).extent (S512x128.size a)) fun a => (Nat.zero_add _).trans_le (Pipeline.Clip.extent_le (Pipeline.Clip.ok_of (hstart0_8 i a)))).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S128x5000_S5000x512_S128x512_1_0_0_1_n_n : DotDims S128x5000 S5000x512 S128x512 where
  lhsContracting := [1]
  rhsContracting := [0]
  lhsNonContracting := [0]
  rhsNonContracting := [1]
  lhsBatch := []
  rhsBatch := []
  wf := dot_S128x5000_S5000x512_S128x512_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S5000x512_S512x128_S5000x128_1_0_0_1_n_n : DotDims S5000x512 S512x128 S5000x128 where
  lhsContracting := [1]
  rhsContracting := [0]
  lhsNonContracting := [0]
  rhsNonContracting := [1]
  lhsBatch := []
  rhsBatch := []
  wf := dot_S5000x512_S512x128_S5000x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S5000x512.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg1) S5000x512.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S10000x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpecClip (Memref.whole main_v0_1) S512x128.size cc0_transform_8 reads0_8 true false 2 stage0_8 sem0_8
    hrank0 hreads0_8 hstart0_8 nbuf0_8 (Memref.isWhole_whole _) hwx0_8 hwxs0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S1x128 : Shape := ⟨2, ![1, 128]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S1x128, .f32⟩
  | .hbm, ⟨5, _⟩ => ⟨S1x128, .f32⟩
  | .hbm, ⟨6, _⟩ => ⟨S10000x10000, .f32⟩
  | .hbm, ⟨7, _⟩ => ⟨S10000x128, .f32⟩
  | .hbm, ⟨8, _⟩ => ⟨S10000x128, .f32⟩
  | .hbm, ⟨9, _⟩ => ⟨S10000x128, .f32⟩
  | .hbm, ⟨10, _⟩ => ⟨S10000x128, .f32⟩
  | .hbm, ⟨11, _⟩ => ⟨S10000x128, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S_, .f32⟩
  | .hbm, ⟨16, _⟩ => ⟨S10000x128, .f32⟩
  | .hbm, ⟨17, _⟩ => ⟨S10000x128, .f32⟩
  | .hbm, ⟨18, _⟩ => ⟨S_, .f32⟩
  | .hbm, ⟨19, _⟩ => ⟨S10000x128, .f32⟩
  | .hbm, ⟨20, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_cst : Ref sig .tc := ⟨.hbm, 15, rfl⟩
abbrev main_call0_v0 : Ref sig .tc := ⟨.hbm, 16, rfl⟩
abbrev main_v9 : Ref sig .tc := ⟨.hbm, 17, rfl⟩
abbrev main_call1_cst : Ref sig .tc := ⟨.hbm, 18, rfl⟩
abbrev main_call1_v0 : Ref sig .tc := ⟨.hbm, 19, rfl⟩
abbrev main_v10 : Ref sig .tc := ⟨.hbm, 20, rfl⟩

abbrev nD : Nat := 1
abbrev τ : Topo := Topo.v7x

variable {F : FTy → Type} [FloatOps F]

class Facts₀ : Prop where
  transposes_S10000x10000_S10000x10000_1_0 : S10000x10000.Transposes [1, 0] S10000x10000
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.BitsData.lean ====
/-
  The proof data of the word-level program's one kernel region, stated without naming what the body leaves in
  any staging buffer: the claim about this program is only that it runs to the end, faults nowhere and leaves
  its arguments as they were. The incidence matrix is handed to the kernel twice (its upper and its lower
  row half), so the two windows on it each hold half of the array's share.
-/
import proofs.«137455_g35845797052899_cont_8to1_b_606_24_alg».proof.Proof.Gen.Kernel.Launch
import proofs.«137455_g35845797052899_cont_8to1_b_606_24_alg».proof.Proof.Gen.Kernel.Skeleton
import proofs.«137455_g35845797052899_cont_8to1_b_606_24_alg».proof.Proof.Gen.Kernel.Points
import Idealize.ShloMosaic.Lib.Pipeline.Kit
import Idealize.ShloMosaic.Lib.Tactic

noncomputable section

namespace Cert.Kernel.FrameData

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf kernel pipe)

variable {F : FTy → Type} [FloatOps F]

/-- The proof's resource algebra: one copy of the rounds library's, the pipeline's. -/
abbrev EP : Emb (UR sig nD τ) (MT nD τ sig Unit (Elt F) ℕ (UR sig nD τ) ℕ) := emb₁

/-- The kernel's variants: none. -/
abbrev 𝒱₀ : Variants := Variants.none

variable (m : (ℓ : Loc nD τ sig) → Buf (Elt F) ℓ) (ρ : Dev nD → PrngReg)

/-- The share of its array each input window holds: the two windows on the incidence matrix a half each. -/
def shareOf : Fin 9 → PosShare TreeShare
  | ⟨1, _⟩ => fullShare.left
  | ⟨2, _⟩ => fullShare.right
  | _ => fullShare

/-- The proof data on device `c`: the arrays at their launch contents; of what the body leaves in a staging
    buffer nothing is said; between points the two scratch buffers, each whole at some contents; nothing owed. -/
def rdats (_ : Fin 1) (c : Dev nD) : RDat τ (Elt F) Unit ℕ (UR sig nD τ) ℕ cfg0 c where
  A w := m ((cfg0.win w).arr.view.loc (c : Thread nD τ))
  after _ _ _ _ := True
  Φ _ := Pipeline.scopedRest spec0 c
  q := shareOf
  owed _ := 0

end Cert.Kernel.FrameData

end
-- ==== Proof.BitsBody.lean ====
/-
  The body obligation of the word-level program's one kernel region, for proof data that say nothing of what
  the body leaves in any staging buffer. The body only ever loads and stores whole buffers or literal halves of
  them, so all it needs of each of its eleven buffers (nine staging buffers, two scratch buffers) is that the
  buffer is held whole, at whatever contents; and that is also all it hands back. It branches three times on
  the grid coordinate (twice on "first point", once on "last point"); whichever way each branch goes, every
  access stays inside a buffer that is held, so the run is proved for every combination of the branches and no
  fact about which point takes which branch is needed.
-/
import proofs.«137455_g35845797052899_cont_8to1_b_606_24_alg».proof.Proof.BitsData
import Idealize.ShloMosaic.Lib.Tactic

-- membership in rectangles of the buffers' extents (10000x128, 5000x512): one structural step per coordinate
set_option maxRecDepth 16384

noncomputable section

namespace Cert.Kernel.FrameBody

open Cert.Kernel Cert.Kernel.Gen Cert.Kernel.FrameData

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf kernel pipe)

variable {F : FTy → Type} [FloatOps F]

local notation "𝕄" => MT nD τ sig Unit (Elt F) ℕ (UR sig nD τ) ℕ

/-! ## A buffer held at some contents -/

/-- A memref's elements held whole at SOME contents: all the frame ever says of a buffer. -/
abbrev held (c : Dev nD) {sp : Space} {sh : Shape} {e : EltTy} (m : Memref sig .tc sp sh e) : sProp 𝕄 :=
  iprop(∃ f, m.view.loc (c : Thread nD τ) ↦[m.view.set]{fullShare} f)

/-- A buffer owned at named contents is held at some. -/
theorem held_of_owns (c : Dev nD) {sp : Space} {sh : Shape} {e : EltTy} (m : Memref sig .tc sp sh e) (X : sh.Idx → Elt F e) :
    (owns (c : Thread nD τ) m fullShare X : sProp 𝕄) ⊢ held c m := by
  unfold owns
  iintro ⟨%f, -, H⟩
  iexists f; iexact H

/-- A buffer held at some contents is owned at what the memref reads of them; of those nothing is asked. -/
theorem owns_of_held (c : Dev nD) {sp : Space} {sh : Shape} {e : EltTy} (m : Memref sig .tc sp sh e) :
    (held c m : sProp 𝕄) ⊢ iprop(∃ X : sh.Idx → Elt F e, ⌜True⌝ ∗ owns (c : Thread nD τ) m fullShare X) := by
  unfold owns
  iintro ⟨%f, H⟩
  iexists m.view.read (Elt F) f
  isplitr; · ipureintro; trivial
  iexists f
  isplitr; · ipureintro; rfl
  iexact H

/-- Holding a whole buffer's memref is the buffer's points-to at some contents. -/
theorem held_whole (c : Dev nD) (b : Ref sig .tc) :
    (held c (Memref.whole b) : sProp 𝕄) = iprop(∃ f : Buf (Elt F) ((c : Thread nD τ).loc b), ((c : Thread nD τ).loc b) ↦{fullShare} f) := by
  unfold held
  simp only [Memref.view_whole, View.set_whole]

/-! ## The branches' conditions -/

/-- The condition of the two branches on the first point, as the body spells it over the coordinates. -/
abbrev condFirst (i : grid0.Coords) : Prop :=
  (Scalar.cmpi .ne (Scalar.extui (Scalar.cmpi .eq (BitVec.ofNat 32 (i 0).val) 0#32)) 0#32) = 1#1
/-- The condition of the branch on the last point. -/
abbrev condLast (i : grid0.Coords) : Prop :=
  (Scalar.cmpi .ne (Scalar.extui (Scalar.cmpi .eq (BitVec.ofNat 32 (i 0).val) 19#32)) 0#32) = 1#1

/-! ## The body on any eleven whole buffers -/

-- (every combination of the branches is run in this one declaration, each through all ninety-one statements)
set_option maxHeartbeats 4000000 in
/-- The kernel function on ANY eleven memrefs that are whole buffers, each held at some contents: it runs to its
    return, and each buffer is then held at some contents again. Both "first point" branches read the same
    condition, so there are four ways through the three branches; on each, every load and store is of a whole
    buffer or of a literal half of one that is held, and the contents read or stored play no part. -/
theorem run_body (c : Dev nD) (E : Set ℕ) (i : grid0.Coords)
    (arg1 : Memref sig .tc .vmem S10000x128 .f32) (harg1 : arg1.IsWhole) (arg2 : Memref sig .tc .vmem S5000x512 .f32) (harg2 : arg2.IsWhole)
    (arg3 : Memref sig .tc .vmem S5000x512 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S10000x128 .f32) (harg8 : arg8.IsWhole)
    (arg9 : Memref sig .tc .vmem S512x128 .f32) (harg9 : arg9.IsWhole) (arg10 : Memref sig .tc .vmem S128x5000 .bf16) (harg10 : arg10.IsWhole)
    (arg11 : Memref sig .tc .vmem S128x5000 .bf16) (harg11 : arg11.IsWhole)
    (K : PUnit → sProp 𝕄) :
    iprop((held c arg1 ∗ held c arg2 ∗ held c arg3 ∗ held c arg4 ∗ held c arg5 ∗ held c arg6 ∗ held c arg7 ∗ held c arg8
            ∗ held c arg9 ∗ held c arg10 ∗ held c arg11)
        ∗ (iprop(held c arg1 ∗ held c arg2 ∗ held c arg3 ∗ held c arg4 ∗ held c arg5 ∗ held c arg6 ∗ held c arg7 ∗ held c arg8
            ∗ held c arg9 ∗ held c arg10 ∗ held c arg11) -∗ K ⟨⟩))
      ⊢ wp frame (wpE (defs₀ (F := F)) 𝒱₀ c none) E
          (cc0__hnhn_block i arg1 harg1 arg2 harg2 arg3 harg3 arg4 harg4 arg5 harg5 arg6 harg6 arg7 harg7 arg8 harg8 arg9 harg9 arg10 harg10 arg11 harg11) K := by
  sl_unfold [cc0__hnhn_block]
  iintro ⟨⟨⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩⟩, Hk⟩
  by_cases hc1 : condFirst i <;> by_cases hc3 : condLast i <;>
  · sl_exec (disch := first | exact hc1 | exact hc3)
    sl_step
    iapply Hk
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact H11

/-! ## The obligation at a point -/

variable (m : (ℓ : Loc nD τ sig) → Buf (Elt F) ℓ)

/-- What the body is handed at point `t`: the invariant (the two scratch buffers at some contents), what the core
    owes, and the nine current staging buffers at contents `Y w`. -/
def bodyPre (c : Dev nD) (t : Fin cfg0.N) (Y : (w : Fin cfg0.W) → (cfg0.win w).block.Idx → Elt F (cfg0.win w).elt) : sProp 𝕄 :=
  iprop((rdats m 0 c).Φ t.castSucc ∗ (rdats m 0 c).owesAt () t.castSucc
    ∗ owns (c : Thread nD τ) (st0_0 t) fullShare (Y 0) ∗ owns (c : Thread nD τ) (st0_1 t) fullShare (Y 1)
    ∗ owns (c : Thread nD τ) (st0_2 t) fullShare (Y 2) ∗ owns (c : Thread nD τ) (st0_3 t) fullShare (Y 3)
    ∗ owns (c : Thread nD τ) (st0_4 t) fullShare (Y 4) ∗ owns (c : Thread nD τ) (st0_5 t) fullShare (Y 5)
    ∗ owns (c : Thread nD τ) (st0_6 t) fullShare (Y 6) ∗ owns (c : Thread nD τ) (st0_7 t) fullShare (Y 7)
    ∗ owns (c : Thread nD τ) (st0_8 t) fullShare (Y 8))

/-- What it hands back: the invariant, what the core owes, and every staging buffer at some contents, of which the
    proof data ask nothing. -/
def bodyPost (c : Dev nD) (t : Fin cfg0.N) (Y : (w : Fin cfg0.W) → (cfg0.win w).block.Idx → Elt F (cfg0.win w).elt) : sProp 𝕄 :=
  iprop((rdats m 0 c).Φ t.succ ∗ (rdats m 0 c).owesAt () t.succ
    ∗ (∃ X, ⌜(rdats m 0 c).after 0 t (Y 0) X⌝ ∗ owns (c : Thread nD τ) (st0_0 t) fullShare X)
    ∗ (∃ X, ⌜(rdats m 0 c).after 1 t (Y 1) X⌝ ∗ owns (c : Thread nD τ) (st0_1 t) fullShare X)
    ∗ (∃ X, ⌜(rdats m 0 c).after 2 t (Y 2) X⌝ ∗ owns (c : Thread nD τ) (st0_2 t) fullShare X)
    ∗ (∃ X, ⌜(rdats m 0 c).after 3 t (Y 3) X⌝ ∗ owns (c : Thread nD τ) (st0_3 t) fullShare X)
    ∗ (∃ X, ⌜(rdats m 0 c).after 4 t (Y 4) X⌝ ∗ owns (c : Thread nD τ) (st0_4 t) fullShare X)
    ∗ (∃ X, ⌜(rdats m 0 c).after 5 t (Y 5) X⌝ ∗ owns (c : Thread nD τ) (st0_5 t) fullShare X)
    ∗ (∃ X, ⌜(rdats m 0 c).after 6 t (Y 6) X⌝ ∗ owns (c : Thread nD τ) (st0_6 t) fullShare X)
    ∗ (∃ X, ⌜(rdats m 0 c).after 7 t (Y 7) X⌝ ∗ owns (c : Thread nD τ) (st0_7 t) fullShare X)
    ∗ (∃ X, ⌜(rdats m 0 c).after 8 t (Y 8) X⌝ ∗ owns (c : Thread nD τ) (st0_8 t) fullShare X))

/-- The body at point `t`, from what it is handed to what it hands back: every buffer is held at some contents
    going in, the run keeps each so, and nothing more is asked coming out. -/
theorem sound_body (c : Dev nD) (t : Fin cfg0.N) (Y : (w : Fin cfg0.W) → (cfg0.win w).block.Idx → Elt F (cfg0.win w).elt) :
    bodyPre m c t Y ⊢ wp frame (wpE (defs₀ (F := F)) 𝒱₀ c none) Set.univ (bodyAt0 t) (fun _ => bodyPost m c t Y) := by
  unfold bodyPre bodyPost
  have hΦ : ∀ u, (rdats m 0 c).Φ u = iprop(held c (Memref.whole cc0_scratch0) ∗ held c (Memref.whole cc0_scratch1)) := fun _ => by
    rw [held_whole, held_whole]; exact scopedRest0_eq c
  have hafter : ∀ (w : Fin cfg0.W) (X : (cfg0.win w).block.Idx → Elt F (cfg0.win w).elt), (rdats m 0 c).after w t (Y w) X = True :=
    fun _ _ => rfl
  rw [hΦ, hΦ, show (rdats m 0 c).owesAt () t.succ = (rdats m 0 c).owesAt () t.castSucc from rfl]
  simp only [hafter]
  iintro ⟨⟨HS0, HS1⟩, Ho, H0, H1, H2, H3, H4, H5, H6, H7, H8⟩
  iapply (run_body c Set.univ (grid0.coords t) (st0_0 t) _ (st0_1 t) _ (st0_2 t) _ (st0_3 t) _ (st0_4 t) _ (st0_5 t) _
    (st0_6 t) _ (st0_7 t) _ (st0_8 t) _ (Memref.whole cc0_scratch0) _ (Memref.whole cc0_scratch1) _ _)
  isplitl [H0 H1 H2 H3 H4 H5 H6 H7 H8 HS0 HS1]
  · isplitl [H0]; · iapply (held_of_owns c _ _) $$ H0
    isplitl [H1]; · iapply (held_of_owns c _ _) $$ H1
    isplitl [H2]; · iapply (held_of_owns c _ _) $$ H2
    isplitl [H3]; · iapply (held_of_owns c _ _) $$ H3
    isplitl [H4]; · iapply (held_of_owns c _ _) $$ H4
    isplitl [H5]; · iapply (held_of_owns c _ _) $$ H5
    isplitl [H6]; · iapply (held_of_owns c _ _) $$ H6
    isplitl [H7]; · iapply (held_of_owns c _ _) $$ H7
    isplitl [H8]; · iapply (held_of_owns c _ _) $$ H8
    isplitl [HS0]; · iexact HS0
    iexact HS1
  iintro ⟨H0, H1, H2, H3, H4, H5, H6, H7, H8, HS0, HS1⟩
  isplitl [HS0 HS1]
  · isplitl [HS0]; · iexact HS0
    iexact HS1
  isplitl [Ho]; · iexact Ho
  isplitl [H0]; · iapply (owns_of_held c _) $$ H0
  isplitl [H1]; · iapply (owns_of_held c _) $$ H1
  isplitl [H2]; · iapply (owns_of_held c _) $$ H2
  isplitl [H3]; · iapply (owns_of_held c _) $$ H3
  isplitl [H4]; · iapply (owns_of_held c _) $$ H4
  isplitl [H5]; · iapply (owns_of_held c _) $$ H5
  isplitl [H6]; · iapply (owns_of_held c _) $$ H6
  isplitl [H7]; · iapply (owns_of_held c _) $$ H7
  iapply (owns_of_held c _) $$ H8

/-- The library's body obligation for the proof data: at every point, whatever the nine staging buffers hold. Of what
    they may hold (the hypothesis on `Y`) nothing is used. -/
theorem body_obligation (c : Dev nD) : (rdats m 0 c).BodyObligation (defs₀ (F := F)) 𝒱₀ () Set.univ := fun t Y _ => by
  rw [bigSep_W0, bigSep_W0]
  exact sound_body m c t Y

end Cert.Kernel.FrameBody

end
-- ==== Proof.BitsLaunch.lean ====
/-
  The launch of the word-level program's one kernel region over relational proof data, and from it the frame
  claim. The region's nine windows lie over eight arrays: the incidence matrix is handed to the kernel twice, its
  upper and its lower row half, so the launch deals that array's points-to between the two windows along the share
  (a half each) and hands every other array whole to its one window. An input window is never written back, so
  after the run its array holds what it held at launch; the six arguments are the arrays of the seven input windows.
-/
import proofs.«137455_g35845797052899_cont_8to1_b_606_24_alg».proof.Proof.BitsData
import proofs.«137455_g35845797052899_cont_8to1_b_606_24_alg».proof.Defs

noncomputable section

namespace Cert.Kernel.FrameLaunch

open Cert.Kernel Cert.Kernel.Gen Cert.Kernel.FrameData

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf kernel pipe)

variable {F : FTy → Type} [FloatOps F]

variable (m : (ℓ : Loc nD τ sig) → Buf (Elt F) ℓ) (ρ : Dev nD → PrngReg)

/-! ## The arrays at launch, dealt among the windows

The buffers behind the windows' arrays are eight — the six arguments and the two results —, each whole and at the
full share when the kernel region is entered. The nine windows take them one each, except that the incidence
matrix goes to two windows: its points-to is halved along the share, the left half to the window on the upper rows,
the right half to the window on the lower rows. -/

/-- The eight distinct buffers behind the nine windows' arrays, one by one. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp (MT nD τ sig Unit (Elt F) ℕ (UR sig nD τ) ℕ))
      = iprop(((c : Thread nD τ).loc main_arg0 ↦{fullShare} V main_arg0)
        ∗ ((c : Thread nD τ).loc main_arg1 ↦{fullShare} V main_arg1)
        ∗ ((c : Thread nD τ).loc main_arg2 ↦{fullShare} V main_arg2)
        ∗ ((c : Thread nD τ).loc main_arg3 ↦{fullShare} V main_arg3)
        ∗ ((c : Thread nD τ).loc main_arg4 ↦{fullShare} V main_arg4)
        ∗ ((c : Thread nD τ).loc main_arg5 ↦{fullShare} V main_arg5)
        ∗ ((c : Thread nD τ).loc main_v0_0 ↦{fullShare} V main_v0_0)
        ∗ ((c : Thread nD τ).loc main_v0_1 ↦{fullShare} V main_v0_1)) := by
  unfold Pipeline.arrBufs
  exact bigSep_eq_bigSepL_of_eq [main_arg0, main_arg1, main_arg2, main_arg3, main_arg4, main_arg5, main_v0_0, main_v0_1]
    (by decide) (by decide) _

/-- The share each window holds of its array: the two on the incidence matrix a half each, every other window
    (input or output) the whole. -/
theorem share_0 (c : Dev nD) : (rdats m 0 c).share 0 = fullShare := rfl
theorem share_1 (c : Dev nD) : (rdats m 0 c).share 1 = fullShare.left := rfl
theorem share_2 (c : Dev nD) : (rdats m 0 c).share 2 = fullShare.right := rfl
theorem share_3 (c : Dev nD) : (rdats m 0 c).share 3 = fullShare := rfl
theorem share_4 (c : Dev nD) : (rdats m 0 c).share 4 = fullShare := rfl
theorem share_5 (c : Dev nD) : (rdats m 0 c).share 5 = fullShare := rfl
theorem share_6 (c : Dev nD) : (rdats m 0 c).share 6 = fullShare := rfl
theorem share_7 (c : Dev nD) : (rdats m 0 c).share 7 = fullShare := rfl
theorem share_8 (c : Dev nD) : (rdats m 0 c).share 8 = fullShare := rfl

/-- The buffers behind the arrays, whole at the launch contents, make the proof data's arrays at entry: the incidence
    matrix split along its share between the two windows that read it, every other buffer handed to its one window. -/
theorem arrays_split (c : Dev nD) :
    (Pipeline.arrBufs (Ix := Unit) (Name := ℕ) (U := UR sig nD τ) (Lvl := ℕ) spec0 c (fun b => m ((c : Thread nD τ).loc b)) : sProp (MT nD τ sig Unit (Elt F) ℕ (UR sig nD τ) ℕ))
      ⊢ (rdats m 0 c).arrays (rdats m 0 c).A := by
  rw [arrBufs0_eq]
  unfold RDat.arrays
  rw [Gen.bigSep_W0]
  rw [share_0, share_1, share_2, share_3, share_4, share_5, share_6, share_7, share_8]
  simp only [View.set_whole]
  iintro ⟨H0, H1, H2, H3, H4, H5, H6, H7⟩
  ihave H1' := (pointsTo_share (PosShare.mem_left_op_right fullShare)).1 $$ H1
  icases H1' with ⟨H1l, H1r⟩
  isplitl [H0]; · iexact H0
  isplitl [H1l]; · iexact H1l
  isplitl [H1r]; · iexact H1r
  isplitl [H2]; · iexact H2
  isplitl [H3]; · iexact H3
  isplitl [H4]; · iexact H4
  isplitl [H5]; · iexact H5
  isplitl [H6]; · iexact H6
  iexact H7

/-! ## The launch -/

/-- The rounds library's launch element: every staging cell's owner at round 0 and a duty token for every transfer
    the pipeline issues. -/
def u₀ : UR sig nD τ := initOf (Pipeline.cells cfgs Gen.cellOf_inj) (Pipeline.launchToks cfgs Gen.cellOf_inj)

set_option backward.isDefEq.respectTransparency.types false in
/-- At the compiled mesh, for any float values, from any memory with zero counters, given the body obligation of
    the relational proof data: every weakly fair execution of @main on the TensorCores terminates, nothing faulting,
    and in every final state the array of every input window holds what it held at launch — an input window is never
    written back, so of its array the proof data's relation says only that it is as at entry. -/
theorem run_main (hbody : ∀ c, (rdats m 0 c).BodyObligation (defs₀ (F := F)) 𝒱₀ () Set.univ) :
    θ_run defs (onTc (τ := τ) (main (F := F))) ⟨m, fun _ => 0, ρ⟩
      (fun r => ∀ (c : Dev nD) (w : Fin cfg0.W), (cfg0.win w).isOut = false →
        r.2.mem ((cfg0.win w).arr.view.loc (c : Thread nD τ)) = m ((cfg0.win w).arr.view.loc (c : Thread nD τ))) :=
  Pipeline.RDat.θ_run_region_pf (fun p => (cfgs p).toPCfg) (fun p => (cfgs p).toPCfg_adm) (rdats m) () Gen.cellOf_inj (0 : Fin 1)
    Gen.winFacts₀0 (Pipeline.OwnSemFacts.none _) (Pipeline.PreFacts.none _) EP defs₀ 𝒱₀ m ρ main
    (hbody := hbody) (hne := Gen.block_pos0) (harr := Gen.arr_whole0) (hstage := Gen.stage_whole0)
    (howed := fun _ _ => rfl)
    (G := fun _ => iprop(emp)) (u₀ := u₀)
    (hu₀ := by
      iintro Hu; imodintro
      isplitl [Hu]
      · iapply (show (ownU u₀ : sProp (MT nD τ sig Unit (Elt F) ℕ (UR sig nD τ) ℕ))
            ⊢ BI.own (EP (initOf (Pipeline.cells cfgs Gen.cellOf_inj) (Pipeline.launchToks cfgs Gen.cellOf_inj))) from BI.Entails.refl _)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (V := fun c b => m ((c : Thread nD τ).loc b))
    (hmain := fun c Q => by
      simp only [main, Prog.lift, Prog.bind_op, Prog.bind_ret]
      iintro ⟨Hk, Hb⟩; iapply Hk; iexact Hb)
    (hsplit := arrays_split m)
    (hpf := fun _ k => k.elim0)
    (X := fun _ => iprop(emp)) (Y := fun _ => iprop(emp)) (Z := fun _ => iprop(emp))
    (hX := fun c => by iintro -; imodintro; isplitr <;> iempintro)
    (hin := fun c => by
      change iprop(emp ∗ _ ∗ Pipeline.scopedRest spec0 c) ⊢ Pipeline.scopedRest spec0 c
      iintro ⟨-, -, H⟩; iexact H)
    (hout := fun c => by
      rw [Pipeline.ownSems0_none]
      change Pipeline.scopedRest spec0 c ⊢ iprop(emp ∗ emp ∗ Pipeline.scopedRest spec0 c)
      iintro H
      isplitr; · iempintro
      isplitr; · iempintro
      iexact H)
    (QY := fun _ _ => True)
    (hY := fun c s' => by
      iintro ⟨-, -, HSI⟩; imodintro
      isplitr; · ipureintro; trivial
      iexact HSI)
    (hQ := fun s h c w hw => by
      have h1 := (h c).1 w
      rw [RDat.ArrAt_in (rdats m 0 c) w hw] at h1
      exact h1)

/-- info: 'Cert.Kernel.FrameLaunch.run_main' depends on axioms: [propext, Classical.choice, Quot.sound] -/
#guard_msgs in #print axioms run_main

/-! ## The frame claim -/

/-- The word-level program runs to the end, faults nowhere and leaves its six arguments as they were, given the
    body obligation at every launch memory: the arguments are the arrays of the input windows 0, 1 (and 2), 3, 4, 5
    and 6, each of which ends as it began. -/
theorem frame_of_body [Cert.Pre_finite_inputs.Facts]
    (hbody : ∀ (m : (ℓ : Loc nD τ sig) → Buf (Elt Bits) ℓ) (c : Dev nD),
      (rdats (F := Bits) m 0 c).BodyObligation (defs₀ (F := Bits)) 𝒱₀ () Set.univ) : Cert.frame_Kernel := by
  intro m g _
  refine (θ_run _ _ _).mono (fun r h c => ?_) (run_main (F := Bits) m g (hbody m))
  exact ⟨h c 0 rfl, h c 1 rfl, h c 3 rfl, h c 4 rfl, h c 5 rfl, h c 6 rfl⟩

/-- info: 'Cert.Kernel.FrameLaunch.frame_of_body' depends on axioms: [propext, Classical.choice, Quot.sound] -/
#guard_msgs in #print axioms frame_of_body

end Cert.Kernel.FrameLaunch

end
-- ==== Proof.RunBase.lean ====
/-
  What the three runs of the kernel body share: its two branch conditions on the grid coordinate, decided over
  the twenty points. The body resets its scratch and its node accumulator at the first point, and adds the bias
  and rectifies at the last.
-/
import proofs.«137455_g35845797052899_cont_8to1_b_606_24_alg».proof.Proof.Gen.KernelIdeal.Launch
import proofs.«137455_g35845797052899_cont_8to1_b_606_24_alg».proof.Proof.Gen.KernelIdeal.Skeleton
import proofs.«137455_g35845797052899_cont_8to1_b_606_24_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Runs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- "This is the first grid point", as the body computes it. -/
abbrev condFirst (i : grid0.Coords) : Prop := (Scalar.cmpi .ne (Scalar.extui (Scalar.cmpi .eq (BitVec.ofNat 32 (i 0).val) 0#32)) 0#32) = 1#1
/-- "This is the last grid point", as the body computes it. -/
abbrev condLast (i : grid0.Coords) : Prop := (Scalar.cmpi .ne (Scalar.extui (Scalar.cmpi .eq (BitVec.ofNat 32 (i 0).val) 19#32)) 0#32) = 1#1

theorem hcondFirst : ∀ t : Fin cfg0.N, condFirst (grid0.coords t) ↔ t.val = 0 :=
  (by decide +kernel : ∀ t : Fin grid0.N, condFirst (grid0.coords t) ↔ t.val = 0)
theorem hcondLast : ∀ t : Fin cfg0.N, condLast (grid0.coords t) ↔ t.val = 19 :=
  (by decide +kernel : ∀ t : Fin grid0.N, condLast (grid0.coords t) ↔ t.val = 19)

/-- The grid coordinate of point `t` is `t`. -/
theorem coords_val : ∀ t : Fin cfg0.N, (grid0.coords t 0).val = t.val :=
  (by decide +kernel : ∀ t : Fin grid0.N, (grid0.coords t 0).val = t.val)

end Cert.KernelIdeal.Runs

end
-- ==== Proof.RunB.lean ====
/-
  The kernel body at a middle grid point (neither branch taken): it reads the two incidence half-stripes, the
  transposed projected features kept in scratch, the bias row and W1; stores the stripe's rectified hyperedge
  block; and adds the stripe's messages into both halves of the node accumulator it finds. The pieces each
  written buffer ends with are found by running the body.
-/
import proofs.«137455_g35845797052899_cont_8to1_b_606_24_alg».proof.Proof.Gen.KernelIdeal.Launch
import proofs.«137455_g35845797052899_cont_8to1_b_606_24_alg».proof.Proof.Gen.KernelIdeal.Skeleton
import proofs.«137455_g35845797052899_cont_8to1_b_606_24_alg».proof.Proof.Gen.KernelIdeal.Points
import proofs.«137455_g35845797052899_cont_8to1_b_606_24_alg».proof.Proof.RunBase
import Idealize.ShloMosaic.Lib.Pipeline.FrameBody
import Idealize.ShloMosaic.Lib.Ring
import Idealize.ShloMosaic.Lib.Tactic

set_option maxRecDepth 16384

noncomputable section

namespace Cert.KernelIdeal.Runs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The body's run at a middle point: the node accumulator's buffer at `xo7` and the scratch at `s0`, `s1` on
    entry; the pieces the accumulator's and the hyperedge block's buffers end with are the witness. -/
noncomputable def kernelRun_B (c : Dev nD) (i : grid0.Coords) (arg1 : Memref sig .tc .vmem S10000x128 .f32) (harg1 : arg1.IsWhole) (arg2 : Memref sig .tc .vmem S5000x512 .f32) (harg2 : arg2.IsWhole) (arg3 : Memref sig .tc .vmem S5000x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S512x128 .f32) (harg9 : arg9.IsWhole) (arg10 : Memref sig .tc .vmem S128x5000 .bf16) (harg10 : arg10.IsWhole) (arg11 : Memref sig .tc .vmem S128x5000 .bf16) (harg11 : arg11.IsWhole) (hc0 : ¬condFirst i) (hc1 : ¬condLast i)
    (x0 : Vec F S10000x128 .f32) (x1 x2 : Vec F S5000x512 .f32) (x3 x4 : Vec F S128x128 .f32) (x5 x6 : Vec F S1x128 .f32)
    (xo7 : Vec F S10000x128 .f32) (s0 s1 : Vec F S128x5000 .bf16) :
    { L : List (View.Piece (Elt F) S10000x128 .f32) × List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare xo7 ∗ (∃ d, owns (c : Thread nD τ) arg9 fullShare d)
            ∗ owns (c : Thread nD τ) arg10 fullShare s0 ∗ owns (c : Thread nD τ) arg11 fullShare s1
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
                ∗ (∃ f, arg8.view.loc (c : Thread nD τ) ↦[arg8.view.set]{fullShare} arg8.view.writes (Elt F) f L.1)
                ∗ (∃ f, arg9.view.loc (c : Thread nD τ) ↦[arg9.view.set]{fullShare} arg9.view.writes (Elt F) f L.2)
                ∗ owns (c : Thread nD τ) arg10 fullShare s0 ∗ owns (c : Thread nD τ) arg11 fullShare s1) -∗ K ⟨⟩))
          ⊢ wp frame (wpE (defs₀ (F := F)) Variants.none c none) E (cc0__hnhn_block i arg1 harg1 arg2 harg2 arg3 harg3 arg4 harg4 arg5 harg5 arg6 harg6 arg7 harg7 arg8 harg8 arg9 harg9 arg10 harg10 arg11 harg11) K } := by
  refine ⟨(?_, ?_), fun E K => ?run⟩
  case run =>
    simp only [cc0__hnhn_block_eq_skeleton]; unfold cc0__hnhn_block_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg8.eq_unread hf7
    obtain rfl := harg10.eq_unread hf9; obtain rfl := harg11.eq_unread hf10
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]
    · iexists _; isplitr; · ipureintro; exact harg10.read_unread _
      iexact H9
    · iexists _; isplitr; · ipureintro; exact harg11.read_unread _
      iexact H10

end Cert.KernelIdeal.Runs

end
-- ==== Proof.Pieces.lean ====
/-
  The pieces the kernel body's stores leave in each buffer it writes, spelt out: at a middle grid point the two
  halves of the node accumulator (each what it held plus the stripe's product) and the whole hyperedge block.
  The rectangles the body loads and stores through, by name.
-/
import proofs.«137455_g35845797052899_cont_8to1_b_606_24_alg».proof.Proof.RunB
import Idealize.ShloMosaic.Lib.ValueIdx
import Idealize.ShloMosaic.Lib.Pipeline.FrameBody
import Idealize.ShloMosaic.Lib.Pipeline.Value
import Idealize.ShloMosaic.Lib.Ring
import Idealize.ShloMosaic.Lib.Tactic

set_option maxRecDepth 16384

noncomputable section

open scoped BigOperators

namespace Cert.KernelIdeal.Pieces

open Cert.KernelIdeal Cert.KernelIdeal.Facts₀ Cert.KernelIdeal.Gen Cert.KernelIdeal.Runs
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The upper and the lower 5000 rows of a 10000 × 128 buffer, and the whole of it. -/
abbrev RT : Rect S10000x128 := Rect.unit (s := S10000x128) ![0, 0] S5000x128.size Facts₀.inb_S10000x128_S5000x128_0_0
abbrev RB : Rect S10000x128 := Rect.unit (s := S10000x128) ![5000, 0] S5000x128.size Facts₀.inb_S10000x128_S5000x128_5000_0
abbrev RW : Rect S10000x128 := Rect.unit (s := S10000x128) ![0, 0] S10000x128.size Facts₀.inb_S10000x128_S10000x128_0_0
/-- The whole hyperedge block, and the whole of a scratch buffer. -/
abbrev RE : Rect S512x128 := Rect.unit (s := S512x128) ![0, 0] S512x128.size Facts₀.inb_S512x128_S512x128_0_0
abbrev RS : Rect S128x5000 := Rect.unit (s := S128x5000) ![0, 0] S128x5000.size Facts₀.inb_S128x5000_S128x5000_0_0

theorem hz2 : (![0, 0] : Fin 2 → Nat) = fun _ => 0 := funext fun a => by fin_cases a <;> rfl

/-- An entry of the upper half sits at the same row; -/
theorem RT_emb (n : Fin 5000) (d : Fin 128) : RT.emb (ix2 n d) = ix2 (⟨n.val, by have := n.isLt; omega⟩ : Fin 10000) d :=
  funext fun a => Fin.ext (by match a with | ⟨0, _⟩ => (show 0 + 1 * n.val = n.val; omega) | ⟨1, _⟩ => (show 0 + 1 * d.val = d.val; omega))
/-- an entry of the lower half 5000 rows down. -/
theorem RB_emb (n : Fin 5000) (d : Fin 128) : RB.emb (ix2 n d) = ix2 (⟨5000 + n.val, by have := n.isLt; omega⟩ : Fin 10000) d :=
  funext fun a => Fin.ext (by match a with | ⟨0, _⟩ => (show 5000 + 1 * n.val = 5000 + n.val; omega) | ⟨1, _⟩ => (show 0 + 1 * d.val = d.val; omega))

/-- Every row is in one of the two halves. -/
theorem mem_halves (y : S10000x128.Idx) : y ∈ RT.set ∨ y ∈ RB.set := by
  have h0 : (y 0).val < 10000 := (y 0).isLt
  have h1 : (y 1).val < 128 := (y 1).isLt
  by_cases h : (y 0).val < 5000
  · left; rw [Rect.mem_set_unit]
    intro a; match a with
    | ⟨0, _⟩ => exact ⟨Nat.zero_le _, by show (y 0).val < 0 + 5000; omega⟩
    | ⟨1, _⟩ => exact ⟨Nat.zero_le _, by show (y 1).val < 0 + 128; omega⟩
  · right; rw [Rect.mem_set_unit]
    intro a; match a with
    | ⟨0, _⟩ => exact ⟨by show 5000 ≤ (y 0).val; omega, by show (y 0).val < 5000 + 5000; omega⟩
    | ⟨1, _⟩ => exact ⟨Nat.zero_le _, by show (y 1).val < 0 + 128; omega⟩

set_option maxHeartbeats 1000000 in
/-- The pieces of the run at a middle point. -/
theorem pieces_B (c : Dev nD) (i : grid0.Coords) (arg1 : Memref sig .tc .vmem S10000x128 .f32) (harg1 : arg1.IsWhole) (arg2 : Memref sig .tc .vmem S5000x512 .f32) (harg2 : arg2.IsWhole) (arg3 : Memref sig .tc .vmem S5000x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S512x128 .f32) (harg9 : arg9.IsWhole) (arg10 : Memref sig .tc .vmem S128x5000 .bf16) (harg10 : arg10.IsWhole) (arg11 : Memref sig .tc .vmem S128x5000 .bf16) (harg11 : arg11.IsWhole) (hc0 : ¬condFirst i) (hc1 : ¬condLast i)
    (x0 : Vec F S10000x128 .f32) (x1 x2 : Vec F S5000x512 .f32) (x3 x4 : Vec F S128x128 .f32) (x5 x6 : Vec F S1x128 .f32) (xo7 : Vec F S10000x128 .f32) (s0 s1 : Vec F S128x5000 .bf16) :
    (kernelRun_B c i arg1 harg1 arg2 harg2 arg3 harg3 arg4 harg4 arg5 harg5 arg6 harg6 arg7 harg7 arg8 harg8 arg9 harg9 arg10 harg10 arg11 harg11 hc0 hc1 x0 x1 x2 x3 x4 x5 x6 xo7 s0 s1).1
      = ([⟨RB, k0_pay3 (k0_pay9 x2) (k0_pay12 i x1 x2 s0 s1 x5 x4) (View.ld xo7 RB)⟩,
          ⟨RT, k0_pay2 (k0_pay8 x1) (k0_pay12 i x1 x2 s0 s1 x5 x4) (View.ld xo7 RT)⟩],
         [⟨RE, k0_pay11 i x1 x2 s0 s1 x5⟩]) := by
  unfold kernelRun_B
  dsimp only
  sl_unfold_words
  simp only [View.readAt_eq_ld, Memref.IsWhole.read_unread, View.ld_unit_zero (S := S5000x512) hz2,
    View.ld_unit_zero (S := S128x5000) hz2, View.ld_unit_zero (S := S1x128) hz2, View.ld_unit_zero (S := S128x128) hz2]

end Cert.KernelIdeal.Pieces

end
-- ==== Proof.RunA.lean ====
/-
  The kernel body at the first grid point (the two opening branches taken): it projects both halves of the node
  features and stores them transposed into the two scratch buffers, clears the node accumulator, and then does
  what every point does.
-/
import proofs.«137455_g35845797052899_cont_8to1_b_606_24_alg».proof.Proof.Gen.KernelIdeal.Launch
import proofs.«137455_g35845797052899_cont_8to1_b_606_24_alg».proof.Proof.Gen.KernelIdeal.Skeleton
import proofs.«137455_g35845797052899_cont_8to1_b_606_24_alg».proof.Proof.Gen.KernelIdeal.Points
import proofs.«137455_g35845797052899_cont_8to1_b_606_24_alg».proof.Proof.RunBase
import Idealize.ShloMosaic.Lib.Pipeline.FrameBody
import Idealize.ShloMosaic.Lib.Ring
import Idealize.ShloMosaic.Lib.Tactic

set_option maxRecDepth 16384

noncomputable section

namespace Cert.KernelIdeal.Runs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The body's run at the first point: the accumulator's buffer and both scratch buffers at anything on entry;
    the pieces the four written buffers end with are the witness. -/
noncomputable def kernelRun_A (c : Dev nD) (i : grid0.Coords) (arg1 : Memref sig .tc .vmem S10000x128 .f32) (harg1 : arg1.IsWhole) (arg2 : Memref sig .tc .vmem S5000x512 .f32) (harg2 : arg2.IsWhole) (arg3 : Memref sig .tc .vmem S5000x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S512x128 .f32) (harg9 : arg9.IsWhole) (arg10 : Memref sig .tc .vmem S128x5000 .bf16) (harg10 : arg10.IsWhole) (arg11 : Memref sig .tc .vmem S128x5000 .bf16) (harg11 : arg11.IsWhole) (hc0 : condFirst i) (hc1 : ¬condLast i)
    (x0 : Vec F S10000x128 .f32) (x1 x2 : Vec F S5000x512 .f32) (x3 x4 : Vec F S128x128 .f32) (x5 x6 : Vec F S1x128 .f32) :
    { L : (List (View.Piece (Elt F) S10000x128 .f32) × List (View.Piece (Elt F) S512x128 .f32))
          × (List (View.Piece (Elt F) S128x5000 .bf16) × List (View.Piece (Elt F) S128x5000 .bf16)) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ (∃ d, owns (c : Thread nD τ) arg8 fullShare d) ∗ (∃ d, owns (c : Thread nD τ) arg9 fullShare d)
            ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
                ∗ (∃ f, arg8.view.loc (c : Thread nD τ) ↦[arg8.view.set]{fullShare} arg8.view.writes (Elt F) f L.1.1)
                ∗ (∃ f, arg9.view.loc (c : Thread nD τ) ↦[arg9.view.set]{fullShare} arg9.view.writes (Elt F) f L.1.2)
                ∗ (∃ f, arg10.view.loc (c : Thread nD τ) ↦[arg10.view.set]{fullShare} arg10.view.writes (Elt F) f L.2.1)
                ∗ (∃ f, arg11.view.loc (c : Thread nD τ) ↦[arg11.view.set]{fullShare} arg11.view.writes (Elt F) f L.2.2)) -∗ K ⟨⟩))
          ⊢ wp frame (wpE (defs₀ (F := F)) Variants.none c none) E (cc0__hnhn_block i arg1 harg1 arg2 harg2 arg3 harg3 arg4 harg4 arg5 harg5 arg6 harg6 arg7 harg7 arg8 harg8 arg9 harg9 arg10 harg10 arg11 harg11) K } := by
  refine ⟨((?_, ?_), (?_, ?_)), fun E K => ?run⟩
  case run =>
    simp only [cc0__hnhn_block_eq_skeleton]; unfold cc0__hnhn_block_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    · iexists _; iexact H10

end Cert.KernelIdeal.Runs

end
-- ==== Proof.PiecesA.lean ====
/-
  The pieces the kernel body's stores leave at the FIRST grid point, spelt out: the two scratch buffers each one
  whole store of a half's projected features, transposed; the node accumulator cleared whole, then each half
  over the zeros it reads back; the hyperedge block whole, computed from the scratch just stored.
-/
import proofs.«137455_g35845797052899_cont_8to1_b_606_24_alg».proof.Proof.Pieces
import proofs.«137455_g35845797052899_cont_8to1_b_606_24_alg».proof.Proof.RunA
import Idealize.ShloMosaic.Lib.ValueIdx
import Idealize.ShloMosaic.Lib.Pipeline.FrameBody
import Idealize.ShloMosaic.Lib.Pipeline.Value
import Idealize.ShloMosaic.Lib.Ring
import Idealize.ShloMosaic.Lib.Tactic

set_option maxRecDepth 16384

noncomputable section

open scoped BigOperators

namespace Cert.KernelIdeal.Pieces

open Cert.KernelIdeal Cert.KernelIdeal.Facts₀ Cert.KernelIdeal.Gen Cert.KernelIdeal.Runs
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [∀ e, Nonempty (Elt F e)]

/-- The accumulator cleared whole to `w` and then read through its upper half: `w` there. -/
theorem readCov_cleared_top (v : View sig .tc .vmem S10000x128 .f32) (w : S10000x128.Idx → Elt F .f32) :
    v.readCov [(⟨RW, w⟩ : View.Piece (Elt F) S10000x128 .f32)] RT.toLoadRect = View.ld w RT := by
  have hcov : ∀ y : S10000x128.Idx, ∃ p ∈ [(⟨RW, w⟩ : View.Piece (Elt F) S10000x128 .f32)], y ∈ p.1.set := fun y =>
    ⟨⟨RW, w⟩, List.mem_singleton_self _, View.mem_set_unit_zero (S := S10000x128) hz2 Facts₀.inb_S10000x128_S10000x128_0_0 y⟩
  rw [View.readCov_eq_canon_ld v _ RT hcov, View.canon_unit_zero (S := S10000x128) hz2 Facts₀.inb_S10000x128_S10000x128_0_0 w]

/-- No row of the lower half is a row of the upper half. -/
theorem RB_idx_not_mem_RT (x : RB.shape.Idx) : RB.toLoadRect.idx x ∉ RT.set :=
  Finset.disjoint_right.mp
    (Rect.unit_disjoint (s := S10000x128) (inb := Facts₀.inb_S10000x128_S5000x128_0_0) (inb' := Facts₀.inb_S10000x128_S5000x128_5000_0) 0
      (Or.inl (by decide)))
    (RB.toLoadRect.idx_mem x)

/-- Cleared whole to `w`, the upper half then stored into, and read through its LOWER half: still `w` there, the
    upper half's store touching none of those rows. -/
theorem readCov_cleared_bottom (v : View sig .tc .vmem S10000x128 .f32) (u : RT.shape.Idx → Elt F .f32) (w : S10000x128.Idx → Elt F .f32) :
    v.readCov [(⟨RT, u⟩ : View.Piece (Elt F) S10000x128 .f32), ⟨RW, w⟩] RB.toLoadRect = View.ld w RB := by
  have hcov : ∀ y : S10000x128.Idx, ∃ p ∈ [(⟨RT, u⟩ : View.Piece (Elt F) S10000x128 .f32), ⟨RW, w⟩], y ∈ p.1.set := fun y =>
    ⟨⟨RW, w⟩, List.mem_cons_of_mem _ (List.mem_singleton_self _),
      View.mem_set_unit_zero (S := S10000x128) hz2 Facts₀.inb_S10000x128_S10000x128_0_0 y⟩
  rw [View.readCov_eq_canon_ld v _ RB hcov]
  funext x
  show View.canon ((⟨RT, u⟩ : View.Piece (Elt F) S10000x128 .f32) :: [⟨RW, w⟩]) (RB.toLoadRect.idx x) = w (RB.toLoadRect.idx x)
  rw [View.canon_cons_of_not_mem (⟨RT, u⟩ : View.Piece (Elt F) S10000x128 .f32) [⟨RW, w⟩] (RB_idx_not_mem_RT x),
    View.canon_unit_zero (S := S10000x128) hz2 Facts₀.inb_S10000x128_S10000x128_0_0 w]

set_option maxHeartbeats 2000000 in
/-- The pieces of the run at the first point. `P6`, `P7`: what the scratch buffers are given; the body reads
    them back whole, and reads zeros back from the cleared accumulator. -/
theorem pieces_A (c : Dev nD) (i : grid0.Coords) (arg1 : Memref sig .tc .vmem S10000x128 .f32) (harg1 : arg1.IsWhole) (arg2 : Memref sig .tc .vmem S5000x512 .f32) (harg2 : arg2.IsWhole) (arg3 : Memref sig .tc .vmem S5000x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S512x128 .f32) (harg9 : arg9.IsWhole) (arg10 : Memref sig .tc .vmem S128x5000 .bf16) (harg10 : arg10.IsWhole) (arg11 : Memref sig .tc .vmem S128x5000 .bf16) (harg11 : arg11.IsWhole) (hc0 : condFirst i) (hc1 : ¬condLast i)
    (x0 : Vec F S10000x128 .f32) (x1 x2 : Vec F S5000x512 .f32) (x3 x4 : Vec F S128x128 .f32) (x5 x6 : Vec F S1x128 .f32) :
    (kernelRun_A c i arg1 harg1 arg2 harg2 arg3 harg3 arg4 harg4 arg5 harg5 arg6 harg6 arg7 harg7 arg8 harg8 arg9 harg9 arg10 harg10 arg11 harg11 hc0 hc1 x0 x1 x2 x3 x4 x5 x6).1
      = (([⟨RB, k0_pay3 (k0_pay9 x2) (k0_pay12 i x1 x2 (k0_pay6 x3 (View.ld x0 RT)) (k0_pay7 x3 (View.ld x0 RB)) x5 x4) (View.ld (k0_pay1 (F := F)) RB)⟩,
           ⟨RT, k0_pay2 (k0_pay8 x1) (k0_pay12 i x1 x2 (k0_pay6 x3 (View.ld x0 RT)) (k0_pay7 x3 (View.ld x0 RB)) x5 x4) (View.ld (k0_pay1 (F := F)) RT)⟩,
           ⟨RW, k0_pay1 (F := F)⟩],
          [⟨RE, k0_pay11 i x1 x2 (k0_pay6 x3 (View.ld x0 RT)) (k0_pay7 x3 (View.ld x0 RB)) x5⟩]),
         ([⟨RS, k0_pay6 x3 (View.ld x0 RT)⟩], [⟨RS, k0_pay7 x3 (View.ld x0 RB)⟩])) := by
  unfold kernelRun_A
  dsimp only
  sl_unfold_words
  simp only [View.readAt_eq_ld, Memref.IsWhole.read_unread, View.ld_unit_zero (S := S5000x512) hz2,
    View.ld_unit_zero (S := S128x5000) hz2, View.ld_unit_zero (S := S1x128) hz2, View.ld_unit_zero (S := S128x128) hz2,
    View.readCov_unit_zero (S := S128x5000) _ hz2]
  rw [readCov_cleared_top, readCov_cleared_bottom]

end Cert.KernelIdeal.Pieces

end
-- ==== Proof.Spec.lean ====
/-
  What both programs compute, as functions of the six argument arrays over the extended reals.

  A hypergraph layer with incidence matrix `B` (nodes × hyperedges), node features `x`, weights `W0`, `W1`
  and biases `b0`, `b1`:
    proj     n d = Σ_k x n k · W0 k d                         (the projected node features)
    edgePre  e d = (Σ_n B n e · proj n d) + b0 d              (hyperedge features before the rectifier)
    edgeMsg  e d = Σ_k edgePre e k · W1 k d                   (what a hyperedge sends back)
    nodePre  n d = (Σ_e B n e · edgeMsg e d) + b1 d           (node features before the rectifier)
  and the two results are `max (nodePre n d) 0` and `max (edgePre e d) 0`.
-/
import Idealize.ShloMosaic.PureOps.Ideal
import Idealize.ShloMosaic.Lib.ValueIdx

noncomputable section

open scoped BigOperators

namespace Cert.Spec

open Idealize.ShloMosaic Idealize.ShloMosaic.ValueIdx

/-- nodes × features, and hyperedges × features (both 10000 × 128). -/
abbrev ShN : Shape := ⟨2, ![10000, 128]⟩
/-- the incidence matrix, nodes × hyperedges. -/
abbrev ShB : Shape := ⟨2, ![10000, 10000]⟩
/-- a weight matrix. -/
abbrev ShW : Shape := ⟨2, ![128, 128]⟩
/-- a bias row. -/
abbrev Shb : Shape := ⟨2, ![1, 128]⟩

variable (x : ShN.Idx → EReal) (B : ShB.Idx → EReal) (W0 W1 : ShW.Idx → EReal) (b0 b1 : Shb.Idx → EReal)

/-- The projected node features `x · W0`. -/
def proj (n : Fin 10000) (d : Fin 128) : EReal := ∑ k : Fin 128, x (ix2 n k) * W0 (ix2 k d)

/-- Hyperedge features before the rectifier: `Bᵀ · (x · W0) + b0`. -/
def edgePre (e : Fin 10000) (d : Fin 128) : EReal :=
  (∑ n : Fin 10000, B (ix2 n e) * proj x W0 n d) + b0 (ix2 (0 : Fin 1) d)

/-- What hyperedge `e` sends back along feature `d`: `edgePre · W1`. -/
def edgeMsg (e : Fin 10000) (d : Fin 128) : EReal := ∑ k : Fin 128, edgePre x B W0 b0 e k * W1 (ix2 k d)

/-- Node features before the rectifier: `B · (edgePre · W1) + b1`. -/
def nodePre (n : Fin 10000) (d : Fin 128) : EReal :=
  (∑ e : Fin 10000, B (ix2 n e) * edgeMsg x B W0 W1 b0 e d) + b1 (ix2 (0 : Fin 1) d)

/-- The first result: the rectified node features. -/
def outNode : ShN.Idx → EReal := fun j => max (nodePre x B W0 W1 b0 b1 (j 0) (j 1)) 0

/-- The second result: the rectified hyperedge features. -/
def outEdge : ShN.Idx → EReal := fun j => max (edgePre x B W0 b0 (j 0) (j 1)) 0

end Cert.Spec

end
-- ==== Proof.Stripes.lean ====
/-
  The hyperedge axis taken stripe by stripe. The kernel walks the 10000 hyperedges in 20 stripes of 512 (the last
  one overhanging: 20 · 512 = 10240), and sums a node's incoming messages one stripe at a time. Written over the
  natural numbers with the term past the axis' end read as zero, the running sum after `T` stripes is a sum over
  `range (512 · T)`; after all twenty it is the whole sum. Also: a sum over the 10000 nodes as its two halves.
-/
import proofs.«137455_g35845797052899_cont_8to1_b_606_24_alg».proof.Proof.Spec
import Mathlib.Algebra.BigOperators.Fin
import Mathlib.Algebra.BigOperators.Intervals

noncomputable section

open scoped BigOperators

namespace Cert.Spec

open Idealize.ShloMosaic Idealize.ShloMosaic.ValueIdx

variable (x : ShN.Idx → EReal) (B : ShB.Idx → EReal) (W0 W1 : ShW.Idx → EReal) (b0 b1 : Shb.Idx → EReal)

/-- What hyperedge number `e` contributes to node `n`, feature `d`; zero past the axis' end. -/
def term (n : Fin 10000) (d : Fin 128) (e : ℕ) : EReal :=
  if h : e < 10000 then B (ix2 n ⟨e, h⟩) * edgeMsg x B W0 W1 b0 ⟨e, h⟩ d else 0

/-- The running sum after the first `T` stripes of 512 hyperedges. -/
def acc (T : ℕ) (n : Fin 10000) (d : Fin 128) : EReal := ∑ e ∈ Finset.range (512 * T), term x B W0 W1 b0 n d e

/-- Nothing summed yet. -/
theorem acc_zero (n : Fin 10000) (d : Fin 128) : acc x B W0 W1 b0 0 n d = 0 := by
  unfold acc
  rw [Nat.mul_zero, Finset.range_zero, Finset.sum_empty]

/-- One more stripe. -/
theorem acc_succ (T : ℕ) (n : Fin 10000) (d : Fin 128) :
    acc x B W0 W1 b0 (T + 1) n d = acc x B W0 W1 b0 T n d + ∑ e' : Fin 512, term x B W0 W1 b0 n d (512 * T + e'.val) := by
  unfold acc
  -- 512 · (T + 1) = 512 · T + 512: the range splits into the first T stripes and one more stripe of 512
  rw [show 512 * (T + 1) = 512 * T + 512 by ring, Finset.sum_range_add,
    Finset.sum_range (fun e => term x B W0 W1 b0 n d (512 * T + e))]

/-- All twenty stripes: the whole sum over the hyperedges (the 240 terms past the end are zero). -/
theorem acc_all (n : Fin 10000) (d : Fin 128) :
    acc x B W0 W1 b0 20 n d = ∑ e : Fin 10000, B (ix2 n e) * edgeMsg x B W0 W1 b0 e d := by
  unfold acc
  -- 20 · 512 = 10000 + 240: the last 240 indices lie past the axis' end, where the term is zero
  rw [show (512 * 20 : ℕ) = 10000 + 240 by norm_num, Finset.sum_range_add]
  have htail : ∑ e ∈ Finset.range 240, term x B W0 W1 b0 n d (10000 + e) = 0 := by
    apply Finset.sum_eq_zero
    intro e _
    unfold term
    rw [dif_neg (by omega)]
  rw [htail, add_zero, Finset.sum_range]
  apply Finset.sum_congr rfl
  intro e _
  unfold term
  rw [dif_pos e.isLt]

/-- The rectified node features from the full running sum. -/
theorem outNode_of_acc (j : ShN.Idx) :
    outNode x B W0 W1 b0 b1 j = max (acc x B W0 W1 b0 20 (j 0) (j 1) + b1 (ix2 (0 : Fin 1) (j 1))) 0 := by
  unfold outNode nodePre
  exact congrArg (fun t => max (t + b1 (ix2 (0 : Fin 1) (j 1))) 0) (acc_all x B W0 W1 b0 (j 0) (j 1)).symm

/-- A sum over the 10000 nodes as the sum over the upper 5000 plus the sum over the lower 5000. -/
theorem sum_halves (f : Fin 10000 → EReal) :
    ∑ n : Fin 10000, f n = (∑ n : Fin 5000, f ⟨n.val, by omega⟩) + ∑ n : Fin 5000, f ⟨5000 + n.val, by omega⟩ := by
  -- 10000 = 5000 + 5000: the first summand runs over the indices below 5000, the second over 5000 + n
  exact Fin.sum_univ_add (a := 5000) (b := 5000) (fun i => f i)

/-- Hyperedge features with the node sum taken half by half and each product's factors swapped: the form the
    kernel computes them in. -/
theorem edgePre_halves (e : Fin 10000) (d : Fin 128) :
    edgePre x B W0 b0 e d
      = ((∑ n : Fin 5000, proj x W0 ⟨n.val, by omega⟩ d * B (ix2 (⟨n.val, by omega⟩ : Fin 10000) e))
          + ∑ n : Fin 5000, proj x W0 ⟨5000 + n.val, by omega⟩ d * B (ix2 (⟨5000 + n.val, by omega⟩ : Fin 10000) e))
        + b0 (ix2 (0 : Fin 1) d) := by
  unfold edgePre
  rw [sum_halves (fun n => B (ix2 n e) * proj x W0 n d)]
  congr 1
  congr 1
  · exact Finset.sum_congr rfl (fun n _ => mul_comm _ _)
  · exact Finset.sum_congr rfl (fun n _ => mul_comm _ _)

end Cert.Spec

end
-- ==== Proof.IdealData.lean ====
/-
  The proof data of the idealized program's one kernel region, at the ideal instance. After the body at grid
  point `t` the staging buffers hold: the inputs their blocks (the two incidence half-stripes filled out with
  zeros past the hyperedge axis' end at the last point); the node accumulator the sum of the messages of the
  stripes so far — and at the last point the rectified node features —; the hyperedge block the stripe's
  rectified hyperedge features, zero past the axis' end. Between points the two scratch buffers hold the
  projected features of the upper and of the lower half of the nodes, transposed.
-/
import proofs.«137455_g35845797052899_cont_8to1_b_606_24_alg».proof.Proof.RunBase
import proofs.«137455_g35845797052899_cont_8to1_b_606_24_alg».proof.Proof.Stripes

noncomputable section

open scoped BigOperators

namespace Cert.KernelIdeal.ValueData

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The proof's resource algebra: one copy of the rounds library's, the pipeline's. -/
abbrev EP : Emb (UR sig nD τ) (MT nD τ sig Unit (Elt Ideal) ℕ (UR sig nD τ) ℕ) := emb₁

/-- The kernel's variants: none. -/
abbrev 𝒱₀ : Variants := Variants.none

variable (m : (ℓ : Loc nD τ sig) → Buf (Elt Ideal) ℓ)

/-- The six argument arrays on device `c`. -/
abbrev xA (c : Dev nD) : S10000x128.Idx → EReal := m ((c : Thread nD τ).loc main_arg0)
abbrev BA (c : Dev nD) : S10000x10000.Idx → EReal := m ((c : Thread nD τ).loc main_arg1)
abbrev W0A (c : Dev nD) : S128x128.Idx → EReal := m ((c : Thread nD τ).loc main_arg2)
abbrev W1A (c : Dev nD) : S128x128.Idx → EReal := m ((c : Thread nD τ).loc main_arg3)
abbrev b0A (c : Dev nD) : S1x128.Idx → EReal := m ((c : Thread nD τ).loc main_arg4)
abbrev b1A (c : Dev nD) : S1x128.Idx → EReal := m ((c : Thread nD τ).loc main_arg5)

/-- The share of its array each input window holds: the two windows on the incidence matrix a half each. -/
def shareOf : Fin 9 → PosShare TreeShare
  | ⟨1, _⟩ => fullShare.left
  | ⟨2, _⟩ => fullShare.right
  | _ => fullShare

/-- The upper incidence half-stripe at point `t`, its part inside the array, as the fetch reads it; -/
def topBlk (c : Dev nD) (t : Fin cfg0.N) : (win0_1.xblock (grid0.coords t)).Idx → Elt Ideal .f32 :=
  (win0_1.blk t).view.read (Elt Ideal) (m ((c : Thread nD τ).loc main_arg1))
/-- the lower one. -/
def botBlk (c : Dev nD) (t : Fin cfg0.N) : (win0_2.xblock (grid0.coords t)).Idx → Elt Ideal .f32 :=
  (win0_2.blk t).view.read (Elt Ideal) (m ((c : Thread nD τ).loc main_arg1))

/-- The half-stripes filled out with zeros past the array's end (of the filler nothing is ever asked). -/
def topBlk0 (c : Dev nD) (t : Fin cfg0.N) : S5000x512.Idx → EReal := win0_1.fill (grid0.coords t) (fun _ => 0) (topBlk m c t)
def botBlk0 (c : Dev nD) (t : Fin cfg0.N) : S5000x512.Idx → EReal := win0_2.fill (grid0.coords t) (fun _ => 0) (botBlk m c t)

/-- The node accumulator after point `t`: the messages of stripes `0 … t` summed; after the last point the
    rectified node features. -/
def nodeAcc (c : Dev nD) (t : Fin cfg0.N) : S10000x128.Idx → EReal := fun j =>
  if t.val = 19 then Cert.Spec.outNode (xA m c) (BA m c) (W0A m c) (W1A m c) (b0A m c) (b1A m c) j
  else Cert.Spec.acc (xA m c) (BA m c) (W0A m c) (W1A m c) (b0A m c) (t.val + 1) (j 0) (j 1)

/-- The hyperedge block stored at point `t`: rows inside the hyperedge axis hold the rectified hyperedge
    features, rows past its end zero. -/
def edgeBlk (c : Dev nD) (t : Fin cfg0.N) : S512x128.Idx → EReal := fun y =>
  if h : 512 * t.val + (y 0).val < 10000 then
    Cert.Spec.outEdge (xA m c) (BA m c) (W0A m c) (b0A m c) (ix2 (⟨512 * t.val + (y 0).val, h⟩ : Fin 10000) (y 1))
  else 0

/-- The projected features of the upper half of the nodes, transposed (features × nodes); -/
def scrTop (c : Dev nD) : S128x5000.Idx → EReal := fun y =>
  Cert.Spec.proj (xA m c) (W0A m c) ⟨(y 1).val, by have h : (y 1).val < 5000 := (y 1).isLt; omega⟩ (y 0)
/-- of the lower half. -/
def scrBot (c : Dev nD) : S128x5000.Idx → EReal := fun y =>
  Cert.Spec.proj (xA m c) (W0A m c) ⟨5000 + (y 1).val, by have h : (y 1).val < 5000 := (y 1).isLt; omega⟩ (y 0)

/-- The body's invariant before grid position `n`: before the first point the two scratch buffers at anything;
    from then on at the transposed projected features. -/
def PhiAt (c : Dev nD) (n : ℕ) : sProp 𝕄 :=
  if n = 0 then Pipeline.scopedRest spec0 c
  else iprop(owns (c : Thread nD τ) (Memref.whole cc0_scratch0) fullShare (scrTop m c)
    ∗ owns (c : Thread nD τ) (Memref.whole cc0_scratch1) fullShare (scrBot m c))

/-- The proof data on device `c`. -/
def dats (_ : Fin 1) (c : Dev nD) : Dat τ (Elt Ideal) Unit ℕ (UR sig nD τ) ℕ cfg0 c where
  A w := m ((cfg0.win w).arr.view.loc (c : Thread nD τ))
  after w t := match w with
    | ⟨0, _⟩ => xA m c
    | ⟨1, _⟩ => topBlk0 m c t
    | ⟨2, _⟩ => botBlk0 m c t
    | ⟨3, _⟩ => W0A m c
    | ⟨4, _⟩ => W1A m c
    | ⟨5, _⟩ => b0A m c
    | ⟨6, _⟩ => b1A m c
    | ⟨7, _⟩ => nodeAcc m c t
    | ⟨8, _⟩ => edgeBlk m c t
  Φ t := PhiAt m c t.val
  q := shareOf
  owed _ := 0

theorem after_0 (c : Dev nD) (t : Fin cfg0.N) : (dats m 0 c).after 0 t = xA m c := by dsimp only [dats]
theorem after_1 (c : Dev nD) (t : Fin cfg0.N) : (dats m 0 c).after 1 t = topBlk0 m c t := by dsimp only [dats]
theorem after_2 (c : Dev nD) (t : Fin cfg0.N) : (dats m 0 c).after 2 t = botBlk0 m c t := by dsimp only [dats]
theorem after_3 (c : Dev nD) (t : Fin cfg0.N) : (dats m 0 c).after 3 t = W0A m c := by dsimp only [dats]
theorem after_4 (c : Dev nD) (t : Fin cfg0.N) : (dats m 0 c).after 4 t = W1A m c := by dsimp only [dats]
theorem after_5 (c : Dev nD) (t : Fin cfg0.N) : (dats m 0 c).after 5 t = b0A m c := by dsimp only [dats]
theorem after_6 (c : Dev nD) (t : Fin cfg0.N) : (dats m 0 c).after 6 t = b1A m c := by dsimp only [dats]
theorem after_7 (c : Dev nD) (t : Fin cfg0.N) : (dats m 0 c).after 7 t = nodeAcc m c t := by dsimp only [dats]
theorem after_8 (c : Dev nD) (t : Fin cfg0.N) : (dats m 0 c).after 8 t = edgeBlk m c t := by dsimp only [dats]

theorem A_eq (c : Dev nD) (w : Fin cfg0.W) : (dats m 0 c).A w = m ((cfg0.win w).arr.view.loc (c : Thread nD τ)) := by dsimp only [dats]
theorem q_eq (c : Dev nD) : (dats m 0 c).q = shareOf := by dsimp only [dats]
theorem owed_eq (c : Dev nD) (t) : (dats m 0 c).owed t = 0 := by dsimp only [dats]
theorem Phi_eq (c : Dev nD) (t : Fin (cfg0.N + 1)) : (dats m 0 c).Φ t = PhiAt m c t.val := by dsimp only [dats]

end Cert.KernelIdeal.ValueData

end
-- ==== Proof.IdealBefore.lean ====
/-
  What the kernel body finds in each window's staging buffer at each grid point, and a fetched incidence
  half-stripe read at an index inside the hyperedge axis.
-/
import proofs.«137455_g35845797052899_cont_8to1_b_606_24_alg».proof.Proof.IdealData
import Idealize.ShloMosaic.Lib.Pipeline.Value
import Idealize.ShloMosaic.Lib.Pipeline.Frame

noncomputable section

open scoped BigOperators

namespace Cert.KernelIdeal.ValueBefore

open Cert.KernelIdeal Cert.KernelIdeal.Gen Cert.KernelIdeal.ValueData
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-! ### The two incidence windows over the grid, in closed form -/

/-- The upper half-stripe at point `t` is block (0, t) of the incidence matrix: all 5000 rows of the block lie
    inside the array, and of its 512 columns all but at the last point, where 272 do (10000 = 19 · 512 + 272). -/
theorem index_1 : ∀ t : Fin cfg0.N, win0_1.index t 0 = 0 ∧ win0_1.index t 1 = t.val :=
  (by decide +kernel : ∀ t : Fin grid0.N, win0_1.index t 0 = 0 ∧ win0_1.index t 1 = t.val)
theorem xsize_1 : ∀ t : Fin cfg0.N, win0_1.xsize (grid0.coords t) 0 = 5000
    ∧ win0_1.xsize (grid0.coords t) 1 = (if t.val = 19 then 272 else 512) :=
  (by decide +kernel : ∀ t : Fin grid0.N, win0_1.xsize (grid0.coords t) 0 = 5000
    ∧ win0_1.xsize (grid0.coords t) 1 = (if t.val = 19 then 272 else 512))
/-- The lower half-stripe is block (1, t), cut alike. -/
theorem index_2 : ∀ t : Fin cfg0.N, win0_2.index t 0 = 1 ∧ win0_2.index t 1 = t.val :=
  (by decide +kernel : ∀ t : Fin grid0.N, win0_2.index t 0 = 1 ∧ win0_2.index t 1 = t.val)
theorem xsize_2 : ∀ t : Fin cfg0.N, win0_2.xsize (grid0.coords t) 0 = 5000
    ∧ win0_2.xsize (grid0.coords t) 1 = (if t.val = 19 then 272 else 512) :=
  (by decide +kernel : ∀ t : Fin grid0.N, win0_2.xsize (grid0.coords t) 0 = 5000
    ∧ win0_2.xsize (grid0.coords t) 1 = (if t.val = 19 then 272 else 512))

/-- A fetched upper half-stripe, whatever filled the buffer past the array's end, read at a column inside the
    hyperedge axis: the incidence matrix' entry (row `n`, column `512 t + e'`). -/
theorem topFill_apply (c : Dev nD) (t : Fin cfg0.N) (d : S5000x512.Idx → EReal) (n : Fin 5000) (e' : Fin 512)
    (h : 512 * t.val + e'.val < 10000) :
    win0_1.fill (grid0.coords t) d (topBlk m c t) (ix2 n e')
      = BA m c (ix2 (⟨n.val, by have := n.isLt; omega⟩ : Fin 10000) (⟨512 * t.val + e'.val, h⟩ : Fin 10000)) := by
  obtain ⟨hx0, hx1⟩ := xsize_1 t
  obtain ⟨hi0, hi1⟩ := index_1 t
  have hN : t.val < 20 := lt_of_lt_of_eq t.isLt (show cfg0.N = 20 from N_0)
  -- the index lies in the part of the block the fetch fills: row n < 5000, and column e' below the cut
  have hlt : ∀ a, ((ix2 n e' : S5000x512.Idx) a).val < win0_1.xsize (grid0.coords t) a := fun a =>
    match a with
    | ⟨0, _⟩ => lt_of_lt_of_eq n.isLt hx0.symm
    | ⟨1, _⟩ => by
      have hb : e'.val < (if t.val = 19 then 272 else 512) := by
        have := e'.isLt; split <;> omega
      exact lt_of_lt_of_eq hb hx1.symm
  refine (win0_1.fill_xinj (grid0.coords t) d (topBlk m c t) (fun a => ⟨((ix2 n e' : S5000x512.Idx) a).val, hlt a⟩)).trans ?_
  unfold topBlk
  rw [View.read_apply]
  refine (cast_eq _ _).trans (congrArg (m ((c : Thread nD τ).loc main_arg1)) ?_)
  -- element (n, e') of block (0, t) sits in the array at (0 · 5000 + n, t · 512 + e')
  funext a; apply Fin.ext
  match a with
  | ⟨0, _⟩ =>
    refine (win0_1.rect_emb_val t _ 0).trans ?_
    rw [hi0]; show 0 * 5000 + n.val = n.val; omega
  | ⟨1, _⟩ =>
    refine (win0_1.rect_emb_val t _ 1).trans ?_
    rw [hi1]; show t.val * 512 + e'.val = 512 * t.val + e'.val; omega

/-- The lower half-stripe likewise: row `5000 + n`. -/
theorem botFill_apply (c : Dev nD) (t : Fin cfg0.N) (d : S5000x512.Idx → EReal) (n : Fin 5000) (e' : Fin 512)
    (h : 512 * t.val + e'.val < 10000) :
    win0_2.fill (grid0.coords t) d (botBlk m c t) (ix2 n e')
      = BA m c (ix2 (⟨5000 + n.val, by have := n.isLt; omega⟩ : Fin 10000) (⟨512 * t.val + e'.val, h⟩ : Fin 10000)) := by
  obtain ⟨hx0, hx1⟩ := xsize_2 t
  obtain ⟨hi0, hi1⟩ := index_2 t
  have hN : t.val < 20 := lt_of_lt_of_eq t.isLt (show cfg0.N = 20 from N_0)
  have hlt : ∀ a, ((ix2 n e' : S5000x512.Idx) a).val < win0_2.xsize (grid0.coords t) a := fun a =>
    match a with
    | ⟨0, _⟩ => lt_of_lt_of_eq n.isLt hx0.symm
    | ⟨1, _⟩ => by
      have hb : e'.val < (if t.val = 19 then 272 else 512) := by
        have := e'.isLt; split <;> omega
      exact lt_of_lt_of_eq hb hx1.symm
  refine (win0_2.fill_xinj (grid0.coords t) d (botBlk m c t) (fun a => ⟨((ix2 n e' : S5000x512.Idx) a).val, hlt a⟩)).trans ?_
  unfold botBlk
  rw [View.read_apply]
  refine (cast_eq _ _).trans (congrArg (m ((c : Thread nD τ).loc main_arg1)) ?_)
  -- element (n, e') of block (1, t) sits in the array at (1 · 5000 + n, t · 512 + e')
  funext a; apply Fin.ext
  match a with
  | ⟨0, _⟩ =>
    refine (win0_2.rect_emb_val t _ 0).trans ?_
    rw [hi0]; show 1 * 5000 + n.val = 5000 + n.val; omega
  | ⟨1, _⟩ =>
    refine (win0_2.rect_emb_val t _ 1).trans ?_
    rw [hi1]; show t.val * 512 + e'.val = 512 * t.val + e'.val; omega

/-- The whole-array inputs sit in their buffers at every point (fetched at the first, kept after). -/
theorem before_0 (c : Dev nD) (t : Fin cfg0.N) (d) : (dats m 0 c).before 0 t d = xA m c := by
  -- the window's one block is the whole array at block index (0, 0), uncut: an element of the block sits in
  -- the array at its own coordinates, so the block read is the array
  have hblk : ∀ t' : Fin cfg0.N, (dats m 0 c).blockOf 0 t' = xA m c := fun t' => by
    funext y
    unfold Dat.blockOf
    rw [View.read_apply, A_eq]
    refine (cast_eq _ _).trans (congrArg (m ((c : Thread nD τ).loc main_arg0)) ?_)
    funext a; apply Fin.ext
    exact win0_0.rect_emb_val_of_index_zero t' a (match a with | ⟨0, _⟩ => rfl | ⟨1, _⟩ => rfl) y
  rw [(dats m 0 c).before_in_eq_fetched 0 rfl (fun _ => rfl) (fun _ _ _ => rfl)
    (fun t' => by rw [after_0, hblk]; rfl) t d]
  unfold Dat.fetched
  rw [hblk]
  rfl
theorem before_3 (c : Dev nD) (t : Fin cfg0.N) (d) : (dats m 0 c).before 3 t d = W0A m c := by
  -- the window's one block is the whole array at block index (0, 0), uncut: an element of the block sits in
  -- the array at its own coordinates, so the block read is the array
  have hblk : ∀ t' : Fin cfg0.N, (dats m 0 c).blockOf 3 t' = W0A m c := fun t' => by
    funext y
    unfold Dat.blockOf
    rw [View.read_apply, A_eq]
    refine (cast_eq _ _).trans (congrArg (m ((c : Thread nD τ).loc main_arg2)) ?_)
    funext a; apply Fin.ext
    exact win0_3.rect_emb_val_of_index_zero t' a (match a with | ⟨0, _⟩ => rfl | ⟨1, _⟩ => rfl) y
  rw [(dats m 0 c).before_in_eq_fetched 3 rfl (fun _ => rfl) (fun _ _ _ => rfl)
    (fun t' => by rw [after_3, hblk]; rfl) t d]
  unfold Dat.fetched
  rw [hblk]
  rfl
theorem before_4 (c : Dev nD) (t : Fin cfg0.N) (d) : (dats m 0 c).before 4 t d = W1A m c := by
  -- the window's one block is the whole array at block index (0, 0), uncut: an element of the block sits in
  -- the array at its own coordinates, so the block read is the array
  have hblk : ∀ t' : Fin cfg0.N, (dats m 0 c).blockOf 4 t' = W1A m c := fun t' => by
    funext y
    unfold Dat.blockOf
    rw [View.read_apply, A_eq]
    refine (cast_eq _ _).trans (congrArg (m ((c : Thread nD τ).loc main_arg3)) ?_)
    funext a; apply Fin.ext
    exact win0_4.rect_emb_val_of_index_zero t' a (match a with | ⟨0, _⟩ => rfl | ⟨1, _⟩ => rfl) y
  rw [(dats m 0 c).before_in_eq_fetched 4 rfl (fun _ => rfl) (fun _ _ _ => rfl)
    (fun t' => by rw [after_4, hblk]; rfl) t d]
  unfold Dat.fetched
  rw [hblk]
  rfl
theorem before_5 (c : Dev nD) (t : Fin cfg0.N) (d) : (dats m 0 c).before 5 t d = b0A m c := by
  -- the window's one block is the whole array at block index (0, 0), uncut: an element of the block sits in
  -- the array at its own coordinates, so the block read is the array
  have hblk : ∀ t' : Fin cfg0.N, (dats m 0 c).blockOf 5 t' = b0A m c := fun t' => by
    funext y
    unfold Dat.blockOf
    rw [View.read_apply, A_eq]
    refine (cast_eq _ _).trans (congrArg (m ((c : Thread nD τ).loc main_arg4)) ?_)
    funext a; apply Fin.ext
    exact win0_5.rect_emb_val_of_index_zero t' a (match a with | ⟨0, _⟩ => rfl | ⟨1, _⟩ => rfl) y
  rw [(dats m 0 c).before_in_eq_fetched 5 rfl (fun _ => rfl) (fun _ _ _ => rfl)
    (fun t' => by rw [after_5, hblk]; rfl) t d]
  unfold Dat.fetched
  rw [hblk]
  rfl
theorem before_6 (c : Dev nD) (t : Fin cfg0.N) (d) : (dats m 0 c).before 6 t d = b1A m c := by
  -- the window's one block is the whole array at block index (0, 0), uncut: an element of the block sits in
  -- the array at its own coordinates, so the block read is the array
  have hblk : ∀ t' : Fin cfg0.N, (dats m 0 c).blockOf 6 t' = b1A m c := fun t' => by
    funext y
    unfold Dat.blockOf
    rw [View.read_apply, A_eq]
    refine (cast_eq _ _).trans (congrArg (m ((c : Thread nD τ).loc main_arg5)) ?_)
    funext a; apply Fin.ext
    exact win0_6.rect_emb_val_of_index_zero t' a (match a with | ⟨0, _⟩ => rfl | ⟨1, _⟩ => rfl) y
  rw [(dats m 0 c).before_in_eq_fetched 6 rfl (fun _ => rfl) (fun _ _ _ => rfl)
    (fun t' => by rw [after_6, hblk]; rfl) t d]
  unfold Dat.fetched
  rw [hblk]
  rfl

/-- The half-stripes are fetched at every point: the block inside the array, `d` past its end. -/
theorem before_1 (c : Dev nD) (t : Fin cfg0.N) (d) :
    (dats m 0 c).before 1 t d = win0_1.fill (grid0.coords t) d (topBlk m c t) := by
  unfold Dat.before; rw [if_pos (fetch0_1 t)]; rfl
theorem before_2 (c : Dev nD) (t : Fin cfg0.N) (d) :
    (dats m 0 c).before 2 t d = win0_2.fill (grid0.coords t) d (botBlk m c t) := by
  unfold Dat.before; rw [if_pos (fetch0_2 t)]; rfl

/-- The node accumulator's buffer: anything at the first point, then what the point before left (it is
    written back only after the last point). -/
theorem before_7_zero (c : Dev nD) (t : Fin cfg0.N) (h : t.val = 0) (d) : (dats m 0 c).before 7 t d = d := by
  exact (dats m 0 c).before_out_reset 7 rfl t (.inl h) d
theorem before_7_pos (c : Dev nD) (t : Fin cfg0.N) (h : t.val ≠ 0) (d) :
    (dats m 0 c).before 7 t d = nodeAcc m c ⟨t.val - 1, Nat.lt_of_le_of_lt (Nat.sub_le _ _) t.isLt⟩ := by
  have hN : t.val < 20 := lt_of_lt_of_eq t.isLt (show cfg0.N = 20 from N_0)
  -- no write-back before the last point, and the window is never cut: the buffer holds what the point before left
  rw [(dats m 0 c).before_out_kept 7 rfl t h
    (Bool.eq_false_iff.mpr fun hf => by have := (flush0_7 _).mp hf; dsimp only at this; omega)
    (fun _ => rfl) (fun _ _ => rfl)]
  exact after_7 m c _

/-- The hyperedge block's buffer comes back from its write-back at anything. -/
theorem before_8 (c : Dev nD) (t : Fin cfg0.N) (d) : (dats m 0 c).before 8 t d = d := by
  refine (dats m 0 c).before_out_reset 8 rfl t ?_ d
  by_cases h0 : t.val = 0
  · exact .inl h0
  · exact .inr ⟨h0, flush0_8 _⟩

end Cert.KernelIdeal.ValueBefore

end
-- ==== Proof.LibMatmulPlain.lean ====
/-
  A general lemma. The plain matrix product of an [M, K] array by a [K, N] array (the left operand contracted on its
  second axis, the right on its first, no batch axes), accumulated into the zero array and read at the exact
  instance, is at entry (p, q) the finite sum over the contraction coordinate k of left (p, k) · right (k, q).
  It holds for all sizes and both operands' formats.
-/
import Idealize.ShloMosaic.Lib.ValueIdx
import Idealize.ShloMosaic.PureOps.Ideal.Laws

namespace Idealize.ShloMosaic.MatmulPlain

open Idealize.ShloMosaic Idealize.ShloMosaic.ValueIdx

variable {M K N : ℕ}

/-- The left operand's row coordinate is the result's row coordinate. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (p, q) of the plain product into a zero accumulator is ∑ k, left (p, k) · right (k, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    matmul (DotDims.plain M K N) prec l r (constant ⟨2, ![M, N]⟩ .f32 0x00000000#32) (ix2 p q)
      = ∑ k : Fin K, l (ix2 p k) * r (ix2 k q) := by
  show FloatOps.matmul (DotDims.plain M K N) prec l r (constant ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.MatmulPlain
-- ==== Proof.PayVal.lean ====
/-
  The kernel body's arithmetic read at an index, at the ideal instance (a float an extended real, every
  operation the exact one, a change of format the identity): each stored value as a plain expression in the
  entries of the values the body loaded.
-/
import proofs.«137455_g35845797052899_cont_8to1_b_606_24_alg».proof.Proof.Gen.KernelIdeal.Skeleton
import proofs.«137455_g35845797052899_cont_8to1_b_606_24_alg».proof.Proof.LibMatmulPlain
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

open scoped BigOperators

namespace Cert.KernelIdeal.PayVal

open Cert.KernelIdeal Cert.KernelIdeal.Gen
open Idealize.ShloMosaic Idealize.ShloMosaic.ValueIdx

/-! ## The four matrix products, each into a zero accumulator, at an entry

Each record contracts the left operand's second axis with the right operand's first and has no batch axis, so
it is the plain product of its sizes. -/

/-- [5000,128] × [128,128]: entry (p, q) is Σ_k a p k · b k q. -/
theorem mm_5000_128_128 {φ₁ φ₂ : FTy} (a : FVec Ideal S5000x128 φ₁) (b : FVec Ideal S128x128 φ₂) (p : Fin 5000) (q : Fin 128) :
    matmul dot_S5000x128_S128x128_S5000x128_1_0_0_1_n_n none a b (constant S5000x128 .f32 0x00000000#32) (ix2 p q)
      = ∑ k : Fin 128, a (ix2 p k) * b (ix2 k q) :=
  MatmulPlain.matmul_zero_apply none a b p q

/-- [128,5000] × [5000,512]: entry (p, q) is Σ_k a p k · b k q. -/
theorem mm_128_5000_512 {φ₁ φ₂ : FTy} (a : FVec Ideal S128x5000 φ₁) (b : FVec Ideal S5000x512 φ₂) (p : Fin 128) (q : Fin 512) :
    matmul dot_S128x5000_S5000x512_S128x512_1_0_0_1_n_n none a b (constant S128x512 .f32 0x00000000#32) (ix2 p q)
      = ∑ k : Fin 5000, a (ix2 p k) * b (ix2 k q) :=
  MatmulPlain.matmul_zero_apply none a b p q

/-- [512,128] × [128,128]: entry (p, q) is Σ_k a p k · b k q. -/
theorem mm_512_128_128 {φ₁ φ₂ : FTy} (a : FVec Ideal S512x128 φ₁) (b : FVec Ideal S128x128 φ₂) (p : Fin 512) (q : Fin 128) :
    matmul dot_S512x128_S128x128_S512x128_1_0_0_1_n_n none a b (constant S512x128 .f32 0x00000000#32) (ix2 p q)
      = ∑ k : Fin 128, a (ix2 p k) * b (ix2 k q) :=
  MatmulPlain.matmul_zero_apply none a b p q

/-- [5000,512] × [512,128]: entry (p, q) is Σ_k a p k · b k q. -/
theorem mm_5000_512_128 {φ₁ φ₂ : FTy} (a : FVec Ideal S5000x512 φ₁) (b : FVec Ideal S512x128 φ₂) (p : Fin 5000) (q : Fin 128) :
    matmul dot_S5000x512_S512x128_S5000x128_1_0_0_1_n_n none a b (constant S5000x128 .f32 0x00000000#32) (ix2 p q)
      = ∑ k : Fin 512, a (ix2 p k) * b (ix2 k q) :=
  MatmulPlain.matmul_zero_apply none a b p q

/-! ## The row mask's word

Row e of the stripe at grid coordinate i (i < 20, e < 512) is kept iff e, as a signed 32-bit word, is below the
word 10000 − 512·i. Neither the product nor the difference wraps (512·19 = 9728 ≤ 10000), so the comparison is
the one between the naturals. -/

theorem mask_word (iv e : ℕ) (hiv : iv < 20) (he : e < 512) :
    IntOp.cmpi .slt (BitVec.ofNat 32 e) (Scalar.subi 10000#32 (Scalar.muli (BitVec.ofNat 32 iv) 512#32)) = 1#1
      ↔ 512 * iv + e < 10000 := by
  have hb : (Scalar.subi 10000#32 (Scalar.muli (BitVec.ofNat 32 iv) 512#32)).toNat = 10000 - 512 * iv := by
    simp only [Scalar.subi, Scalar.muli, IntOp.subi, IntOp.muli, BitVec.toNat_sub, BitVec.toNat_mul, BitVec.toNat_ofNat]
    omega
  have ha : (BitVec.ofNat 32 e).toNat = e := by
    simp only [BitVec.toNat_ofNat]; omega
  rw [StableHlo.Predicate.slt_iff_toNat (by omega) (by omega), ha, hb]
  omega

/-- A select on a signed comparison of two word vectors, at an index. -/
theorem select_cmpi_apply {α : Type} {s : Shape} (p : CmpIPredicate) (x y : IVec s 32) (a b : s.Idx → α) (j : s.Idx) :
    select (cmpi p x y) a b j = Scalar.select (IntOp.cmpi p (x j) (y j)) (a j) (b j) := rfl

/-! ## The payloads -/

/-- The zero the body splats. -/
theorem pay1_apply (n : Fin 10000) (d : Fin 128) : (k0_pay1 (F := Ideal)) (ix2 n d) = 0 := by
  unfold k0_pay1
  exact Ideal.ofBits_zero_f32

/-- A format change is the identity. -/
theorem pay8_apply (v3 : Vec Ideal S5000x512 .f32) (n : Fin 5000) (e : Fin 512) : k0_pay8 (F := Ideal) v3 (ix2 n e) = v3 (ix2 n e) := by
  rfl
theorem pay9_apply (v5 : Vec Ideal S5000x512 .f32) (n : Fin 5000) (e : Fin 512) : k0_pay9 (F := Ideal) v5 (ix2 n e) = v5 (ix2 n e) := by
  rfl

/-- The projected features of one half of the nodes, stored transposed: entry (d, n) is Σ_k x n k · W0 k d. -/
theorem pay6_apply (w0 : Vec Ideal S128x128 .f32) (xh : Vec Ideal S5000x128 .f32) (d : Fin 128) (n : Fin 5000) :
    k0_pay6 (F := Ideal) w0 xh (ix2 d n) = ∑ k : Fin 128, xh (ix2 n k) * w0 (ix2 k d) := by
  unfold k0_pay6 k0_pay5
  rw [shapeCast_self, transpose_ix2_apply, truncf_apply, mm_5000_128_128]
  rfl
theorem pay7_apply (w0 : Vec Ideal S128x128 .f32) (xh : Vec Ideal S5000x128 .f32) (d : Fin 128) (n : Fin 5000) :
    k0_pay7 (F := Ideal) w0 xh (ix2 d n) = ∑ k : Fin 128, xh (ix2 n k) * w0 (ix2 k d) := by
  unfold k0_pay7 k0_pay5
  rw [shapeCast_self, transpose_ix2_apply, truncf_apply, mm_5000_128_128]
  rfl

/-- A stripe's hyperedge features before the rectifier, rows past the hyperedge axis' end zeroed: row e' of the
    stripe at grid point i is in range iff 512 · i + e' < 10000. -/
theorem pay10_apply (i : grid0.Coords) (v3 v5 : Vec Ideal S5000x512 .f32) (v7 v9 : Vec Ideal S128x5000 .bf16) (v13 : Vec Ideal S1x128 .f32)
    (e' : Fin 512) (d : Fin 128) :
    k0_pay10 (F := Ideal) i v3 v5 v7 v9 v13 (ix2 e' d)
      = if 512 * (i 0).val + e'.val < 10000 then
          ((∑ n : Fin 5000, v7 (ix2 d n) * v3 (ix2 n e')) + ∑ n : Fin 5000, v9 (ix2 d n) * v5 (ix2 n e')) + v13 (ix2 (0 : Fin 1) d)
        else 0 := by
  have hi : (i 0).val < 20 := (i 0).isLt
  have hm := mask_word (i 0).val e'.val hi e'.isLt
  unfold k0_pay10 k0_pay8 k0_pay9
  dsimp only
  rw [select_cmpi_apply, iota_single_apply, broadcast_apply, broadcast_apply]
  change Scalar.select (IntOp.cmpi .slt (BitVec.ofNat 32 e'.val) _) _ _ = _
  by_cases h : 512 * (i 0).val + e'.val < 10000
  · rw [if_pos h, hm.mpr h, select_one, addf_apply, transpose_ix2_apply, addf_apply, mm_128_5000_512, mm_128_5000_512,
      broadcastTo_1b_ab_apply]
    rfl
  · rw [if_neg h, eq_zero_of_ne_one (fun hc => h (hm.mp hc)), select_zero]
    exact Ideal.ofBits_zero_f32

/-- The stored hyperedge block: the rectifier over the above. -/
theorem pay11_apply (i : grid0.Coords) (v3 v5 : Vec Ideal S5000x512 .f32) (v7 v9 : Vec Ideal S128x5000 .bf16) (v13 : Vec Ideal S1x128 .f32)
    (e' : Fin 512) (d : Fin 128) :
    k0_pay11 (F := Ideal) i v3 v5 v7 v9 v13 (ix2 e' d) = max (k0_pay10 (F := Ideal) i v3 v5 v7 v9 v13 (ix2 e' d)) 0 := by
  unfold k0_pay11
  show max (k0_pay10 (F := Ideal) i v3 v5 v7 v9 v13 (ix2 e' d)) (Ideal.ofBits .f32 0x00000000#32) = _
  rw [Ideal.ofBits_zero_f32]

/-- What the stripe's hyperedges send back: the unrectified features times W1. -/
theorem pay12_apply (i : grid0.Coords) (v3 v5 : Vec Ideal S5000x512 .f32) (v7 v9 : Vec Ideal S128x5000 .bf16) (v13 : Vec Ideal S1x128 .f32)
    (v27 : Vec Ideal S128x128 .f32) (e' : Fin 512) (d : Fin 128) :
    k0_pay12 (F := Ideal) i v3 v5 v7 v9 v13 v27 (ix2 e' d)
      = ∑ k : Fin 128, k0_pay10 (F := Ideal) i v3 v5 v7 v9 v13 (ix2 e' k) * v27 (ix2 k d) := by
  unfold k0_pay12
  generalize k0_pay10 (F := Ideal) i v3 v5 v7 v9 v13 = P
  rw [truncf_apply, mm_512_128_128]
  rfl

/-- One half of the node accumulator after a stripe: what it held plus the stripe's incidence block times the
    messages. -/
theorem pay2_apply (v4 : FVec Ideal S5000x512 .bf16) (v29 : FVec Ideal S512x128 .bf16) (v33 : Vec Ideal S5000x128 .f32)
    (n : Fin 5000) (d : Fin 128) :
    k0_pay2 (F := Ideal) v4 v29 v33 (ix2 n d) = v33 (ix2 n d) + ∑ e' : Fin 512, v4 (ix2 n e') * v29 (ix2 e' d) := by
  unfold k0_pay2
  rw [addf_apply, shapeCast_self, mm_5000_512_128]
theorem pay3_apply (v6 : FVec Ideal S5000x512 .bf16) (v29 : FVec Ideal S512x128 .bf16) (v38 : Vec Ideal S5000x128 .f32)
    (n : Fin 5000) (d : Fin 128) :
    k0_pay3 (F := Ideal) v6 v29 v38 (ix2 n d) = v38 (ix2 n d) + ∑ e' : Fin 512, v6 (ix2 n e') * v29 (ix2 e' d) := by
  unfold k0_pay3
  rw [addf_apply, shapeCast_self, mm_5000_512_128]

/-- The last point's epilogue: add the bias row, rectify. -/
theorem pay4_apply (v46 : Vec Ideal S10000x128 .f32) (v48 : Vec Ideal S1x128 .f32) (n : Fin 10000) (d : Fin 128) :
    k0_pay4 (F := Ideal) v46 v48 (ix2 n d) = max (v46 (ix2 n d) + v48 (ix2 (0 : Fin 1) d)) 0 := by
  unfold k0_pay4
  rw [maximumf_apply, addf_apply, shapeCast_self, broadcastTo_1b_ab_apply, broadcast_apply]
  show max (v46 (ix2 n d) + v48 (ix2 (0 : Fin 1) d)) (Ideal.ofBits .f32 0x00000000#32) = _
  rw [Ideal.ofBits_zero_f32]

end Cert.KernelIdeal.PayVal

end
-- ==== Proof.IdealStripe.lean ====
/-
  One stripe of the kernel's arithmetic, at the ideal instance, in the specification's terms. At grid point `t`
  the body holds the upper and the lower incidence half-stripe (columns `512 t … 512 t + 511`; at the last point
  the columns past the hyperedge axis' end hold anything), the transposed projected features, the bias row and
  `W1`. Row `e'` of the stripe inside the axis gives hyperedge `512 t + e'`'s features; a row past the end is
  zeroed, so whatever the half-stripes hold there is multiplied by zero and drops out of the node sums.
-/
import proofs.«137455_g35845797052899_cont_8to1_b_606_24_alg».proof.Proof.IdealBefore
import proofs.«137455_g35845797052899_cont_8to1_b_606_24_alg».proof.Proof.PayVal

noncomputable section

open scoped BigOperators

namespace Cert.KernelIdeal.ValueStripe

open Cert.KernelIdeal Cert.KernelIdeal.Gen Cert.KernelIdeal.Runs Cert.KernelIdeal.ValueData Cert.KernelIdeal.ValueBefore Cert.KernelIdeal.PayVal
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (c : Dev nD) (t : Fin cfg0.N) (d1 d2 : S5000x512.Idx → EReal)

/-- The upper half-stripe as the body finds it: the block inside the array, `d1` past its end; -/
abbrev topF : S5000x512.Idx → EReal := win0_1.fill (grid0.coords t) d1 (topBlk m c t)
/-- the lower one. -/
abbrev botF : S5000x512.Idx → EReal := win0_2.fill (grid0.coords t) d2 (botBlk m c t)

/-- Row `e'` of the stripe before the rectifier: hyperedge `512 t + e'`'s features, or zero past the axis' end. -/
theorem stripe_pre (e' : Fin 512) (k : Fin 128) :
    k0_pay10 (F := Ideal) (grid0.coords t) (topF m c t d1) (botF m c t d2) (scrTop m c) (scrBot m c) (b0A m c) (ix2 e' k)
      = if h : 512 * t.val + e'.val < 10000 then
          Cert.Spec.edgePre (xA m c) (BA m c) (W0A m c) (b0A m c) ⟨512 * t.val + e'.val, h⟩ k
        else 0 := by
  rw [pay10_apply, coords_val t]
  split
  · rename_i h
    rw [Cert.Spec.edgePre_halves]
    refine congrArg (· + b0A m c (ix2 (0 : Fin 1) k)) (congrArg₂ (· + ·) ?_ ?_)
    · exact Finset.sum_congr rfl fun n _ => congrArg (scrTop m c (ix2 k n) * ·) (topFill_apply m c t d1 n e' h)
    · exact Finset.sum_congr rfl fun n _ => congrArg (scrBot m c (ix2 k n) * ·) (botFill_apply m c t d2 n e' h)
  · rfl

/-- The stored hyperedge block is `edgeBlk`. -/
theorem stripe_out (y : S512x128.Idx) :
    k0_pay11 (F := Ideal) (grid0.coords t) (topF m c t d1) (botF m c t d2) (scrTop m c) (scrBot m c) (b0A m c) y
      = edgeBlk m c t y := by
  obtain ⟨e', k, rfl⟩ : ∃ (e' : Fin 512) (k : Fin 128), y = ix2 e' k := ⟨y 0, y 1, eq_ix2 y⟩
  rw [pay11_apply, stripe_pre]
  unfold edgeBlk
  show _ = if h : 512 * t.val + e'.val < 10000 then _ else _
  split
  · rfl
  · exact max_self 0

/-- What row `e'` sends back: hyperedge `512 t + e'`'s message, or zero past the axis' end. -/
theorem stripe_msg (e' : Fin 512) (d : Fin 128) :
    k0_pay12 (F := Ideal) (grid0.coords t) (topF m c t d1) (botF m c t d2) (scrTop m c) (scrBot m c) (b0A m c) (W1A m c) (ix2 e' d)
      = if h : 512 * t.val + e'.val < 10000 then
          Cert.Spec.edgeMsg (xA m c) (BA m c) (W0A m c) (W1A m c) (b0A m c) ⟨512 * t.val + e'.val, h⟩ d
        else 0 := by
  rw [pay12_apply]
  split
  · rename_i h
    unfold Cert.Spec.edgeMsg
    exact Finset.sum_congr rfl fun k _ => by rw [stripe_pre, dif_pos h]
  · rename_i h
    exact Finset.sum_eq_zero fun k _ => by rw [stripe_pre, dif_neg h, zero_mul]

/-- The stripe's contribution to the upper half of the node accumulator: over what it held, the stripe's 512
    terms (those past the axis' end zero, whatever the half-stripe holds there). -/
theorem stripe_top (v33 : S5000x128.Idx → EReal) (n : Fin 5000) (d : Fin 128) :
    k0_pay2 (F := Ideal) (k0_pay8 (F := Ideal) (topF m c t d1))
        (k0_pay12 (F := Ideal) (grid0.coords t) (topF m c t d1) (botF m c t d2) (scrTop m c) (scrBot m c) (b0A m c) (W1A m c)) v33 (ix2 n d)
      = v33 (ix2 n d) + ∑ e' : Fin 512,
          Cert.Spec.term (xA m c) (BA m c) (W0A m c) (W1A m c) (b0A m c) ⟨n.val, by have := n.isLt; omega⟩ d (512 * t.val + e'.val) := by
  rw [pay2_apply]
  refine congrArg (v33 (ix2 n d) + ·) (Finset.sum_congr rfl fun e' _ => ?_)
  rw [pay8_apply, stripe_msg]
  unfold Cert.Spec.term
  split
  · rename_i h
    rw [show topF m c t d1 (ix2 n e') = BA m c (ix2 (⟨n.val, by have := n.isLt; omega⟩ : Fin 10000) (⟨512 * t.val + e'.val, h⟩ : Fin 10000)) from topFill_apply m c t d1 n e' h]
  · exact mul_zero _

/-- The lower half likewise. -/
theorem stripe_bot (v38 : S5000x128.Idx → EReal) (n : Fin 5000) (d : Fin 128) :
    k0_pay3 (F := Ideal) (k0_pay9 (F := Ideal) (botF m c t d2))
        (k0_pay12 (F := Ideal) (grid0.coords t) (topF m c t d1) (botF m c t d2) (scrTop m c) (scrBot m c) (b0A m c) (W1A m c)) v38 (ix2 n d)
      = v38 (ix2 n d) + ∑ e' : Fin 512,
          Cert.Spec.term (xA m c) (BA m c) (W0A m c) (W1A m c) (b0A m c) ⟨5000 + n.val, by have := n.isLt; omega⟩ d (512 * t.val + e'.val) := by
  rw [pay3_apply]
  refine congrArg (v38 (ix2 n d) + ·) (Finset.sum_congr rfl fun e' _ => ?_)
  rw [pay9_apply, stripe_msg]
  unfold Cert.Spec.term
  split
  · rename_i h
    rw [show botF m c t d2 (ix2 n e') = BA m c (ix2 (⟨5000 + n.val, by have := n.isLt; omega⟩ : Fin 10000) (⟨512 * t.val + e'.val, h⟩ : Fin 10000)) from botFill_apply m c t d2 n e' h]
  · exact mul_zero _

end Cert.KernelIdeal.ValueStripe

end
-- ==== Proof.IdealCaseB.lean ====
/-
  A middle grid point, in the specification's terms: the body leaves the node accumulator at the sum of the
  messages of the stripes so far, and the hyperedge block at the stripe's rectified hyperedge features.
-/
import proofs.«137455_g35845797052899_cont_8to1_b_606_24_alg».proof.Proof.Pieces
import proofs.«137455_g35845797052899_cont_8to1_b_606_24_alg».proof.Proof.IdealStripe
import Idealize.ShloMosaic.Lib.ValueIdx
import Idealize.ShloMosaic.Lib.Pipeline.FrameBody
import Idealize.ShloMosaic.Lib.Pipeline.Value
import Idealize.ShloMosaic.Lib.Ring
import Idealize.ShloMosaic.Lib.Tactic

set_option maxRecDepth 16384

noncomputable section

open scoped BigOperators

namespace Cert.KernelIdeal.ValueCaseB

open Cert.KernelIdeal Cert.KernelIdeal.Facts₀ Cert.KernelIdeal.Gen Cert.KernelIdeal.Runs Cert.KernelIdeal.ValueData Cert.KernelIdeal.ValueBefore Cert.KernelIdeal.ValueStripe Cert.KernelIdeal.Pieces
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (c : Dev nD) (t : Fin cfg0.N)

/-- Before the last point the node accumulator holds the running sum. -/
theorem nodeAcc_mid (h19 : t.val ≠ 19) (n : Fin 10000) (d : Fin 128) :
    nodeAcc m c t (ix2 n d) = Cert.Spec.acc (xA m c) (BA m c) (W0A m c) (W1A m c) (b0A m c) (t.val + 1) n d := by
  unfold nodeAcc; rw [if_neg h19]

/-- The whole hyperedge block's rectangle places an index at itself. -/
theorem RE_emb (x : S512x128.Idx) : RE.emb x = x :=
  funext fun a => Fin.ext (by match a with | ⟨0, _⟩ => (show 0 + 1 * (x 0).val = (x 0).val; omega) | ⟨1, _⟩ => (show 0 + 1 * (x 1).val = (x 1).val; omega))

set_option maxHeartbeats 1000000 in
/-- The node accumulator after a middle point. -/
theorem node_B (h0 : t.val ≠ 0) (h19 : t.val ≠ 19) (d1 d2 : S5000x512.Idx → EReal) (arg1 : Memref sig .tc .vmem S10000x128 .f32) (harg1 : arg1.IsWhole) (arg2 : Memref sig .tc .vmem S5000x512 .f32) (harg2 : arg2.IsWhole) (arg3 : Memref sig .tc .vmem S5000x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S512x128 .f32) (harg9 : arg9.IsWhole) (arg10 : Memref sig .tc .vmem S128x5000 .bf16) (harg10 : arg10.IsWhole) (arg11 : Memref sig .tc .vmem S128x5000 .bf16) (harg11 : arg11.IsWhole)
    (hc0 : ¬condFirst (grid0.coords t)) (hc1 : ¬condLast (grid0.coords t)) (f : arg8.view.ty.Contents (Elt Ideal)) :
    arg8.view.read (Elt Ideal) (arg8.view.writes (Elt Ideal) f
      (kernelRun_B (F := Ideal) c (grid0.coords t) arg1 harg1 arg2 harg2 arg3 harg3 arg4 harg4 arg5 harg5 arg6 harg6 arg7 harg7 arg8 harg8 arg9 harg9 arg10 harg10 arg11 harg11 hc0 hc1 (xA m c) (topF m c t d1) (botF m c t d2) (W0A m c) (W1A m c) (b0A m c) (b1A m c)
        (nodeAcc m c ⟨t.val - 1, Nat.lt_of_le_of_lt (Nat.sub_le _ _) t.isLt⟩) (scrTop m c) (scrBot m c)).1.1)
      = nodeAcc m c t := by
  rw [pieces_B]
  funext y
  have e1 : t.val - 1 + 1 = t.val := by omega
  refine View.read_writes_apply_of_pieces (Val := Elt Ideal) (e := .f32) arg8.view f (nodeAcc m c t) _ ?_ y ?_
  · intro p hp x
    simp only [List.mem_cons, List.not_mem_nil, or_false] at hp
    rcases hp with rfl | rfl
    · obtain ⟨n, d, rfl⟩ : ∃ (n : Fin 5000) (d : Fin 128), x = ix2 n d := ⟨x 0, x 1, eq_ix2 x⟩
      refine (stripe_bot m c t d1 d2 _ n d).trans ?_
      rw [RB_emb, nodeAcc_mid m c t h19, Cert.Spec.acc_succ]
      refine congrArg (· + _) ?_
      show nodeAcc m c _ (RB.emb (ix2 n d)) = _
      rw [RB_emb, nodeAcc_mid m c _ (by show t.val - 1 ≠ 19; have := t.isLt; have : cfg0.N = 20 := N_0; omega)]
      exact congrArg (fun T => Cert.Spec.acc (xA m c) (BA m c) (W0A m c) (W1A m c) (b0A m c) T _ d) e1
    · obtain ⟨n, d, rfl⟩ : ∃ (n : Fin 5000) (d : Fin 128), x = ix2 n d := ⟨x 0, x 1, eq_ix2 x⟩
      refine (stripe_top m c t d1 d2 _ n d).trans ?_
      rw [RT_emb, nodeAcc_mid m c t h19, Cert.Spec.acc_succ]
      refine congrArg (· + _) ?_
      show nodeAcc m c _ (RT.emb (ix2 n d)) = _
      rw [RT_emb, nodeAcc_mid m c _ (by show t.val - 1 ≠ 19; have := t.isLt; have : cfg0.N = 20 := N_0; omega)]
      exact congrArg (fun T => Cert.Spec.acc (xA m c) (BA m c) (W0A m c) (W1A m c) (b0A m c) T _ d) e1
  · rcases mem_halves y with h | h
    · exact ⟨_, List.mem_cons_of_mem _ List.mem_cons_self, h⟩
    · exact ⟨_, List.mem_cons_self, h⟩

set_option maxHeartbeats 1000000 in
/-- The hyperedge block after a middle point. -/
theorem edge_B (d1 d2 : S5000x512.Idx → EReal) (arg1 : Memref sig .tc .vmem S10000x128 .f32) (harg1 : arg1.IsWhole) (arg2 : Memref sig .tc .vmem S5000x512 .f32) (harg2 : arg2.IsWhole) (arg3 : Memref sig .tc .vmem S5000x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S512x128 .f32) (harg9 : arg9.IsWhole) (arg10 : Memref sig .tc .vmem S128x5000 .bf16) (harg10 : arg10.IsWhole) (arg11 : Memref sig .tc .vmem S128x5000 .bf16) (harg11 : arg11.IsWhole)
    (hc0 : ¬condFirst (grid0.coords t)) (hc1 : ¬condLast (grid0.coords t)) (xo7 : S10000x128.Idx → EReal) (f : arg9.view.ty.Contents (Elt Ideal)) :
    arg9.view.read (Elt Ideal) (arg9.view.writes (Elt Ideal) f
      (kernelRun_B (F := Ideal) c (grid0.coords t) arg1 harg1 arg2 harg2 arg3 harg3 arg4 harg4 arg5 harg5 arg6 harg6 arg7 harg7 arg8 harg8 arg9 harg9 arg10 harg10 arg11 harg11 hc0 hc1 (xA m c) (topF m c t d1) (botF m c t d2) (W0A m c) (W1A m c) (b0A m c) (b1A m c)
        xo7 (scrTop m c) (scrBot m c)).1.2)
      = edgeBlk m c t := by
  rw [pieces_B]
  funext y
  refine View.read_writes_apply_of_pieces (Val := Elt Ideal) (e := .f32) arg9.view f (edgeBlk m c t) _ ?_ y ?_
  · intro p hp x
    simp only [List.mem_cons, List.not_mem_nil, or_false] at hp
    subst hp
    show _ = edgeBlk m c t (RE.emb x)
    rw [RE_emb]
    exact stripe_out m c t d1 d2 x
  · exact ⟨_, List.mem_cons_self, View.mem_set_unit_zero (S := S512x128) hz2 Facts₀.inb_S512x128_S512x128_0_0 y⟩

end Cert.KernelIdeal.ValueCaseB

end
-- ==== Proof.IdealCaseA.lean ====
/-
  The first grid point, in the specification's terms: the body leaves the two scratch buffers at the projected
  features of the upper and of the lower half of the nodes, transposed; the node accumulator at the first
  stripe's messages (it was cleared first); the hyperedge block at the first stripe's rectified features.
-/
import proofs.«137455_g35845797052899_cont_8to1_b_606_24_alg».proof.Proof.PiecesA
import proofs.«137455_g35845797052899_cont_8to1_b_606_24_alg».proof.Proof.IdealCaseB
import Idealize.ShloMosaic.Lib.ValueIdx
import Idealize.ShloMosaic.Lib.Pipeline.FrameBody
import Idealize.ShloMosaic.Lib.Pipeline.Value
import Idealize.ShloMosaic.Lib.Ring
import Idealize.ShloMosaic.Lib.Tactic

set_option maxRecDepth 16384

noncomputable section

open scoped BigOperators

namespace Cert.KernelIdeal.ValueCaseA

open Cert.KernelIdeal Cert.KernelIdeal.Facts₀ Cert.KernelIdeal.Gen Cert.KernelIdeal.Runs Cert.KernelIdeal.ValueData Cert.KernelIdeal.ValueBefore Cert.KernelIdeal.ValueStripe Cert.KernelIdeal.Pieces Cert.KernelIdeal.ValueCaseB
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (c : Dev nD) (t : Fin cfg0.N)

/-- The whole scratch buffer's rectangle places an index at itself. -/
theorem RS_emb (x : S128x5000.Idx) : RS.emb x = x :=
  funext fun a => Fin.ext (by match a with | ⟨0, _⟩ => (show 0 + 1 * (x 0).val = (x 0).val; omega) | ⟨1, _⟩ => (show 0 + 1 * (x 1).val = (x 1).val; omega))

/-- What the body stores into the upper scratch buffer: entry (d, n) is Σ_k x n k · W0 k d, the projected
    feature d of node n of the upper half; -/
theorem pay6_top : k0_pay6 (F := Ideal) (W0A m c) (View.ld (xA m c) RT) = scrTop m c := by
  funext x
  obtain ⟨d, n, rfl⟩ : ∃ (d : Fin 128) (n : Fin 5000), x = ix2 d n := ⟨x 0, x 1, eq_ix2 x⟩
  rw [PayVal.pay6_apply]
  unfold scrTop Cert.Spec.proj
  refine Finset.sum_congr rfl fun k _ => ?_
  show xA m c (RT.emb (ix2 n k)) * _ = _
  rw [RT_emb]

/-- into the lower one: of node 5000 + n. -/
theorem pay7_bot : k0_pay7 (F := Ideal) (W0A m c) (View.ld (xA m c) RB) = scrBot m c := by
  funext x
  obtain ⟨d, n, rfl⟩ : ∃ (d : Fin 128) (n : Fin 5000), x = ix2 d n := ⟨x 0, x 1, eq_ix2 x⟩
  rw [PayVal.pay7_apply]
  unfold scrBot Cert.Spec.proj
  refine Finset.sum_congr rfl fun k _ => ?_
  show xA m c (RB.emb (ix2 n k)) * _ = _
  rw [RB_emb]

/-- The cleared accumulator read back through either half is zero. -/
theorem ld_zero_top (n : Fin 5000) (d : Fin 128) : View.ld (Val := Elt Ideal) (e' := .f32) (k0_pay1 (F := Ideal)) RT (ix2 n d) = 0 := by
  show k0_pay1 (F := Ideal) (RT.emb (ix2 n d)) = 0
  rw [RT_emb]; exact PayVal.pay1_apply _ _
theorem ld_zero_bot (n : Fin 5000) (d : Fin 128) : View.ld (Val := Elt Ideal) (e' := .f32) (k0_pay1 (F := Ideal)) RB (ix2 n d) = 0 := by
  show k0_pay1 (F := Ideal) (RB.emb (ix2 n d)) = 0
  rw [RB_emb]; exact PayVal.pay1_apply _ _

/-- Three stores, the last two of which (the list's first two) agree with one function G on their rectangles
    and between them cover an index: the buffer reads G there, whatever the first store wrote. -/
theorem read_writes_over {sig' : RefSig} {κ : Kind} {sp : Space} {s : Shape} {e : EltTy} {Val : EltTy → Type}
    (v : View sig' κ sp s e) (f : v.ty.Contents Val) (G : s.Idx → Val e) (a b z : View.Piece Val s e)
    (ha : ∀ x, a.2 x = G (a.1.emb x)) (hb : ∀ x, b.2 x = G (b.1.emb x)) (y : s.Idx) (hy : y ∈ b.1.set ∨ y ∈ a.1.set) :
    v.read Val (v.writes Val f [a, b, z]) y = G y := by
  show v.read Val (v.writes Val (v.writes Val f [z]) [a, b]) y = G y
  refine View.read_writes_apply_of_pieces v _ G [a, b] ?_ y ?_
  · intro p hp x
    simp only [List.mem_cons, List.not_mem_nil, or_false] at hp
    rcases hp with rfl | rfl
    · exact ha x
    · exact hb x
  · rcases hy with h | h
    · exact ⟨b, List.mem_cons_of_mem _ List.mem_cons_self, h⟩
    · exact ⟨a, List.mem_cons_self, h⟩

set_option maxHeartbeats 1000000 in
/-- The upper scratch buffer after the first point. -/
theorem scrTop_A (d1 d2 : S5000x512.Idx → EReal) (arg1 : Memref sig .tc .vmem S10000x128 .f32) (harg1 : arg1.IsWhole) (arg2 : Memref sig .tc .vmem S5000x512 .f32) (harg2 : arg2.IsWhole) (arg3 : Memref sig .tc .vmem S5000x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S512x128 .f32) (harg9 : arg9.IsWhole) (arg10 : Memref sig .tc .vmem S128x5000 .bf16) (harg10 : arg10.IsWhole) (arg11 : Memref sig .tc .vmem S128x5000 .bf16) (harg11 : arg11.IsWhole)
    (hc0 : condFirst (grid0.coords t)) (hc1 : ¬condLast (grid0.coords t)) (f : arg10.view.ty.Contents (Elt Ideal)) :
    arg10.view.read (Elt Ideal) (arg10.view.writes (Elt Ideal) f (kernelRun_A (F := Ideal) c (grid0.coords t) arg1 harg1 arg2 harg2 arg3 harg3 arg4 harg4 arg5 harg5 arg6 harg6 arg7 harg7 arg8 harg8 arg9 harg9 arg10 harg10 arg11 harg11 hc0 hc1 (xA m c) (topF m c t d1) (botF m c t d2) (W0A m c) (W1A m c) (b0A m c) (b1A m c)).1.2.1) = scrTop m c := by
  rw [pieces_A]
  funext y
  refine View.read_writes_apply_of_pieces (Val := Elt Ideal) arg10.view f (scrTop m c) _ ?_ y ?_
  · intro p hp x
    simp only [List.mem_cons, List.not_mem_nil, or_false] at hp
    subst hp
    show _ = scrTop m c (RS.emb x)
    rw [RS_emb, pay6_top]
  · refine ⟨_, List.mem_cons_self, ?_⟩
    exact View.mem_set_unit_zero (S := S128x5000) hz2 Facts₀.inb_S128x5000_S128x5000_0_0 y

set_option maxHeartbeats 1000000 in
/-- The lower scratch buffer after the first point. -/
theorem scrBot_A (d1 d2 : S5000x512.Idx → EReal) (arg1 : Memref sig .tc .vmem S10000x128 .f32) (harg1 : arg1.IsWhole) (arg2 : Memref sig .tc .vmem S5000x512 .f32) (harg2 : arg2.IsWhole) (arg3 : Memref sig .tc .vmem S5000x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S512x128 .f32) (harg9 : arg9.IsWhole) (arg10 : Memref sig .tc .vmem S128x5000 .bf16) (harg10 : arg10.IsWhole) (arg11 : Memref sig .tc .vmem S128x5000 .bf16) (harg11 : arg11.IsWhole)
    (hc0 : condFirst (grid0.coords t)) (hc1 : ¬condLast (grid0.coords t)) (f : arg11.view.ty.Contents (Elt Ideal)) :
    arg11.view.read (Elt Ideal) (arg11.view.writes (Elt Ideal) f (kernelRun_A (F := Ideal) c (grid0.coords t) arg1 harg1 arg2 harg2 arg3 harg3 arg4 harg4 arg5 harg5 arg6 harg6 arg7 harg7 arg8 harg8 arg9 harg9 arg10 harg10 arg11 harg11 hc0 hc1 (xA m c) (topF m c t d1) (botF m c t d2) (W0A m c) (W1A m c) (b0A m c) (b1A m c)).1.2.2) = scrBot m c := by
  rw [pieces_A]
  funext y
  refine View.read_writes_apply_of_pieces (Val := Elt Ideal) arg11.view f (scrBot m c) _ ?_ y ?_
  · intro p hp x
    simp only [List.mem_cons, List.not_mem_nil, or_false] at hp
    subst hp
    show _ = scrBot m c (RS.emb x)
    rw [RS_emb, pay7_bot]
  · refine ⟨_, List.mem_cons_self, ?_⟩
    exact View.mem_set_unit_zero (S := S128x5000) hz2 Facts₀.inb_S128x5000_S128x5000_0_0 y

set_option maxHeartbeats 1000000 in
/-- The node accumulator after the first point. -/
theorem node_A (h0 : t.val = 0) (d1 d2 : S5000x512.Idx → EReal) (arg1 : Memref sig .tc .vmem S10000x128 .f32) (harg1 : arg1.IsWhole) (arg2 : Memref sig .tc .vmem S5000x512 .f32) (harg2 : arg2.IsWhole) (arg3 : Memref sig .tc .vmem S5000x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S512x128 .f32) (harg9 : arg9.IsWhole) (arg10 : Memref sig .tc .vmem S128x5000 .bf16) (harg10 : arg10.IsWhole) (arg11 : Memref sig .tc .vmem S128x5000 .bf16) (harg11 : arg11.IsWhole)
    (hc0 : condFirst (grid0.coords t)) (hc1 : ¬condLast (grid0.coords t)) (f : arg8.view.ty.Contents (Elt Ideal)) :
    arg8.view.read (Elt Ideal) (arg8.view.writes (Elt Ideal) f (kernelRun_A (F := Ideal) c (grid0.coords t) arg1 harg1 arg2 harg2 arg3 harg3 arg4 harg4 arg5 harg5 arg6 harg6 arg7 harg7 arg8 harg8 arg9 harg9 arg10 harg10 arg11 harg11 hc0 hc1 (xA m c) (topF m c t d1) (botF m c t d2) (W0A m c) (W1A m c) (b0A m c) (b1A m c)).1.1.1) = nodeAcc m c t := by
  have h19 : t.val ≠ 19 := by omega
  rw [pieces_A, pay6_top, pay7_bot]
  funext y
  refine read_writes_over (Val := Elt Ideal) arg8.view f (nodeAcc m c t) _ _ _ ?_ ?_ y ?_
  · intro x
    obtain ⟨n, d, rfl⟩ : ∃ (n : Fin 5000) (d : Fin 128), x = ix2 n d := ⟨x 0, x 1, eq_ix2 x⟩
    refine (stripe_bot m c t d1 d2 _ n d).trans ?_
    rw [ld_zero_bot, zero_add, RB_emb, nodeAcc_mid m c t h19, h0, Cert.Spec.acc_succ, Cert.Spec.acc_zero, zero_add]
  · intro x
    obtain ⟨n, d, rfl⟩ : ∃ (n : Fin 5000) (d : Fin 128), x = ix2 n d := ⟨x 0, x 1, eq_ix2 x⟩
    refine (stripe_top m c t d1 d2 _ n d).trans ?_
    rw [ld_zero_top, zero_add, RT_emb, nodeAcc_mid m c t h19, h0, Cert.Spec.acc_succ, Cert.Spec.acc_zero, zero_add]
  · exact mem_halves y

set_option maxHeartbeats 1000000 in
/-- The hyperedge block after the first point. -/
theorem edge_A (d1 d2 : S5000x512.Idx → EReal) (arg1 : Memref sig .tc .vmem S10000x128 .f32) (harg1 : arg1.IsWhole) (arg2 : Memref sig .tc .vmem S5000x512 .f32) (harg2 : arg2.IsWhole) (arg3 : Memref sig .tc .vmem S5000x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S512x128 .f32) (harg9 : arg9.IsWhole) (arg10 : Memref sig .tc .vmem S128x5000 .bf16) (harg10 : arg10.IsWhole) (arg11 : Memref sig .tc .vmem S128x5000 .bf16) (harg11 : arg11.IsWhole)
    (hc0 : condFirst (grid0.coords t)) (hc1 : ¬condLast (grid0.coords t)) (f : arg9.view.ty.Contents (Elt Ideal)) :
    arg9.view.read (Elt Ideal) (arg9.view.writes (Elt Ideal) f (kernelRun_A (F := Ideal) c (grid0.coords t) arg1 harg1 arg2 harg2 arg3 harg3 arg4 harg4 arg5 harg5 arg6 harg6 arg7 harg7 arg8 harg8 arg9 harg9 arg10 harg10 arg11 harg11 hc0 hc1 (xA m c) (topF m c t d1) (botF m c t d2) (W0A m c) (W1A m c) (b0A m c) (b1A m c)).1.1.2) = edgeBlk m c t := by
  rw [pieces_A, pay6_top, pay7_bot]
  funext y
  refine View.read_writes_apply_of_pieces (Val := Elt Ideal) arg9.view f (edgeBlk m c t) _ ?_ y ?_
  · intro p hp x
    simp only [List.mem_cons, List.not_mem_nil, or_false] at hp
    subst hp
    show _ = edgeBlk m c t (RE.emb x)
    rw [RE_emb]
    exact stripe_out m c t d1 d2 x
  · refine ⟨_, List.mem_cons_self, ?_⟩
    exact View.mem_set_unit_zero (S := S512x128) hz2 Facts₀.inb_S512x128_S512x128_0_0 y

end Cert.KernelIdeal.ValueCaseA

end
-- ==== Proof.RunC.lean ====
/-
  The kernel body at the last grid point (only the closing branch taken): as at a middle point, and then the
  whole node accumulator is read back, the second bias row added, the result rectified and stored over it.
-/
import proofs.«137455_g35845797052899_cont_8to1_b_606_24_alg».proof.Proof.Gen.KernelIdeal.Launch
import proofs.«137455_g35845797052899_cont_8to1_b_606_24_alg».proof.Proof.Gen.KernelIdeal.Skeleton
import proofs.«137455_g35845797052899_cont_8to1_b_606_24_alg».proof.Proof.Gen.KernelIdeal.Points
import proofs.«137455_g35845797052899_cont_8to1_b_606_24_alg».proof.Proof.RunBase
import Idealize.ShloMosaic.Lib.Pipeline.FrameBody
import Idealize.ShloMosaic.Lib.Ring
import Idealize.ShloMosaic.Lib.Tactic

set_option maxRecDepth 16384

noncomputable section

namespace Cert.KernelIdeal.Runs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The body's run at the last point. -/
noncomputable def kernelRun_C (c : Dev nD) (i : grid0.Coords) (arg1 : Memref sig .tc .vmem S10000x128 .f32) (harg1 : arg1.IsWhole) (arg2 : Memref sig .tc .vmem S5000x512 .f32) (harg2 : arg2.IsWhole) (arg3 : Memref sig .tc .vmem S5000x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S512x128 .f32) (harg9 : arg9.IsWhole) (arg10 : Memref sig .tc .vmem S128x5000 .bf16) (harg10 : arg10.IsWhole) (arg11 : Memref sig .tc .vmem S128x5000 .bf16) (harg11 : arg11.IsWhole) (hc0 : ¬condFirst i) (hc1 : condLast i)
    (x0 : Vec F S10000x128 .f32) (x1 x2 : Vec F S5000x512 .f32) (x3 x4 : Vec F S128x128 .f32) (x5 x6 : Vec F S1x128 .f32)
    (xo7 : Vec F S10000x128 .f32) (s0 s1 : Vec F S128x5000 .bf16) :
    { L : List (View.Piece (Elt F) S10000x128 .f32) × List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare xo7 ∗ (∃ d, owns (c : Thread nD τ) arg9 fullShare d)
            ∗ owns (c : Thread nD τ) arg10 fullShare s0 ∗ owns (c : Thread nD τ) arg11 fullShare s1
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
                ∗ (∃ f, arg8.view.loc (c : Thread nD τ) ↦[arg8.view.set]{fullShare} arg8.view.writes (Elt F) f L.1)
                ∗ (∃ f, arg9.view.loc (c : Thread nD τ) ↦[arg9.view.set]{fullShare} arg9.view.writes (Elt F) f L.2)
                ∗ owns (c : Thread nD τ) arg10 fullShare s0 ∗ owns (c : Thread nD τ) arg11 fullShare s1) -∗ K ⟨⟩))
          ⊢ wp frame (wpE (defs₀ (F := F)) Variants.none c none) E (cc0__hnhn_block i arg1 harg1 arg2 harg2 arg3 harg3 arg4 harg4 arg5 harg5 arg6 harg6 arg7 harg7 arg8 harg8 arg9 harg9 arg10 harg10 arg11 harg11) K } := by
  refine ⟨(?_, ?_), fun E K => ?run⟩
  case run =>
    simp only [cc0__hnhn_block_eq_skeleton]; unfold cc0__hnhn_block_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg8.eq_unread hf7
    obtain rfl := harg10.eq_unread hf9; obtain rfl := harg11.eq_unread hf10
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]
    · iexists _; isplitr; · ipureintro; exact harg10.read_unread _
      iexact H9
    · iexists _; isplitr; · ipureintro; exact harg11.read_unread _
      iexact H10

end Cert.KernelIdeal.Runs

end
-- ==== Proof.PiecesC.lean ====
/-
  The pieces the kernel body's stores leave at the LAST grid point, spelt out: the two halves of the node
  accumulator as at a middle point, then the whole accumulator read back (what the two half stores left),
  the bias row added and the rectifier applied, stored whole over it; the hyperedge block whole.
-/
import proofs.«137455_g35845797052899_cont_8to1_b_606_24_alg».proof.Proof.Pieces
import proofs.«137455_g35845797052899_cont_8to1_b_606_24_alg».proof.Proof.RunC
import Idealize.ShloMosaic.Lib.ValueIdx
import Idealize.ShloMosaic.Lib.Pipeline.FrameBody
import Idealize.ShloMosaic.Lib.Pipeline.Value
import Idealize.ShloMosaic.Lib.Ring
import Idealize.ShloMosaic.Lib.Tactic

set_option maxRecDepth 16384

noncomputable section

open scoped BigOperators

namespace Cert.KernelIdeal.Pieces

open Cert.KernelIdeal Cert.KernelIdeal.Facts₀ Cert.KernelIdeal.Gen Cert.KernelIdeal.Runs
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [∀ e, Nonempty (Elt F e)]

/-- The two half stores of a point, as pieces. -/
abbrev halves (i : grid0.Coords) (x1 x2 : Vec F S5000x512 .f32) (x4 : Vec F S128x128 .f32) (x5 : Vec F S1x128 .f32)
    (xo7 : Vec F S10000x128 .f32) (s0 s1 : Vec F S128x5000 .bf16) : List (View.Piece (Elt F) S10000x128 .f32) :=
  [⟨RB, k0_pay3 (k0_pay9 x2) (k0_pay12 i x1 x2 s0 s1 x5 x4) (View.ld xo7 RB)⟩,
   ⟨RT, k0_pay2 (k0_pay8 x1) (k0_pay12 i x1 x2 s0 s1 x5 x4) (View.ld xo7 RT)⟩]

/-- Both halves of the accumulator stored into and the whole then read back: what the two stores left, the lower
    half's last — the two halves cover every row, so nothing of the earlier contents is read. -/
theorem readCov_halves_whole (v : View sig .tc .vmem S10000x128 .f32) (b : RB.shape.Idx → Elt F .f32) (u : RT.shape.Idx → Elt F .f32) :
    v.readCov [(⟨RB, b⟩ : View.Piece (Elt F) S10000x128 .f32), ⟨RT, u⟩] RW.toLoadRect
      = View.canon [(⟨RB, b⟩ : View.Piece (Elt F) S10000x128 .f32), ⟨RT, u⟩] := by
  have hcov : ∀ y : S10000x128.Idx, ∃ p ∈ [(⟨RB, b⟩ : View.Piece (Elt F) S10000x128 .f32), ⟨RT, u⟩], y ∈ p.1.set := fun y =>
    (mem_halves y).elim
      (fun h => ⟨⟨RT, u⟩, List.mem_cons_of_mem _ (List.mem_singleton_self _), h⟩)
      (fun h => ⟨⟨RB, b⟩, List.mem_cons_self, h⟩)
  rw [View.readCov_eq_canon_ld v _ RW hcov,
    View.ld_unit_zero (S := S10000x128) hz2 Facts₀.inb_S10000x128_S10000x128_0_0]

set_option maxHeartbeats 2000000 in
/-- The pieces of the run at the last point: the closing whole store's payload reads what the two half stores
    left (`View.canon` of them: they cover the buffer). -/
theorem pieces_C (c : Dev nD) (i : grid0.Coords) (arg1 : Memref sig .tc .vmem S10000x128 .f32) (harg1 : arg1.IsWhole) (arg2 : Memref sig .tc .vmem S5000x512 .f32) (harg2 : arg2.IsWhole) (arg3 : Memref sig .tc .vmem S5000x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S512x128 .f32) (harg9 : arg9.IsWhole) (arg10 : Memref sig .tc .vmem S128x5000 .bf16) (harg10 : arg10.IsWhole) (arg11 : Memref sig .tc .vmem S128x5000 .bf16) (harg11 : arg11.IsWhole) (hc0 : ¬condFirst i) (hc1 : condLast i)
    (x0 : Vec F S10000x128 .f32) (x1 x2 : Vec F S5000x512 .f32) (x3 x4 : Vec F S128x128 .f32) (x5 x6 : Vec F S1x128 .f32) (xo7 : Vec F S10000x128 .f32) (s0 s1 : Vec F S128x5000 .bf16) :
    (kernelRun_C c i arg1 harg1 arg2 harg2 arg3 harg3 arg4 harg4 arg5 harg5 arg6 harg6 arg7 harg7 arg8 harg8 arg9 harg9 arg10 harg10 arg11 harg11 hc0 hc1 x0 x1 x2 x3 x4 x5 x6 xo7 s0 s1).1
      = (⟨RW, k0_pay4 (View.canon (halves i x1 x2 x4 x5 xo7 s0 s1)) x6⟩ :: halves i x1 x2 x4 x5 xo7 s0 s1,
         [⟨RE, k0_pay11 i x1 x2 s0 s1 x5⟩]) := by
  unfold kernelRun_C
  dsimp only
  sl_unfold_words
  simp only [View.readAt_eq_ld, Memref.IsWhole.read_unread, View.ld_unit_zero (S := S5000x512) hz2,
    View.ld_unit_zero (S := S128x5000) hz2, View.ld_unit_zero (S := S1x128) hz2, View.ld_unit_zero (S := S128x128) hz2]
  rw [readCov_halves_whole]

end Cert.KernelIdeal.Pieces

end
-- ==== Proof.IdealCaseC.lean ====
/-
  The last grid point, in the specification's terms: the last stripe's messages are added (its 240 rows past
  the hyperedge axis' end contribute zero), which completes the sum over all hyperedges; the bias is added and
  the rectifier applied: the node accumulator ends at the rectified node features. The hyperedge block holds the
  last stripe's rectified features, zero past the axis' end.
-/
import proofs.«137455_g35845797052899_cont_8to1_b_606_24_alg».proof.Proof.PiecesC
import proofs.«137455_g35845797052899_cont_8to1_b_606_24_alg».proof.Proof.IdealCaseB
import Idealize.ShloMosaic.Lib.ValueIdx
import Idealize.ShloMosaic.Lib.Pipeline.FrameBody
import Idealize.ShloMosaic.Lib.Pipeline.Value
import Idealize.ShloMosaic.Lib.Ring
import Idealize.ShloMosaic.Lib.Tactic

set_option maxRecDepth 16384

noncomputable section

open scoped BigOperators

namespace Cert.KernelIdeal.ValueCaseC

open Cert.KernelIdeal Cert.KernelIdeal.Facts₀ Cert.KernelIdeal.Gen Cert.KernelIdeal.Runs Cert.KernelIdeal.ValueData Cert.KernelIdeal.ValueBefore Cert.KernelIdeal.ValueStripe Cert.KernelIdeal.Pieces Cert.KernelIdeal.ValueCaseB
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (c : Dev nD) (t : Fin cfg0.N)

/-- The whole accumulator's rectangle places an index at itself. -/
theorem RW_emb (x : S10000x128.Idx) : RW.emb x = x :=
  funext fun a => Fin.ext (by match a with | ⟨0, _⟩ => (show 0 + 1 * (x 0).val = (x 0).val; omega) | ⟨1, _⟩ => (show 0 + 1 * (x 1).val = (x 1).val; omega))

/-- After the last point the node accumulator holds the rectified node features: the sum over all twenty
    stripes, the bias added, the rectifier applied. -/
theorem nodeAcc_last (h19 : t.val = 19) (n : Fin 10000) (d : Fin 128) :
    nodeAcc m c t (ix2 n d)
      = max (Cert.Spec.acc (xA m c) (BA m c) (W0A m c) (W1A m c) (b0A m c) 20 n d + b1A m c (ix2 (0 : Fin 1) d)) 0 := by
  unfold nodeAcc; rw [if_pos h19, Cert.Spec.outNode_of_acc]

/-- What the two half stores of the last point leave, read whole: nineteen stripes' sum (what the accumulator
    held) plus the twentieth stripe's terms, which is the sum over all twenty. -/
theorem halves_last (h19 : t.val = 19) (d1 d2 : S5000x512.Idx → EReal) (n : Fin 10000) (d : Fin 128) :
    View.canon (halves (F := Ideal) (grid0.coords t) (topF m c t d1) (botF m c t d2) (W1A m c) (b0A m c)
        (nodeAcc m c ⟨t.val - 1, Nat.lt_of_le_of_lt (Nat.sub_le _ _) t.isLt⟩) (scrTop m c) (scrBot m c)) (ix2 n d)
      = Cert.Spec.acc (xA m c) (BA m c) (W0A m c) (W1A m c) (b0A m c) 20 n d := by
  have hprev : (⟨t.val - 1, Nat.lt_of_le_of_lt (Nat.sub_le _ _) t.isLt⟩ : Fin cfg0.N).val ≠ 19 := by
    show t.val - 1 ≠ 19; omega
  have e1 : t.val - 1 + 1 = 19 := by omega
  refine View.canon_apply_of_pieces (Val := Elt Ideal) (e := .f32)
    (fun j => Cert.Spec.acc (xA m c) (BA m c) (W0A m c) (W1A m c) (b0A m c) 20 (j 0) (j 1)) _ ?_ (ix2 n d) ?_
  · intro p hp x
    simp only [List.mem_cons, List.not_mem_nil, or_false] at hp
    rcases hp with rfl | rfl
    · obtain ⟨n', d', rfl⟩ : ∃ (n' : Fin 5000) (d' : Fin 128), x = ix2 n' d' := ⟨x 0, x 1, eq_ix2 x⟩
      refine (stripe_bot m c t d1 d2 _ n' d').trans ?_
      rw [RB_emb]
      refine Eq.trans ?_ (Cert.Spec.acc_succ _ _ _ _ _ 19 _ _).symm
      refine congrArg₂ (· + ·) ?_ (Finset.sum_congr rfl fun e' _ => by rw [h19])
      show nodeAcc m c _ (RB.emb (ix2 n' d')) = _
      rw [RB_emb, nodeAcc_mid m c _ hprev]
      exact congrArg (fun T => Cert.Spec.acc (xA m c) (BA m c) (W0A m c) (W1A m c) (b0A m c) T _ d') e1
    · obtain ⟨n', d', rfl⟩ : ∃ (n' : Fin 5000) (d' : Fin 128), x = ix2 n' d' := ⟨x 0, x 1, eq_ix2 x⟩
      refine (stripe_top m c t d1 d2 _ n' d').trans ?_
      rw [RT_emb]
      refine Eq.trans ?_ (Cert.Spec.acc_succ _ _ _ _ _ 19 _ _).symm
      refine congrArg₂ (· + ·) ?_ (Finset.sum_congr rfl fun e' _ => by rw [h19])
      show nodeAcc m c _ (RT.emb (ix2 n' d')) = _
      rw [RT_emb, nodeAcc_mid m c _ hprev]
      exact congrArg (fun T => Cert.Spec.acc (xA m c) (BA m c) (W0A m c) (W1A m c) (b0A m c) T _ d') e1
  · rcases mem_halves (ix2 n d) with h | h
    · exact ⟨_, List.mem_cons_of_mem _ List.mem_cons_self, h⟩
    · exact ⟨_, List.mem_cons_self, h⟩

set_option maxHeartbeats 1000000 in
/-- The node accumulator after the last point: the rectified node features. -/
theorem node_C (h19 : t.val = 19) (d1 d2 : S5000x512.Idx → EReal) (arg1 : Memref sig .tc .vmem S10000x128 .f32) (harg1 : arg1.IsWhole) (arg2 : Memref sig .tc .vmem S5000x512 .f32) (harg2 : arg2.IsWhole) (arg3 : Memref sig .tc .vmem S5000x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S512x128 .f32) (harg9 : arg9.IsWhole) (arg10 : Memref sig .tc .vmem S128x5000 .bf16) (harg10 : arg10.IsWhole) (arg11 : Memref sig .tc .vmem S128x5000 .bf16) (harg11 : arg11.IsWhole)
    (hc0 : ¬condFirst (grid0.coords t)) (hc1 : condLast (grid0.coords t)) (f : arg8.view.ty.Contents (Elt Ideal)) :
    arg8.view.read (Elt Ideal) (arg8.view.writes (Elt Ideal) f
      (kernelRun_C (F := Ideal) c (grid0.coords t) arg1 harg1 arg2 harg2 arg3 harg3 arg4 harg4 arg5 harg5 arg6 harg6 arg7 harg7 arg8 harg8 arg9 harg9 arg10 harg10 arg11 harg11 hc0 hc1 (xA m c) (topF m c t d1) (botF m c t d2) (W0A m c) (W1A m c) (b0A m c) (b1A m c)
        (nodeAcc m c ⟨t.val - 1, Nat.lt_of_le_of_lt (Nat.sub_le _ _) t.isLt⟩) (scrTop m c) (scrBot m c)).1.1)
      = nodeAcc m c t := by
  rw [pieces_C]
  funext y
  obtain ⟨n, d, rfl⟩ : ∃ (n : Fin 10000) (d : Fin 128), y = ix2 n d := ⟨y 0, y 1, eq_ix2 y⟩
  -- the closing whole store is the last write and covers every index: the element reads its payload
  have hRW : RW.emb (ix2 n d) = ix2 n d := RW_emb _
  conv_lhs => rw [← hRW]
  rw [View.read_writes_cons_emb (Val := Elt Ideal) (e := .f32) arg8.view f, PayVal.pay4_apply, halves_last m c t h19 d1 d2 n d, nodeAcc_last m c t h19 n d]

set_option maxHeartbeats 1000000 in
/-- The hyperedge block after the last point. -/
theorem edge_C (d1 d2 : S5000x512.Idx → EReal) (arg1 : Memref sig .tc .vmem S10000x128 .f32) (harg1 : arg1.IsWhole) (arg2 : Memref sig .tc .vmem S5000x512 .f32) (harg2 : arg2.IsWhole) (arg3 : Memref sig .tc .vmem S5000x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S512x128 .f32) (harg9 : arg9.IsWhole) (arg10 : Memref sig .tc .vmem S128x5000 .bf16) (harg10 : arg10.IsWhole) (arg11 : Memref sig .tc .vmem S128x5000 .bf16) (harg11 : arg11.IsWhole)
    (hc0 : ¬condFirst (grid0.coords t)) (hc1 : condLast (grid0.coords t)) (xo7 : S10000x128.Idx → EReal) (f : arg9.view.ty.Contents (Elt Ideal)) :
    arg9.view.read (Elt Ideal) (arg9.view.writes (Elt Ideal) f
      (kernelRun_C (F := Ideal) c (grid0.coords t) arg1 harg1 arg2 harg2 arg3 harg3 arg4 harg4 arg5 harg5 arg6 harg6 arg7 harg7 arg8 harg8 arg9 harg9 arg10 harg10 arg11 harg11 hc0 hc1 (xA m c) (topF m c t d1) (botF m c t d2) (W0A m c) (W1A m c) (b0A m c) (b1A m c)
        xo7 (scrTop m c) (scrBot m c)).1.2)
      = edgeBlk m c t := by
  rw [pieces_C]
  funext y
  refine View.read_writes_apply_of_pieces (Val := Elt Ideal) (e := .f32) arg9.view f (edgeBlk m c t) _ ?_ y ?_
  · intro p hp x
    simp only [List.mem_cons, List.not_mem_nil, or_false] at hp
    subst hp
    show _ = edgeBlk m c t (RE.emb x)
    rw [RE_emb]
    exact stripe_out m c t d1 d2 x
  · exact ⟨_, List.mem_cons_self, View.mem_set_unit_zero (S := S512x128) hz2 Facts₀.inb_S512x128_S512x128_0_0 y⟩

end Cert.KernelIdeal.ValueCaseC

end
-- ==== Proof.IdealBody.lean ====
/-
  The body obligation of the idealized program's kernel region at the ideal instance: at every grid point the
  body, handed the staging buffers as the proof data say it finds them and the scratch as the invariant says,
  leaves them as the proof data say. The point is the first, a middle one or the last; in each case the run of
  the body applies and the pieces it leaves are read in the specification's terms.
-/
import proofs.«137455_g35845797052899_cont_8to1_b_606_24_alg».proof.Proof.IdealCaseA
import proofs.«137455_g35845797052899_cont_8to1_b_606_24_alg».proof.Proof.IdealCaseC
import Idealize.ShloMosaic.Lib.ValueIdx
import Idealize.ShloMosaic.Lib.Pipeline.FrameBody
import Idealize.ShloMosaic.Lib.Pipeline.Value
import Idealize.ShloMosaic.Lib.Ring
import Idealize.ShloMosaic.Lib.Tactic

set_option maxRecDepth 16384

noncomputable section

open scoped BigOperators

namespace Cert.KernelIdeal.ValueBody

open Cert.KernelIdeal Cert.KernelIdeal.Facts₀ Cert.KernelIdeal.Gen Cert.KernelIdeal.Runs Cert.KernelIdeal.ValueData Cert.KernelIdeal.ValueBefore Cert.KernelIdeal.ValueStripe Cert.KernelIdeal.Pieces Cert.KernelIdeal.ValueCaseB Cert.KernelIdeal.ValueCaseA Cert.KernelIdeal.ValueCaseC
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ)

/-- Each window's current staging memref at point `t`, spelt as the pipeline passes it, and its wholeness. -/
abbrev ms0 (t : Fin cfg0.N) := win0_0.stage (cfg0.slots t 0)
abbrev hs0 (t : Fin cfg0.N) : (ms0 t).IsWhole := Facts₀.hstage0_0 ((cfg0.slots t 0).cast Facts₀.nbuf0_0)
abbrev ms1 (t : Fin cfg0.N) := win0_1.stage (cfg0.slots t 1)
abbrev hs1 (t : Fin cfg0.N) : (ms1 t).IsWhole := Facts₀.hstage0_1 ((cfg0.slots t 1).cast Facts₀.nbuf0_1)
abbrev ms2 (t : Fin cfg0.N) := win0_2.stage (cfg0.slots t 2)
abbrev hs2 (t : Fin cfg0.N) : (ms2 t).IsWhole := Facts₀.hstage0_2 ((cfg0.slots t 2).cast Facts₀.nbuf0_2)
abbrev ms3 (t : Fin cfg0.N) := win0_3.stage (cfg0.slots t 3)
abbrev hs3 (t : Fin cfg0.N) : (ms3 t).IsWhole := Facts₀.hstage0_3 ((cfg0.slots t 3).cast Facts₀.nbuf0_3)
abbrev ms4 (t : Fin cfg0.N) := win0_4.stage (cfg0.slots t 4)
abbrev hs4 (t : Fin cfg0.N) : (ms4 t).IsWhole := Facts₀.hstage0_4 ((cfg0.slots t 4).cast Facts₀.nbuf0_4)
abbrev ms5 (t : Fin cfg0.N) := win0_5.stage (cfg0.slots t 5)
abbrev hs5 (t : Fin cfg0.N) : (ms5 t).IsWhole := Facts₀.hstage0_5 ((cfg0.slots t 5).cast Facts₀.nbuf0_5)
abbrev ms6 (t : Fin cfg0.N) := win0_6.stage (cfg0.slots t 6)
abbrev hs6 (t : Fin cfg0.N) : (ms6 t).IsWhole := Facts₀.hstage0_6 ((cfg0.slots t 6).cast Facts₀.nbuf0_6)
abbrev ms7 (t : Fin cfg0.N) := win0_7.stage (cfg0.slots t 7)
abbrev hs7 (t : Fin cfg0.N) : (ms7 t).IsWhole := Facts₀.hstage0_7 ((cfg0.slots t 7).cast Facts₀.nbuf0_7)
abbrev ms8 (t : Fin cfg0.N) := win0_8.stage (cfg0.slots t 8)
abbrev hs8 (t : Fin cfg0.N) : (ms8 t).IsWhole := Facts₀.hstage0_8 ((cfg0.slots t 8).cast Facts₀.nbuf0_8)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and what it returns: the windows cut at the array's end on the part their transfers move. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ (∃ d, owns (c : Thread nD τ) (ms1 t) fullShare (win0_1.fill (grid0.coords t) d (win0_1.cut (grid0.coords t) ((dats m 0 c).after 1 t))))
    ∗ (∃ d, owns (c : Thread nD τ) (ms2 t) fullShare (win0_2.fill (grid0.coords t) d (win0_2.cut (grid0.coords t) ((dats m 0 c).after 2 t))))
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ (∃ d, owns (c : Thread nD τ) (ms8 t) fullShare (win0_8.fill (grid0.coords t) d (win0_8.cut (grid0.coords t) ((dats m 0 c).after 8 t)))))

theorem N20 : cfg0.N = 20 := N_0

set_option maxHeartbeats 4000000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  have hN : t.val < 20 := lt_of_lt_of_eq t.isLt N20
  rw [Phi_eq, Phi_eq, show (dats m 0 c).owesAt () t.succ = (dats m 0 c).owesAt () t.castSucc from rfl,
    after_0, after_1, after_2, after_3, after_4, after_5, after_6, after_7, after_8]
  simp only [before_0 m c t, before_1 m c t, before_2 m c t, before_3 m c t, before_4 m c t, before_5 m c t, before_6 m c t, before_8 m c t]
  rw [show (t.castSucc : Fin (cfg0.N + 1)).val = t.val from rfl, show (t.succ : Fin (cfg0.N + 1)).val = t.val + 1 from rfl]
  by_cases h0 : t.val = 0
  · -- the first point
    have hc0 : condFirst (grid0.coords t) := (hcondFirst t).mpr h0
    have hc1 : ¬condLast (grid0.coords t) := fun h => by have := (hcondLast t).mp h; omega
    simp only [before_7_zero m c t h0]
    unfold PhiAt
    rw [if_pos h0, if_neg (Nat.succ_ne_zero _), scopedRest0_eq]
    iintro ⟨⟨⟨%g0, HS0⟩, ⟨%g1, HS1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun_A (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (Memref.whole cc0_scratch0) (Memref.isWhole_whole _) (Memref.whole cc0_scratch1) (Memref.isWhole_whole _) hc0 hc1 (xA m c) (topF m c t d1) (botF m c t d2) (W0A m c) (W1A m c) (b0A m c) (b1A m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists d7; iexact H7
    isplitl [H8]; · iexists d8; iexact H8
    isplitl [HS0]; · iexists g0; rw [owns_whole]; iexact HS0
    isplitl [HS1]; · iexists g1; rw [owns_whole]; iexact HS1
    iintro ⟨H0, H1, H2, H3, H4, H5, H6, ⟨%e7, H7⟩, ⟨%e8, H8⟩, ⟨%e9, HS0⟩, ⟨%e10, HS1⟩⟩
    isplitl [HS0 HS1]
    · isplitl [HS0]
      · unfold owns; iexists _; isplitr
        swap; · iexact HS0
        ipureintro; exact scrTop_A m c t d1 d2 (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (Memref.whole cc0_scratch0) (Memref.isWhole_whole _) (Memref.whole cc0_scratch1) (Memref.isWhole_whole _) hc0 hc1 _
      · unfold owns; iexists _; isplitr
        swap; · iexact HS1
        ipureintro; exact scrBot_A m c t d1 d2 (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (Memref.whole cc0_scratch0) (Memref.isWhole_whole _) (Memref.whole cc0_scratch1) (Memref.isWhole_whole _) hc0 hc1 _
    isplitl [Ho]; · iexact Ho
    isplitl [H0]; · iexact H0
    isplitl [H1]
    · iexists d1; rw [show win0_1.cut (grid0.coords t) (topBlk0 m c t) = topBlk m c t from win0_1.cut_fill _ _ _]; iexact H1
    isplitl [H2]
    · iexists d2; rw [show win0_2.cut (grid0.coords t) (botBlk0 m c t) = botBlk m c t from win0_2.cut_fill _ _ _]; iexact H2
    isplitl [H3]; · iexact H3
    isplitl [H4]; · iexact H4
    isplitl [H5]; · iexact H5
    isplitl [H6]; · iexact H6
    isplitl [H7]
    · unfold owns; iexists _; isplitr
      swap; · iexact H7
      ipureintro; exact node_A m c t h0 d1 d2 (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (Memref.whole cc0_scratch0) (Memref.isWhole_whole _) (Memref.whole cc0_scratch1) (Memref.isWhole_whole _) hc0 hc1 _
    · iexists edgeBlk m c t; rw [win0_8.fill_cut]
      unfold owns; iexists _; isplitr
      swap; · iexact H8
      ipureintro; exact edge_A m c t d1 d2 (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (Memref.whole cc0_scratch0) (Memref.isWhole_whole _) (Memref.whole cc0_scratch1) (Memref.isWhole_whole _) hc0 hc1 _
  · have hc0 : ¬condFirst (grid0.coords t) := fun h => h0 ((hcondFirst t).mp h)
    simp only [before_7_pos m c t h0]
    unfold PhiAt
    rw [if_neg h0, if_neg (Nat.succ_ne_zero _)]
    by_cases h19 : t.val = 19
    · -- the last point
      have hc1 : condLast (grid0.coords t) := (hcondLast t).mpr h19
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun_C (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (Memref.whole cc0_scratch0) (Memref.isWhole_whole _) (Memref.whole cc0_scratch1) (Memref.isWhole_whole _) hc0 hc1 (xA m c) (topF m c t d1) (botF m c t d2) (W0A m c) (W1A m c) (b0A m c) (b1A m c)
        (nodeAcc m c ⟨t.val - 1, Nat.lt_of_le_of_lt (Nat.sub_le _ _) t.isLt⟩) (scrTop m c) (scrBot m c)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists d8; iexact H8
      isplitl [HS0]; · iexact HS0
      isplitl [HS1]; · iexact HS1
      iintro ⟨H0, H1, H2, H3, H4, H5, H6, ⟨%e7, H7⟩, ⟨%e8, H8⟩, HS0, HS1⟩
      isplitl [HS0 HS1]
      · isplitl [HS0]; · iexact HS0
        iexact HS1
      isplitl [Ho]; · iexact Ho
      isplitl [H0]; · iexact H0
      isplitl [H1]
      · iexists d1; rw [show win0_1.cut (grid0.coords t) (topBlk0 m c t) = topBlk m c t from win0_1.cut_fill _ _ _]; iexact H1
      isplitl [H2]
      · iexists d2; rw [show win0_2.cut (grid0.coords t) (botBlk0 m c t) = botBlk m c t from win0_2.cut_fill _ _ _]; iexact H2
      isplitl [H3]; · iexact H3
      isplitl [H4]; · iexact H4
      isplitl [H5]; · iexact H5
      isplitl [H6]; · iexact H6
      isplitl [H7]
      · unfold owns; iexists _; isplitr
        swap; · iexact H7
        ipureintro; exact node_C m c t h19 d1 d2 (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (Memref.whole cc0_scratch0) (Memref.isWhole_whole _) (Memref.whole cc0_scratch1) (Memref.isWhole_whole _) hc0 hc1 _
      · iexists edgeBlk m c t; rw [win0_8.fill_cut]
        unfold owns; iexists _; isplitr
        swap; · iexact H8
        ipureintro; exact edge_C m c t d1 d2 (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (Memref.whole cc0_scratch0) (Memref.isWhole_whole _) (Memref.whole cc0_scratch1) (Memref.isWhole_whole _) hc0 hc1 _ _
    · -- a middle point
      have hc1 : ¬condLast (grid0.coords t) := fun h => h19 ((hcondLast t).mp h)
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun_B (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (Memref.whole cc0_scratch0) (Memref.isWhole_whole _) (Memref.whole cc0_scratch1) (Memref.isWhole_whole _) hc0 hc1 (xA m c) (topF m c t d1) (botF m c t d2) (W0A m c) (W1A m c) (b0A m c) (b1A m c)
        (nodeAcc m c ⟨t.val - 1, Nat.lt_of_le_of_lt (Nat.sub_le _ _) t.isLt⟩) (scrTop m c) (scrBot m c)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists d8; iexact H8
      isplitl [HS0]; · iexact HS0
      isplitl [HS1]; · iexact HS1
      iintro ⟨H0, H1, H2, H3, H4, H5, H6, ⟨%e7, H7⟩, ⟨%e8, H8⟩, HS0, HS1⟩
      isplitl [HS0 HS1]
      · isplitl [HS0]; · iexact HS0
        iexact HS1
      isplitl [Ho]; · iexact Ho
      isplitl [H0]; · iexact H0
      isplitl [H1]
      · iexists d1; rw [show win0_1.cut (grid0.coords t) (topBlk0 m c t) = topBlk m c t from win0_1.cut_fill _ _ _]; iexact H1
      isplitl [H2]
      · iexists d2; rw [show win0_2.cut (grid0.coords t) (botBlk0 m c t) = botBlk m c t from win0_2.cut_fill _ _ _]; iexact H2
      isplitl [H3]; · iexact H3
      isplitl [H4]; · iexact H4
      isplitl [H5]; · iexact H5
      isplitl [H6]; · iexact H6
      isplitl [H7]
      · unfold owns; iexists _; isplitr
        swap; · iexact H7
        ipureintro; exact node_B m c t h0 h19 d1 d2 (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (Memref.whole cc0_scratch0) (Memref.isWhole_whole _) (Memref.whole cc0_scratch1) (Memref.isWhole_whole _) hc0 hc1 _
      · iexists edgeBlk m c t; rw [win0_8.fill_cut]
        unfold owns; iexists _; isplitr
        swap; · iexact H8
        ipureintro; exact edge_B m c t d1 d2 (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (Memref.whole cc0_scratch0) (Memref.isWhole_whole _) (Memref.whole cc0_scratch1) (Memref.isWhole_whole _) hc0 hc1 _ _

/-- The library's body obligation, at every point. -/
theorem body_obligation (c : Dev nD) : BodyObligationLoose (dats m 0 c) (defs₀ (F := Ideal)) Variants.none () Set.univ := fun t => by
  rw [bigSep_W0, bigSep_W0]
  exact sound_body m c t

end Cert.KernelIdeal.ValueBody

end
-- ==== Proof.IdealLaunch.lean ====
/-
  The launch of the idealized program's one kernel region over exact proof data, stated for any such data that meet
  the launch's conditions. The region's nine windows lie over eight arrays: the incidence matrix is handed to the
  kernel twice, its upper and its lower row half, so the launch deals that array's points-to between the two windows
  along the share (a half each) and hands every other array whole to its one window. After the run every window's
  array holds what the proof data compute for it after the last write-back; the two windows on the incidence matrix
  end holding the same contents, each at its half.
-/
import proofs.«137455_g35845797052899_cont_8to1_b_606_24_alg».proof.Proof.Gen.KernelIdeal.Launch
import proofs.«137455_g35845797052899_cont_8to1_b_606_24_alg».proof.Proof.Gen.KernelIdeal.Skeleton
import proofs.«137455_g35845797052899_cont_8to1_b_606_24_alg».proof.Proof.Gen.KernelIdeal.Points
import Idealize.ShloMosaic.Lib.Pipeline.Kit
import Idealize.ShloMosaic.Lib.Tactic

noncomputable section

namespace Cert.KernelIdeal.ValueLaunch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf kernel pipe)

variable {F : FTy → Type} [FloatOps F]

/-- The proof's resource algebra: one copy of the rounds library's, the pipeline's. -/
abbrev EP : Emb (UR sig nD τ) (MT nD τ sig Unit (Elt F) ℕ (UR sig nD τ) ℕ) := emb₁

/-- The kernel's variants: none. -/
abbrev 𝒱₀ : Variants := Variants.none

/-- The share of its array each input window holds: the two windows on the incidence matrix a half each. -/
def shareOf : Fin 9 → PosShare TreeShare
  | ⟨1, _⟩ => fullShare.left
  | ⟨2, _⟩ => fullShare.right
  | _ => fullShare

variable (m : (ℓ : Loc nD τ sig) → Buf (Elt F) ℓ) (ρ : Dev nD → PrngReg)

/-! ## The arrays at launch, dealt among the windows

The buffers behind the windows' arrays are eight — the six arguments and the two results —, each whole and at the
full share when the kernel region is entered. The nine windows take them one each, except that the incidence
matrix goes to two windows: its points-to is halved along the share, the left half to the window on the upper rows,
the right half to the window on the lower rows. -/

/-- The eight distinct buffers behind the nine windows' arrays, one by one. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp (MT nD τ sig Unit (Elt F) ℕ (UR sig nD τ) ℕ))
      = iprop(((c : Thread nD τ).loc main_arg0 ↦{fullShare} V main_arg0)
        ∗ ((c : Thread nD τ).loc main_arg1 ↦{fullShare} V main_arg1)
        ∗ ((c : Thread nD τ).loc main_arg2 ↦{fullShare} V main_arg2)
        ∗ ((c : Thread nD τ).loc main_arg3 ↦{fullShare} V main_arg3)
        ∗ ((c : Thread nD τ).loc main_arg4 ↦{fullShare} V main_arg4)
        ∗ ((c : Thread nD τ).loc main_arg5 ↦{fullShare} V main_arg5)
        ∗ ((c : Thread nD τ).loc main_v0_0 ↦{fullShare} V main_v0_0)
        ∗ ((c : Thread nD τ).loc main_v0_1 ↦{fullShare} V main_v0_1)) := by
  unfold Pipeline.arrBufs
  exact bigSep_eq_bigSepL_of_eq [main_arg0, main_arg1, main_arg2, main_arg3, main_arg4, main_arg5, main_v0_0, main_v0_1]
    (by decide) (by decide) _

section Data

variable (dats : (p : Fin 1) → (c : Dev nD) → Pipeline.Dat τ (Elt F) Unit ℕ (UR sig nD τ) ℕ cfg0 c)
  (hA : ∀ c w, (dats 0 c).A w = m ((cfg0.win w).arr.view.loc (c : Thread nD τ)))
  (hq : ∀ c, (dats 0 c).q = shareOf)

include hq in
/-- The share each window holds of its array: the two on the incidence matrix a half each, every other window
    (input or output) the whole. -/
theorem share_eq (c : Dev nD) :
    (dats 0 c).share 0 = fullShare ∧ (dats 0 c).share 1 = fullShare.left ∧ (dats 0 c).share 2 = fullShare.right
      ∧ (dats 0 c).share 3 = fullShare ∧ (dats 0 c).share 4 = fullShare ∧ (dats 0 c).share 5 = fullShare
      ∧ (dats 0 c).share 6 = fullShare ∧ (dats 0 c).share 7 = fullShare ∧ (dats 0 c).share 8 = fullShare := by
  unfold Dat.share; rw [hq c]
  exact ⟨rfl, rfl, rfl, rfl, rfl, rfl, rfl, rfl, rfl⟩

include hA hq in
/-- The buffers behind the arrays, whole at the launch contents, make the proof data's arrays at entry: the incidence
    matrix split along its share between the two windows that read it, every other buffer handed to its one window. -/
theorem arrays_split (c : Dev nD) :
    (Pipeline.arrBufs (Ix := Unit) (Name := ℕ) (U := UR sig nD τ) (Lvl := ℕ) spec0 c (fun b => m ((c : Thread nD τ).loc b)) : sProp (MT nD τ sig Unit (Elt F) ℕ (UR sig nD τ) ℕ))
      ⊢ (dats 0 c).arrays ((dats 0 c).arrAt · 0) := by
  obtain ⟨s0, s1, s2, s3, s4, s5, s6, s7, s8⟩ := share_eq dats hq c
  rw [arrBufs0_eq]
  unfold Dat.arrays
  rw [Gen.bigSep_W0]
  rw [s0, s1, s2, s3, s4, s5, s6, s7, s8]
  simp only [View.set_whole, Dat.arrAt, hA]
  iintro ⟨H0, H1, H2, H3, H4, H5, H6, H7⟩
  ihave H1' := (pointsTo_share (PosShare.mem_left_op_right fullShare)).1 $$ H1
  icases H1' with ⟨H1l, H1r⟩
  isplitl [H0]; · iexact H0
  isplitl [H1l]; · iexact H1l
  isplitl [H1r]; · iexact H1r
  isplitl [H2]; · iexact H2
  isplitl [H3]; · iexact H3
  isplitl [H4]; · iexact H4
  isplitl [H5]; · iexact H5
  isplitl [H6]; · iexact H6
  iexact H7

/-! ## The launch -/

/-- The rounds library's launch element: every staging cell's owner at round 0 and a duty token for every transfer
    the pipeline issues. -/
def u₀ : UR sig nD τ := initOf (Pipeline.cells cfgs Gen.cellOf_inj) (Pipeline.launchToks cfgs Gen.cellOf_inj)

variable (howed : ∀ c t, (dats 0 c).owed t = 0)
  (hin : ∀ c, Pipeline.scopedRest spec0 c ⊢ (dats 0 c).Φ 0)
  (hout : ∀ c, (dats 0 c).Φ (Fin.last cfg0.N) ⊢ Pipeline.scopedRest spec0 c)
  (hbody : ∀ c, Pipeline.BodyObligationLoose (dats 0 c) (defs₀ (F := F)) 𝒱₀ () Set.univ)

include hA hq howed hin hout hbody in
set_option backward.isDefEq.respectTransparency.types false in
/-- At the compiled mesh, for any float values, from any memory with zero counters, for exact proof data whose entry
    contents are the launch memory's, whose shares are the halves and wholes above, which owe nothing, whose invariant
    the two scratch buffers yield before the first point and yield back after the last, and whose body obligation
    holds: every weakly fair execution of @main on the TensorCores terminates, nothing faulting, and in every final
    state the array of every window holds what the proof data compute for it after the last write-back. -/
theorem run_main :
    θ_run defs (onTc (τ := τ) (main (F := F))) ⟨m, fun _ => 0, ρ⟩
      (fun r => ∀ (c : Dev nD) (w : Fin cfg0.W),
        r.2.mem ((cfg0.win w).arr.view.loc (c : Thread nD τ)) = (dats 0 c).arrAt w cfg0.N) :=
  Pipeline.θ_run_region_noSem_shared cfgs dats () Gen.cellOf_inj (0 : Fin 1) Gen.winFacts₀0 EP defs₀ 𝒱₀ m ρ main
    (hbody := hbody) (hne := Gen.block_pos0) (harr := Gen.arr_whole0) (hstage := Gen.stage_whole0)
    (howed := howed)
    (u₀ := u₀) (hu₀ := BI.Entails.refl _)
    (V := fun c b => m ((c : Thread nD τ).loc b))
    (hmain := fun c Q => by
      simp only [main, Prog.lift, Prog.bind_op, Prog.bind_ret]
      iintro ⟨Hk, Hb⟩; iapply Hk; iexact Hb)
    (hsplit := arrays_split m dats hA hq)
    (X := fun _ => iprop(emp)) (Y := fun _ => iprop(emp)) (Z := fun _ => iprop(emp))
    (hX := fun c => by rw [unscopedRest0_eq]; iintro -; isplitr <;> iempintro)
    (hin := fun c => (show iprop(emp ∗ Pipeline.scopedRest spec0 c) ⊢ Pipeline.scopedRest spec0 c from by
      iintro ⟨-, H⟩; iexact H).trans (hin c))
    (hout := fun c => (hout c).trans (show Pipeline.scopedRest spec0 c ⊢ iprop(emp ∗ Pipeline.scopedRest spec0 c) from by
      iintro H
      isplitr
      · iempintro
      · iexact H))
    (QY := fun _ _ => True)
    (hY := fun c s' => by
      iintro ⟨-, -, HSI⟩; imodintro
      isplitr; · ipureintro; trivial
      iexact HSI)
    (hQ := fun _ h c w => (h c).1 w)

end Data

/-- info: 'Cert.KernelIdeal.ValueLaunch.run_main' depends on axioms: [propext, Classical.choice, Quot.sound] -/
#guard_msgs in #print axioms run_main

end Cert.KernelIdeal.ValueLaunch

end
-- ==== Proof.IdealFinal.lean ====
/-
  What the arrays hold after the region: the node result is written back once, after the last point, whole; the
  hyperedge result stripe by stripe, the last stripe cut at the array's end; the arguments are never written.

  The node result's one block is the whole array (block index (0, 0), nothing cut), so an element of the block
  sits in the array at its own coordinates, and what the last point writes back is the rectified node features.
  The hyperedge result's block at point `t` is rows `512 t …` of the array, as many as lie below row 10000
  (512 of them, 272 at the last point); row `y` of the block is row `512 t + y` of the array, where the block
  holds the rectified hyperedge features; and row `r` of the array lies in the block of point `r / 512`.
-/
import proofs.«137455_g35845797052899_cont_8to1_b_606_24_alg».proof.Proof.IdealData
import Idealize.ShloMosaic.Lib.Pipeline.Value
import Idealize.ShloMosaic.Lib.Pipeline.Frame

noncomputable section

open scoped BigOperators

namespace Cert.KernelIdeal.ValueFinal

open Cert.KernelIdeal Cert.KernelIdeal.Gen Cert.KernelIdeal.ValueData
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-! ## The two result windows' index maps and cuts, decided over the grid -/

/-- The node result's block index is (0, 0) at every point. -/
theorem idx_facts7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-- The hyperedge result's block index at point `t` is (t, 0); its block is cut to 272 rows at the last point and
    to nothing elsewhere, and never along the features. -/
theorem idx_facts8 : ∀ t : Fin cfg0.N, win0_8.index t (0 : Fin 2) = t.val ∧ win0_8.index t (1 : Fin 2) = 0
    ∧ win0_8.xsize (grid0.coords t) (0 : Fin 2) = (if t.val = 19 then 272 else 512)
    ∧ win0_8.xsize (grid0.coords t) (1 : Fin 2) = 128 :=
  (by decide +kernel : ∀ t : Fin grid0.N, win0_8.index t (0 : Fin 2) = t.val ∧ win0_8.index t (1 : Fin 2) = 0
    ∧ win0_8.xsize (grid0.coords t) (0 : Fin 2) = (if t.val = 19 then 272 else 512)
    ∧ win0_8.xsize (grid0.coords t) (1 : Fin 2) = 128)

/-- A point's number is below 20. -/
theorem point_lt (t : Fin cfg0.N) : t.val < 20 := lt_of_lt_of_eq t.isLt N_0

/-! ## The node result -/

/-- What the last point writes back is the rectified node features, read through the window's one block. -/
theorem flushed7_eq (c : Dev nD) (t : Fin cfg0.N) (hf : (cfg0.win 7).flush t = true) :
    (dats m 0 c).flushed 7 t = ((cfg0.win 7).blk t).view.read (Elt Ideal)
      (Cert.Spec.outNode (xA m c) (BA m c) (W0A m c) (W1A m c) (b0A m c) (b1A m c)) := by
  have h20 := point_lt t
  have h19 : t.val = 19 := by have := (flush0_7 t).mp hf; omega
  obtain ⟨e0, e1⟩ := idx_facts7 t
  show (cfg0.win 7).cut (grid0.coords t) ((dats m 0 c).after 7 t) = _
  rw [after_7]
  funext j
  show nodeAcc m c t (win0_7.xinj (grid0.coords t) j)
    = Cert.Spec.outNode (xA m c) (BA m c) (W0A m c) (W1A m c) (b0A m c) (b1A m c) (((cfg0.win 7).blk t).view.emb j)
  unfold nodeAcc
  rw [if_pos h19]
  refine congrArg _ ?_
  funext a; apply Fin.ext
  match a with
  | ⟨0, _⟩ => show (j 0).val = win0_7.index t (0 : Fin 2) * 10000 + 1 * (j 0).val; omega
  | ⟨1, _⟩ => show (j 1).val = win0_7.index t (1 : Fin 2) * 128 + 1 * (j 1).val; omega

/-- An index of the array is in the node result's block iff each coordinate is in the block's range. -/
theorem mem_blk7 (t : Fin cfg0.N) (i : S10000x128.Idx) :
    i ∈ ((cfg0.win 7).blk t).view.set ↔ ∀ a : Fin 2, win0_7.index t a * S10000x128.size a ≤ (i a).val
      ∧ (i a).val < win0_7.index t a * S10000x128.size a + S10000x128.size a := by
  show i ∈ ((View.whole main_v0_0).slice (win0_7.rect t)).set ↔ _
  rw [View.set_slice_whole, Rect.mem_set_unit]
  exact Iff.rfl

/-- The last point. -/
abbrev tLast : Fin cfg0.N := ⟨19, by decide⟩

/-- The node result: the rectified node features. -/
theorem final_7 (c : Dev nD) :
    (dats m 0 c).arrAt 7 cfg0.N = Cert.Spec.outNode (xA m c) (BA m c) (W0A m c) (W1A m c) (b0A m c) (b1A m c) := by
  refine (dats m 0 c).arrAt_eq_of_cover 7 _ (fun t hf => flushed7_eq m c t hf)
    (fun i => ⟨tLast, (flush0_7 tLast).mpr rfl, ?_⟩)
  refine (mem_blk7 tLast i).mpr fun a => ?_
  obtain ⟨e0, e1⟩ := idx_facts7 tLast
  match a with
  | ⟨0, _⟩ =>
    show win0_7.index tLast (0 : Fin 2) * 10000 ≤ (i 0).val ∧ (i 0).val < win0_7.index tLast (0 : Fin 2) * 10000 + 10000
    have h : (i 0).val < 10000 := (i 0).isLt
    omega
  | ⟨1, _⟩ =>
    show win0_7.index tLast (1 : Fin 2) * 128 ≤ (i 1).val ∧ (i 1).val < win0_7.index tLast (1 : Fin 2) * 128 + 128
    have h : (i 1).val < 128 := (i 1).isLt
    omega

/-! ## The hyperedge result -/

/-- What point `t` writes back is its rows of the rectified hyperedge features: every row the write-back moves
    lies below row 10000. -/
theorem flushed8_eq (c : Dev nD) (t : Fin cfg0.N) :
    (dats m 0 c).flushed 8 t = ((cfg0.win 8).blk t).view.read (Elt Ideal)
      (Cert.Spec.outEdge (xA m c) (BA m c) (W0A m c) (b0A m c)) := by
  have h20 := point_lt t
  obtain ⟨e0, e1, e2, e3⟩ := idx_facts8 t
  show (cfg0.win 8).cut (grid0.coords t) ((dats m 0 c).after 8 t) = _
  rw [after_8]
  funext j
  have hj0 : (j 0).val < win0_8.xsize (grid0.coords t) (0 : Fin 2) := (j 0).isLt
  have hlt : 512 * t.val + (j 0).val < 10000 := by
    rw [e2] at hj0
    split at hj0 <;> omega
  show edgeBlk m c t (win0_8.xinj (grid0.coords t) j)
    = Cert.Spec.outEdge (xA m c) (BA m c) (W0A m c) (b0A m c) (((cfg0.win 8).blk t).view.emb j)
  unfold edgeBlk
  rw [dif_pos hlt]
  refine congrArg _ ?_
  funext a; apply Fin.ext
  match a with
  | ⟨0, _⟩ => show 512 * t.val + (j 0).val = win0_8.index t (0 : Fin 2) * 512 + 1 * (j 0).val; omega
  | ⟨1, _⟩ => show (j 1).val = win0_8.index t (1 : Fin 2) * 128 + 1 * (j 1).val; omega

/-- An index of the array is in point `t`'s block iff each coordinate is in the range the write-back moves. -/
theorem mem_blk8 (t : Fin cfg0.N) (i : S10000x128.Idx) :
    i ∈ ((cfg0.win 8).blk t).view.set ↔ ∀ a : Fin 2, win0_8.index t a * S512x128.size a ≤ (i a).val
      ∧ (i a).val < win0_8.index t a * S512x128.size a + win0_8.xsize (grid0.coords t) a := by
  show i ∈ ((View.whole main_v0_1).slice (win0_8.rect t)).set ↔ _
  rw [View.set_slice_whole, Rect.mem_set_unit]
  exact Iff.rfl

/-- Row `r` of the array lies in the block of point `r / 512`. -/
theorem cover8 (i : S10000x128.Idx) :
    ∃ t : Fin cfg0.N, (cfg0.win 8).flush t = true ∧ i ∈ ((cfg0.win 8).blk t).view.set := by
  have h0 : (i 0).val < 10000 := (i 0).isLt
  have h1 : (i 1).val < 128 := (i 1).isLt
  have hN : (i 0).val / 512 < cfg0.N := lt_of_lt_of_eq (by omega : (i 0).val / 512 < 20) N_0.symm
  refine ⟨⟨(i 0).val / 512, hN⟩, flush0_8 _, ?_⟩
  obtain ⟨e0, e1, e2, e3⟩ := idx_facts8 ⟨(i 0).val / 512, hN⟩
  refine (mem_blk8 _ i).mpr fun a => ?_
  match a with
  | ⟨0, _⟩ =>
    show win0_8.index ⟨(i 0).val / 512, hN⟩ (0 : Fin 2) * 512 ≤ (i 0).val
      ∧ (i 0).val < win0_8.index ⟨(i 0).val / 512, hN⟩ (0 : Fin 2) * 512 + win0_8.xsize (grid0.coords ⟨(i 0).val / 512, hN⟩) (0 : Fin 2)
    rw [e0, e2]
    show (i 0).val / 512 * 512 ≤ (i 0).val ∧ (i 0).val < (i 0).val / 512 * 512 + (if (i 0).val / 512 = 19 then 272 else 512)
    split <;> omega
  | ⟨1, _⟩ =>
    show win0_8.index ⟨(i 0).val / 512, hN⟩ (1 : Fin 2) * 128 ≤ (i 1).val
      ∧ (i 1).val < win0_8.index ⟨(i 0).val / 512, hN⟩ (1 : Fin 2) * 128 + win0_8.xsize (grid0.coords ⟨(i 0).val / 512, hN⟩) (1 : Fin 2)
    rw [e1, e3]
    omega

/-- The hyperedge result: the rectified hyperedge features. -/
theorem final_8 (c : Dev nD) :
    (dats m 0 c).arrAt 8 cfg0.N = Cert.Spec.outEdge (xA m c) (BA m c) (W0A m c) (b0A m c) :=
  (dats m 0 c).arrAt_eq_of_cover 8 _ (fun t _ => flushed8_eq m c t) (fun i => cover8 i)

/-! ## The arguments -/

/-- An argument array ends as it began. -/
theorem final_in (c : Dev nD) (w : Fin cfg0.W) (hw : (cfg0.win w).isOut = false) :
    (dats m 0 c).arrAt w cfg0.N = m ((cfg0.win w).arr.view.loc (c : Thread nD τ)) :=
  ((dats m 0 c).arrAt_in w hw _).trans (A_eq m c w)

end Cert.KernelIdeal.ValueFinal

end
-- ==== Proof.RefValue.lean ====
/-
  The reference program's two results are `Spec.outNode` and `Spec.outEdge` of its argument arrays.

  The reference is read one operation at a time, each at an index `ix2 row column`:
    the first product           x · W0                         is `Spec.proj`,
    the transposed incidence    Bᵀ e n = B n e,
    the second product plus b0  Σ_n B n e · proj n d + b0 d     is `Spec.edgePre`,
    the third product           Σ_k edgePre e k · W1 k d        is `Spec.edgeMsg`,
    the fourth product plus b1  Σ_e B n e · edgeMsg e d + b1 d  is `Spec.nodePre`,
  and each rectifier is the maximum with the zero word, which denotes the extended real 0.
  Every step is the definitional reading of one operation at the ideal values together with the equation that
  says which entry of an operand a composed index function picks out; no finiteness is used.
-/
import proofs.«137455_g35845797052899_cont_8to1_b_606_24_alg».proof.Proof.Gen.ReferenceIdeal.Run
import proofs.«137455_g35845797052899_cont_8to1_b_606_24_alg».proof.Proof.Gen.ReferenceIdeal.Read
import proofs.«137455_g35845797052899_cont_8to1_b_606_24_alg».proof.Proof.Spec
import Idealize.ShloMosaic.Lib.ValueIdx
import Idealize.ShloMosaic.PureOps.Ideal.Laws

noncomputable section

open scoped BigOperators

namespace Cert.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

variable (x0 : (⟨S10000x128, .f32⟩ : BufTy).Contents (Elt Ideal)) (x1 : (⟨S10000x10000, .f32⟩ : BufTy).Contents (Elt Ideal))
  (x2 x3 : (⟨S128x128, .f32⟩ : BufTy).Contents (Elt Ideal)) (x4 x5 : (⟨S1x128, .f32⟩ : BufTy).Contents (Elt Ideal))

/-! ## Which entry of an operand each composed index picks out -/

/-- Row `n` of the left factor of a product with a 128-wide contraction, at contraction position `k`. -/
theorem lidx1 (n : Fin 10000) (d k : Fin 128) : lidx_main_v1 (ix2 n d) k = ix2 n k :=
  funext fun a => by match a with | ⟨0, _⟩ => rfl | ⟨1, _⟩ => rfl
/-- Column `d` of the right factor (a weight matrix), at contraction position `k`. -/
theorem ridx1 (n : Fin 10000) (d k : Fin 128) : ridx_main_v1 (ix2 n d) k = ix2 k d :=
  funext fun a => by match a with | ⟨0, _⟩ => rfl | ⟨1, _⟩ => rfl
/-- The transpose swaps the two coordinates. -/
theorem idx0 (e n : Fin 10000) : idx_main_v0 (ix2 e n) = ix2 n e :=
  funext fun a => by match a with | ⟨0, _⟩ => rfl | ⟨1, _⟩ => rfl
theorem lidx2 (e : Fin 10000) (d : Fin 128) (k : Fin 10000) : lidx_main_v2 (ix2 e d) k = ix2 e k :=
  funext fun a => by match a with | ⟨0, _⟩ => rfl | ⟨1, _⟩ => rfl
theorem ridx2 (e : Fin 10000) (d : Fin 128) (k : Fin 10000) : ridx_main_v2 (ix2 e d) k = ix2 k d :=
  funext fun a => by match a with | ⟨0, _⟩ => rfl | ⟨1, _⟩ => rfl
/-- A bias row is read at its one row, whatever the row of the result. -/
theorem idx3 (e : Fin 10000) (d : Fin 128) : idx_main_v3 (ix2 e d) = ix2 (0 : Fin 1) d :=
  funext fun a => by match a with | ⟨0, _⟩ => rfl | ⟨1, _⟩ => rfl
theorem lidx5 (e : Fin 10000) (d k : Fin 128) : lidx_main_v5 (ix2 e d) k = ix2 e k :=
  funext fun a => by match a with | ⟨0, _⟩ => rfl | ⟨1, _⟩ => rfl
theorem ridx5 (e : Fin 10000) (d k : Fin 128) : ridx_main_v5 (ix2 e d) k = ix2 k d :=
  funext fun a => by match a with | ⟨0, _⟩ => rfl | ⟨1, _⟩ => rfl
theorem lidx6 (n : Fin 10000) (d : Fin 128) (k : Fin 10000) : lidx_main_v6 (ix2 n d) k = ix2 n k :=
  funext fun a => by match a with | ⟨0, _⟩ => rfl | ⟨1, _⟩ => rfl
theorem ridx6 (n : Fin 10000) (d : Fin 128) (k : Fin 10000) : ridx_main_v6 (ix2 n d) k = ix2 k d :=
  funext fun a => by match a with | ⟨0, _⟩ => rfl | ⟨1, _⟩ => rfl
theorem idx7 (n : Fin 10000) (d : Fin 128) : idx_main_v7 (ix2 n d) = ix2 (0 : Fin 1) d :=
  funext fun a => by match a with | ⟨0, _⟩ => rfl | ⟨1, _⟩ => rfl

/-! ## The stages, each at an index given by its coordinates -/

/-- The first product is the projected node features. -/
theorem proj_eq (n : Fin 10000) (d : Fin 128) :
    val_main_v1 (F := Ideal) x0 x2 (ix2 n d) = Cert.Spec.proj x0 x2 n d := by
  rw [val_main_v1_apply]
  unfold Cert.Spec.proj
  refine Finset.sum_congr rfl fun k _ => ?_
  rw [lidx1, ridx1]

/-- The transposed incidence matrix at (hyperedge, node) is the incidence matrix at (node, hyperedge). -/
theorem incT_eq (e n : Fin 10000) : val_main_v0 (F := Ideal) x1 (ix2 e n) = x1 (ix2 n e) := by
  rw [val_main_v0_apply, idx0]

/-- The second product gathers the projected features of a hyperedge's nodes. -/
theorem edgeSum_eq (e : Fin 10000) (d : Fin 128) :
    val_main_v2 (F := Ideal) x0 x1 x2 (ix2 e d) = ∑ n : Fin 10000, x1 (ix2 n e) * Cert.Spec.proj x0 x2 n d := by
  rw [val_main_v2_apply]
  refine Finset.sum_congr rfl fun k _ => ?_
  rw [lidx2, ridx2, incT_eq, proj_eq]

/-- The first bias, broadcast along the rows. -/
theorem bias0_eq (e : Fin 10000) (d : Fin 128) : val_main_v3 (F := Ideal) x4 (ix2 e d) = x4 (ix2 (0 : Fin 1) d) := by
  rw [val_main_v3_apply, idx3]

/-- Hyperedge features before the rectifier. -/
theorem edgePre_eq (e : Fin 10000) (d : Fin 128) :
    val_main_v4 (F := Ideal) x0 x1 x2 x4 (ix2 e d) = Cert.Spec.edgePre x0 x1 x2 x4 e d := by
  rw [val_main_v4_apply, Ideal.addf_def, edgeSum_eq, bias0_eq]
  rfl

/-- The third product: what a hyperedge sends back. -/
theorem edgeMsg_eq (e : Fin 10000) (d : Fin 128) :
    val_main_v5 (F := Ideal) x0 x1 x2 x3 x4 (ix2 e d) = Cert.Spec.edgeMsg x0 x1 x2 x3 x4 e d := by
  rw [val_main_v5_apply]
  unfold Cert.Spec.edgeMsg
  refine Finset.sum_congr rfl fun k _ => ?_
  rw [lidx5, ridx5, edgePre_eq]

/-- The fourth product scatters the messages back to a node's hyperedges. -/
theorem nodeSum_eq (n : Fin 10000) (d : Fin 128) :
    val_main_v6 (F := Ideal) x0 x1 x2 x3 x4 (ix2 n d)
      = ∑ e : Fin 10000, x1 (ix2 n e) * Cert.Spec.edgeMsg x0 x1 x2 x3 x4 e d := by
  rw [val_main_v6_apply]
  refine Finset.sum_congr rfl fun k _ => ?_
  rw [lidx6, ridx6, edgeMsg_eq]

/-- The second bias, broadcast along the rows. -/
theorem bias1_eq (n : Fin 10000) (d : Fin 128) : val_main_v7 (F := Ideal) x5 (ix2 n d) = x5 (ix2 (0 : Fin 1) d) := by
  rw [val_main_v7_apply, idx7]

/-- Node features before the rectifier. -/
theorem nodePre_eq (n : Fin 10000) (d : Fin 128) :
    val_main_v8 (F := Ideal) x0 x1 x2 x3 x4 x5 (ix2 n d) = Cert.Spec.nodePre x0 x1 x2 x3 x4 x5 n d := by
  rw [val_main_v8_apply, Ideal.addf_def, nodeSum_eq, bias1_eq]
  rfl

/-- The rectifier's second operand is the extended real 0 at every index (first rectifier). -/
theorem zero0_eq (i : S10000x128.Idx) : val_main_call0_v0 (F := Ideal) i = 0 := by
  rw [val_main_call0_v0_apply, val_main_call0_cst_apply, Ideal.ofBits_def, Ideal.ofBits_zero_f32]

/-- The rectifier's second operand is the extended real 0 at every index (second rectifier). -/
theorem zero1_eq (i : S10000x128.Idx) : val_main_call1_v0 (F := Ideal) i = 0 := by
  rw [val_main_call1_v0_apply, val_main_call1_cst_apply, Ideal.ofBits_def, Ideal.ofBits_zero_f32]

/-! ## The two results -/

/-- The reference's first result is the rectified node features. -/
theorem outNode_eq :
    val_main_v9 (F := Ideal) x0 x1 x2 x3 x4 x5 = Cert.Spec.outNode x0 x1 x2 x3 x4 x5 := by
  funext i
  obtain ⟨n, d, rfl⟩ : ∃ (n : Fin 10000) (d : Fin 128), i = ix2 n d := ⟨i 0, i 1, eq_ix2 i⟩
  rw [val_main_v9_apply, Ideal.maximumf_def, nodePre_eq, zero0_eq]
  rfl

/-- The reference's second result is the rectified hyperedge features. -/
theorem outEdge_eq :
    val_main_v10 (F := Ideal) x0 x1 x2 x4 = Cert.Spec.outEdge x0 x1 x2 x4 := by
  funext i
  obtain ⟨e, d, rfl⟩ : ∃ (e : Fin 10000) (d : Fin 128), i = ix2 e d := ⟨i 0, i 1, eq_ix2 i⟩
  rw [val_main_v10_apply, Ideal.maximumf_def, edgePre_eq, zero1_eq]
  rfl

/-! ## The reference's run, with its two results named by the specification -/

/-- On every device, from any memory with zero counters, every weakly fair execution of the reference terminates
    with its first result the rectified node features and its second the rectified hyperedge features of the
    arguments' launch contents, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v9) = Cert.Spec.outNode (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v10) = Cert.Spec.outEdge (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c).1.trans ((val_main_v9_eq _ _ _ _ _ _).trans (outNode_eq _ _ _ _ _ _)),
       (h c).2.1.trans ((val_main_v10_eq _ _ _ _).trans (outEdge_eq _ _ _ _)),
       (h c).2.2⟩)
    (Cert.ReferenceIdeal.Value.run (F := Ideal) m ρ)

end Cert.RefValue

end
-- ==== Proof.lean ====
/-
  The certificate's claims, assembled.

  The kernel walks the hyperedges in twenty stripes of 512 (the last overhanging the axis by 240). Per stripe it
  forms the stripe's hyperedge features from the transposed projected node features it keeps in scratch, stores
  their rectified block, and adds the stripe's messages into a node accumulator held across the grid; rows past
  the axis' end are zeroed before they are used, so at the ideal instance whatever the half-stripes hold there is
  multiplied by zero. After the last stripe the accumulator is the whole sum over the hyperedges; the bias is
  added and the rectifier applied. Both results are the reference's, entry by entry, by commutativity and
  associativity of the extended reals' sum and product alone (no finiteness is used).

  The word-level program's frame says nothing of values: its body runs on any contents. The idealized
  program's frame is its value run with the results dropped; the reference's its run with the results dropped.
-/
import proofs.«137455_g35845797052899_cont_8to1_b_606_24_alg».proof.Defs
import proofs.«137455_g35845797052899_cont_8to1_b_606_24_alg».proof.Proof.Gen.Kernel
import proofs.«137455_g35845797052899_cont_8to1_b_606_24_alg».proof.Proof.Gen.KernelIdeal
import proofs.«137455_g35845797052899_cont_8to1_b_606_24_alg».proof.Proof.Gen.ReferenceIdeal
import proofs.«137455_g35845797052899_cont_8to1_b_606_24_alg».proof.Proof.Gen.Pre_finite_inputs
import proofs.«137455_g35845797052899_cont_8to1_b_606_24_alg».proof.Proof.BitsBody
import proofs.«137455_g35845797052899_cont_8to1_b_606_24_alg».proof.Proof.BitsLaunch
import proofs.«137455_g35845797052899_cont_8to1_b_606_24_alg».proof.Proof.IdealBody
import proofs.«137455_g35845797052899_cont_8to1_b_606_24_alg».proof.Proof.IdealLaunch
import proofs.«137455_g35845797052899_cont_8to1_b_606_24_alg».proof.Proof.IdealFinal
import proofs.«137455_g35845797052899_cont_8to1_b_606_24_alg».proof.Proof.RefValue
import Idealize.ShloMosaic.Adequacy
import Idealize.ShloMosaic.Init

noncomputable section

namespace Cert.Proof

open Idealize.ShloMosaic Idealize.ShloMosaic.TcCoe Idealize.SL.Sem
open Idealize.SL Idealize.SL.BI
open scoped Idealize.SL.BI
open Idealize.SL.BI.BIBase Idealize.SL.BI.Laws Idealize.SL.ProofMode

section KernelIdealRun

open Cert.KernelIdeal Cert.KernelIdeal.Gen Cert.KernelIdeal.ValueData

/-- The two statements of how the incidence matrix' share is dealt to its two windows agree. -/
theorem share_same : Cert.KernelIdeal.ValueData.shareOf = Cert.KernelIdeal.ValueLaunch.shareOf := by
  funext w
  match w with
  | ⟨0, _⟩ => rfl | ⟨1, _⟩ => rfl | ⟨2, _⟩ => rfl | ⟨3, _⟩ => rfl | ⟨4, _⟩ => rfl
  | ⟨5, _⟩ => rfl | ⟨6, _⟩ => rfl | ⟨7, _⟩ => rfl | ⟨8, _⟩ => rfl

/-- The idealized kernel's run: both results in the specification's terms, the arguments unchanged. -/
theorem kernelIdeal_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0_0) = Cert.Spec.outNode (xA m c) (BA m c) (W0A m c) (W1A m c) (b0A m c) (b1A m c)
      ∧ r.2.mem ((c.tc : Thread nD τ).loc main_v0_1) = Cert.Spec.outEdge (xA m c) (BA m c) (W0A m c) (b0A m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ⟨?_, ?_, ?_, ?_, ?_, ?_, ?_, ?_⟩)
    (Cert.KernelIdeal.ValueLaunch.run_main (F := Ideal) m ρ (dats m) (A_eq m) (fun c => (q_eq m c).trans share_same) (owed_eq m)
      (fun c => by rw [Phi_eq]; unfold PhiAt; rw [Fin.val_zero, if_pos rfl])
      (fun c => by
        rw [Phi_eq]; unfold PhiAt
        rw [if_neg (show ¬((Fin.last cfg0.N : Fin (cfg0.N + 1)).val = 0) from by rw [Fin.val_last]; have h20 : cfg0.N = 20 := N_0; omega), scopedRest0_eq, owns_whole, owns_whole]
        iintro ⟨H0, H1⟩
        isplitl [H0]
        · iexists _; iexact H0
        · iexists _; iexact H1)
      (Cert.KernelIdeal.ValueBody.body_obligation m))
  · exact (h c 7).trans (Cert.KernelIdeal.ValueFinal.final_7 m c)
  · exact (h c 8).trans (Cert.KernelIdeal.ValueFinal.final_8 m c)
  · exact (h c 0).trans (Cert.KernelIdeal.ValueFinal.final_in m c 0 rfl)
  · exact (h c 1).trans (Cert.KernelIdeal.ValueFinal.final_in m c 1 rfl)
  · exact (h c 3).trans (Cert.KernelIdeal.ValueFinal.final_in m c 3 rfl)
  · exact (h c 4).trans (Cert.KernelIdeal.ValueFinal.final_in m c 4 rfl)
  · exact (h c 5).trans (Cert.KernelIdeal.ValueFinal.final_in m c 5 rfl)
  · exact (h c 6).trans (Cert.KernelIdeal.ValueFinal.final_in m c 6 rfl)

end KernelIdealRun

/-- The word-level program runs to the end and leaves its arguments as they were. -/
theorem frame_p : Cert.frame_Kernel :=
  Cert.Kernel.FrameLaunch.frame_of_body fun m c => Cert.Kernel.FrameBody.body_obligation m c

/-- So does the idealized one: its value run, the results dropped. -/
theorem frame_pi : Cert.frame_KernelIdeal := fun m ρ _ =>
  (θ_run Cert.KernelIdeal.defs _ _).mono (fun _ h c => (h c).2.2) (kernelIdeal_run m ρ)

/-- And the reference: its run, the results dropped. -/
theorem frame_ri : Cert.frame_ReferenceIdeal := fun m ρ _ =>
  (θ_run Cert.ReferenceIdeal.defs _ _).mono (fun _ h c => (h c).2.2) (Cert.RefValue.run m ρ)

/-- From arguments that agree, both idealized programs end with the specification's two results. -/
theorem algebraic : Cert.algebraic_KernelIdeal_ReferenceIdeal := by
  intro m ρ m' ρ' _ hagree
  refine ⟨_, _, kernelIdeal_run m ρ, ?_⟩
  refine (θ_run Cert.ReferenceIdeal.defs _ _).mono (fun _ h c => ⟨?_, ?_, (h c).2.2⟩) (Cert.RefValue.run m' ρ')
  · rw [(h c).1, (hagree c).1, (hagree c).2.1, (hagree c).2.2.1, (hagree c).2.2.2.1, (hagree c).2.2.2.2.1, (hagree c).2.2.2.2.2]
  · rw [(h c).2.1, (hagree c).1, (hagree c).2.1, (hagree c).2.2.1, (hagree c).2.2.2.2.1]

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
